-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v97)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v97) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S50000 : Shape := ⟨1, ![50000]⟩
abbrev S64x64 : Shape := ⟨2, ![64, 64]⟩
abbrev S64 : Shape := ⟨1, ![64]⟩
abbrev S64x128 : Shape := ⟨2, ![64, 128]⟩
abbrev S128 : Shape := ⟨1, ![128]⟩
abbrev S128x64 : Shape := ⟨2, ![128, 64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S2x800000 : S_.BroadcastsInDim S2x800000 (![] : Fin 0 → Fin S2x800000.rank)
  reducesTo_S2x800000_S_d0_1 : S2x800000.ReducesTo [0, 1] S_
  bcast_S_S50000 : S_.BroadcastsInDim S50000 (![] : Fin 0 → Fin S50000.rank)
  reducesTo_S50000_S_d0 : S50000.ReducesTo [0] S_

variable [Facts]

def fn_part2 {F : FTy → Type} [FloatOps F] (main_arg1 : IVec S2x800000 32) (main_arg2 : IVec S50000 32) (main_v33 : IVec S_ 1) : IVec S_ 1 :=
  let main_c_12 : IVec S_ 32 := constantI S_ 32 0#32
  let main_v34 : IVec S2x800000 32 := broadcastInDim S2x800000 ![] bcast_S_S2x800000 main_c_12
  let main_v35 : IVec S2x800000 1 := cmpi .sge main_arg1 main_v34
  let main_c_13 : IVec S_ 1 := constantI S_ 1 1#1
  let main_v36 : IVec S_ 1 := (fun x v => Host.reduce IntOp.andi x v reducesTo_S2x800000_S_d0_1 h_S_) main_v35 main_c_13
  let main_v37 : IVec S_ 1 := andi main_v33 main_v36
  let main_c_14 : IVec S_ 32 := constantI S_ 32 50000#32
  let main_v38 : IVec S2x800000 32 := broadcastInDim S2x800000 ![] bcast_S_S2x800000 main_c_14
  let main_v39 : IVec S2x800000 1 := cmpi .slt main_arg1 main_v38
  let main_c_15 : IVec S_ 1 := constantI S_ 1 1#1
  let main_v40 : IVec S_ 1 := (fun x v => Host.reduce IntOp.andi x v reducesTo_S2x800000_S_d0_1 h_S_) main_v39 main_c_15
  let main_v41 : IVec S_ 1 := andi main_v37 main_v40
  let main_c_16 : IVec S_ 32 := constantI S_ 32 0#32
  let main_v42 : IVec S50000 32 := broadcastInDim S50000 ![] bcast_S_S50000 main_c_16
  let main_v43 : IVec S50000 1 := cmpi .sge main_arg2 main_v42
  let main_c_17 : IVec S_ 1 := constantI S_ 1 1#1
  let main_v44 : IVec S_ 1 := (fun x v => Host.reduce IntOp.andi x v reducesTo_S50000_S_d0 h_S_) main_v43 main_c_17
  let main_v45 : IVec S_ 1 := andi main_v41 main_v44
  main_v45

def fn_part1 {F : FTy → Type} [FloatOps F] (main_arg1 : IVec S2x800000 32) (main_arg2 : IVec S50000 32) (main_arg6 : FVec F S128 .f32) (main_arg7 : FVec F S128x64 .f32) (main_arg8 : FVec F S64 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg7
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg1 main_arg2 main_v33

def fn {F : FTy → Type} [FloatOps F] (main_arg0 : FVec F S50000x64 .f32) (main_arg1 : IVec S2x800000 32) (main_arg2 : IVec S50000 32) (main_arg3 : FVec F S64x64 .f32) (main_arg4 : FVec F S64 .f32) (main_arg5 : FVec F S64x128 .f32) (main_arg6 : FVec F S128 .f32) (main_arg7 : FVec F S128x64 .f32) (main_arg8 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x128 .f32 := Host.absf main_arg5
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg1 main_arg2 main_arg6 main_arg7 main_arg8 main_v13 main_v16
-- ==== Kernel.lean ====
abbrev S50000x64 : Shape := ⟨2, ![50000, 64]⟩
abbrev S2x800000 : Shape := ⟨2, ![2, 800000]⟩
abbrev S50000 : Shape := ⟨1, ![50000]⟩
abbrev S64x64 : Shape := ⟨2, ![64, 64]⟩
abbrev S64 : Shape := ⟨1, ![64]⟩
abbrev S64x128 : Shape := ⟨2, ![64, 128]⟩
abbrev S128 : Shape := ⟨1, ![128]⟩
abbrev S128x64 : Shape := ⟨2, ![128, 64]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50048x64 : Shape := ⟨2, ![50048, 64]⟩
abbrev S6256x64 : Shape := ⟨2, ![6256, 64]⟩
abbrev S850000x64 : Shape := ⟨2, ![850000, 64]⟩
abbrev S1x64 : Shape := ⟨2, ![1, 64]⟩
abbrev S50048x128 : Shape := ⟨2, ![50048, 128]⟩
abbrev S6256x128 : Shape := ⟨2, ![6256, 128]⟩
abbrev S850000x128 : Shape := ⟨2, ![850000, 128]⟩
abbrev S1x128 : Shape := ⟨2, ![1, 128]⟩
abbrev S50048 : Shape := ⟨1, ![50048]⟩
abbrev S50048x1 : Shape := ⟨2, ![50048, 1]⟩
abbrev S512x128 : Shape := ⟨2, ![512, 128]⟩
abbrev S3128x128 : Shape := ⟨2, ![3128, 128]⟩
abbrev S3128x1 : Shape := ⟨2, ![3128, 1]⟩
abbrev S3128x512 : Shape := ⟨2, ![3128, 512]⟩
abbrev S512 : Shape := ⟨1, ![512]⟩
abbrev S50000x1 : Shape := ⟨2, ![50000, 1]⟩
abbrev S512x1 : Shape := ⟨2, ![512, 1]⟩
abbrev S512x64 : Shape := ⟨2, ![512, 64]⟩

abbrev nBuf : Space → Nat
  | .hbm => 137
  | .vmem => 20
  | .smem => 0
  | _ => 0

abbrev hbmTy0_0 (i : Nat) : BufTy := match i % 128 with
  | 0 => ⟨S50000x64, .f32⟩
  | 1 => ⟨S2x800000, .i32⟩
  | 2 => ⟨S50000, .i32⟩
  | 3 => ⟨S64x64, .f32⟩
  | 4 => ⟨S64, .f32⟩
  | 5 => ⟨S64x128, .f32⟩
  | 6 => ⟨S128, .f32⟩
  | 7 => ⟨S128x64, .f32⟩
  | 8 => ⟨S64, .f32⟩
  | 9 => ⟨S50000, .i32⟩
  | 10 => ⟨S1x800000, .i32⟩
  | 11 => ⟨S800000, .i32⟩
  | 12 => ⟨S850000, .i32⟩
  | 13 => ⟨S1x800000, .i32⟩
  | 14 => ⟨S800000, .i32⟩
  | 15 => ⟨S850000, .i32⟩
  | 16 => ⟨S_, .f32⟩
  | 17 => ⟨S50000, .f32⟩
  | 18 => ⟨S_, .i32⟩
  | 19 => ⟨S850000, .i32⟩
  | 20 => ⟨S850000, .i1⟩
  | 21 => ⟨S_, .i32⟩
  | 22 => ⟨S850000, .i32⟩
  | 23 => ⟨S850000, .i32⟩
  | 24 => ⟨S850000, .i32⟩
  | 25 => ⟨S850000x1, .i32⟩
  | 26 => ⟨S_, .f32⟩
  | 27 => ⟨S850000, .f32⟩
  | 28 => ⟨S50000, .f32⟩
  | 29 => ⟨S50000, .f32⟩
  | 30 => ⟨S_, .i32⟩
  | 31 => ⟨S850000, .i32⟩
  | 32 => ⟨S850000, .i1⟩
  | 33 => ⟨S_, .i32⟩
  | 34 => ⟨S850000, .i32⟩
  | 35 => ⟨S850000, .i32⟩
  | 36 => ⟨S850000, .i32⟩
  | 37 => ⟨S850000x1, .i32⟩
  | 38 => ⟨S850000, .f32⟩
  | 39 => ⟨S_, .i32⟩
  | 40 => ⟨S850000, .i32⟩
  | 41 => ⟨S850000, .i1⟩
  | 42 => ⟨S_, .i32⟩
  | 43 => ⟨S850000, .i32⟩
  | 44 => ⟨S850000, .i32⟩
  | 45 => ⟨S850000, .i32⟩
  | 46 => ⟨S850000x1, .i32⟩
  | 47 => ⟨S850000, .f32⟩
  | 48 => ⟨S850000, .f32⟩
  | 49 => ⟨S_, .i32⟩
  | 50 => ⟨S_, .f32⟩
  | 51 => ⟨S50048x64, .f32⟩
  | 52 => ⟨S50048x64, .f32⟩
  | 53 => ⟨S_, .i32⟩
  | 54 => ⟨S850000, .i32⟩
  | 55 => ⟨S850000, .i1⟩
  | 56 => ⟨S_, .i32⟩
  | 57 => ⟨S850000, .i32⟩
  | 58 => ⟨S850000, .i32⟩
  | 59 => ⟨S850000, .i32⟩
  | 60 => ⟨S850000x1, .i32⟩
  | 61 => ⟨S850000x64, .f32⟩
  | 62 => ⟨S850000x1, .f32⟩
  | 63 => ⟨S850000x64, .f32⟩
  | 64 => ⟨S850000x64, .f32⟩
  | 65 => ⟨S_, .f32⟩
  | 66 => ⟨S50048x64, .f32⟩
  | 67 => ⟨S_, .i32⟩
  | 68 => ⟨S850000, .i32⟩
  | 69 => ⟨S850000, .i1⟩
  | 70 => ⟨S_, .i32⟩
  | 71 => ⟨S850000, .i32⟩
  | 72 => ⟨S850000, .i32⟩
  | 73 => ⟨S850000, .i32⟩
  | 74 => ⟨S850000x1, .i32⟩
  | 75 => ⟨S50048x64, .f32⟩
  | 76 => ⟨S1x64, .f32⟩
  | 77 => ⟨S50048x64, .f32⟩
  | 78 => ⟨S50048x64, .f32⟩
  | 79 => ⟨S50048x128, .f32⟩
  | 80 => ⟨S_, .i32⟩
  | 81 => ⟨S850000, .i32⟩
  | 82 => ⟨S850000, .i1⟩
  | 83 => ⟨S_, .i32⟩
  | 84 => ⟨S850000, .i32⟩
  | 85 => ⟨S850000, .i32⟩
  | 86 => ⟨S850000, .i32⟩
  | 87 => ⟨S850000x1, .i32⟩
  | 88 => ⟨S850000x128, .f32⟩
  | 89 => ⟨S850000x1, .f32⟩
  | 90 => ⟨S850000x128, .f32⟩
  | 91 => ⟨S850000x128, .f32⟩
  | 92 => ⟨S_, .f32⟩
  | 93 => ⟨S50048x128, .f32⟩
  | 94 => ⟨S_, .i32⟩
  | 95 => ⟨S850000, .i32⟩
  | 96 => ⟨S850000, .i1⟩
  | 97 => ⟨S_, .i32⟩
  | 98 => ⟨S850000, .i32⟩
  | 99 => ⟨S850000, .i32⟩
  | 100 => ⟨S850000, .i32⟩
  | 101 => ⟨S850000x1, .i32⟩
  | 102 => ⟨S50048x128, .f32⟩
  | 103 => ⟨S1x128, .f32⟩
  | 104 => ⟨S50048x128, .f32⟩
  | 105 => ⟨S50048x128, .f32⟩
  | 106 => ⟨S_, .i32⟩
  | 107 => ⟨S_, .i32⟩
  | 108 => ⟨S50048, .i32⟩
  | 109 => ⟨S50048x1, .i32⟩
  | 110 => ⟨S512x128, .f32⟩
  | 111 => ⟨S_, .i32⟩
  | 112 => ⟨S512, .i32⟩
  | 113 => ⟨S_, .i32⟩
  | 114 => ⟨S_, .i32⟩
  | 115 => ⟨S50000, .i32⟩
  | 116 => ⟨S50000, .i32⟩
  | 117 => ⟨S_, .i32⟩
  | 118 => ⟨S50000, .i32⟩
  | 119 => ⟨S50000, .i1⟩
  | 120 => ⟨S_, .i32⟩
  | 121 => ⟨S50000, .i32⟩
  | 122 => ⟨S50000, .i32⟩
  | 123 => ⟨S50000, .i32⟩
  | 124 => ⟨S50000x1, .i32⟩
  | 125 => ⟨S_, .i32⟩
  | 126 => ⟨S50000, .i32⟩
  | 127 => ⟨S512, .i32⟩
  | _ => ⟨S50000x64, .f32⟩

abbrev hbmTy0_1 (i : Nat) : BufTy := match i % 128 with
  | 0 => ⟨S512, .f32⟩
  | 1 => ⟨S_, .f32⟩
  | 2 => ⟨S512, .f32⟩
  | 3 => ⟨S512, .f32⟩
  | 4 => ⟨S512x1, .f32⟩
  | 5 => ⟨S512x128, .f32⟩
  | 6 => ⟨S512x128, .f32⟩
  | 7 => ⟨S1x64, .f32⟩
  | 8 => ⟨S512x64, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | .local _ .vmem, ⟨0, _⟩ => ⟨S6256x64, .f32⟩
  | .local _ .vmem, ⟨1, _⟩ => ⟨S6256x64, .f32⟩
  | .local _ .vmem, ⟨2, _⟩ => ⟨S64x64, .f32⟩
  | .local _ .vmem, ⟨3, _⟩ => ⟨S6256x64, .f32⟩
  | .local _ .vmem, ⟨4, _⟩ => ⟨S6256x64, .f32⟩
  | .local _ .vmem, ⟨5, _⟩ => ⟨S6256x64, .f32⟩
  | .local _ .vmem, ⟨6, _⟩ => ⟨S6256x64, .f32⟩
  | .local _ .vmem, ⟨7, _⟩ => ⟨S64x128, .f32⟩
  | .local _ .vmem, ⟨8, _⟩ => ⟨S6256x128, .f32⟩
  | .local _ .vmem, ⟨9, _⟩ => ⟨S6256x128, .f32⟩
  | .local _ .vmem, ⟨10, _⟩ => ⟨S3128x128, .f32⟩
  | .local _ .vmem, ⟨11, _⟩ => ⟨S3128x128, .f32⟩
  | .local _ .vmem, ⟨12, _⟩ => ⟨S3128x1, .i32⟩
  | .local _ .vmem, ⟨13, _⟩ => ⟨S3128x1, .i32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S128x64, .f32⟩
  | .local _ .vmem, ⟨18, _⟩ => ⟨S1x64, .f32⟩
  | .local _ .vmem, ⟨19, _⟩ => ⟨S512x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_c : Ref sig .tc := ⟨.hbm, 18, rfl⟩
abbrev main_v8 : Ref sig .tc := ⟨.hbm, 19, rfl⟩
abbrev main_v9 : Ref sig .tc := ⟨.hbm, 20, rfl⟩
abbrev main_c_0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c_2 : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_6 : Ref sig .tc := ⟨.hbm, 49, rfl⟩
abbrev main_call0_v0 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_c_8 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_c_10 : Ref sig .tc := ⟨.hbm, 67, rfl⟩
abbrev main_v45 : Ref sig .tc := ⟨.hbm, 68, rfl⟩
abbrev main_v46 : Ref sig .tc := ⟨.hbm, 69, rfl⟩
abbrev main_c_11 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_c_12 : Ref sig .tc := ⟨.hbm, 80, rfl⟩
abbrev main_v56 : Ref sig .tc := ⟨.hbm, 81, rfl⟩
abbrev main_v57 : Ref sig .tc := ⟨.hbm, 82, rfl⟩
abbrev main_c_13 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_14 : Ref sig .tc := ⟨.hbm, 92, rfl⟩
abbrev main_v66 : Ref sig .tc := ⟨.hbm, 93, rfl⟩
abbrev main_c_15 : Ref sig .tc := ⟨.hbm, 94, rfl⟩
abbrev main_v67 : Ref sig .tc := ⟨.hbm, 95, rfl⟩
abbrev main_v68 : Ref sig .tc := ⟨.hbm, 96, rfl⟩
abbrev main_c_16 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_c_17 : Ref sig .tc := ⟨.hbm, 106, rfl⟩
abbrev main_call1_v0 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_c_18 : Ref sig .tc := ⟨.hbm, 111, rfl⟩
abbrev main_v80 : Ref sig .tc := ⟨.hbm, 112, rfl⟩
abbrev main_c_19 : Ref sig .tc := ⟨.hbm, 113, rfl⟩
abbrev main_call2_v0 : Ref sig .tc := ⟨.hbm, 114, rfl⟩
abbrev main_call2_v1 : Ref sig .tc := ⟨.hbm, 115, rfl⟩
abbrev main_v81 : Ref sig .tc := ⟨.hbm, 116, rfl⟩
abbrev main_c_20 : Ref sig .tc := ⟨.hbm, 117, rfl⟩
abbrev main_v82 : Ref sig .tc := ⟨.hbm, 118, rfl⟩
abbrev main_v83 : Ref sig .tc := ⟨.hbm, 119, rfl⟩
abbrev main_c_21 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_c_22 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_cst_23 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_scratch0 : Ref sig .tc := ⟨.vmem, 15, rfl⟩
abbrev cc3_stg0_0 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg3_0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc3_sem0_0 : DmaSem sig := 15
abbrev cc3_sem1_0 : DmaSem sig := 16
abbrev cc3_sem2_0 : DmaSem sig := 17
abbrev cc3_sem3_0 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S6256x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S6256x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S6256x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![16], ![false]⟩

def k2_cond2 (i : grid2.Coords) : BitVec 1 :=
  let arg0 : BitVec 32 := BitVec.ofNat 32 (i 0).val
  let c15_i32 : BitVec 32 := 15#32
  let v20 : BitVec 1 := Scalar.cmpi .eq arg0 c15_i32
  let v21 : BitVec 32 := Scalar.extui v20
  let c0_i32_8 : BitVec 32 := 0#32
  let v22 : BitVec 1 := Scalar.cmpi .ne v21 c0_i32_8
  v22

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S3128x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S3128x1 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S512x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S512x128 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S128x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S512x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S50000 : S_.BroadcastsInDim S50000 (![] : Fin 0 → Fin S50000.rank)
  bcast_S_S850000 : S_.BroadcastsInDim S850000 (![] : Fin 0 → Fin S850000.rank)
  bcast_S850000_S850000x1_0 : S850000.BroadcastsInDim S850000x1 (![0] : Fin 1 → Fin S850000x1.rank)
  pads_S50000x64_S50048x64_0480_000 : S50000x64.Pads (![0, 0] : Fin 2 → Nat) ![48, 0] ![0, 0] S50048x64
  h_S_ : 0 < S_.numel
  inb_S6256x64_S6256x64_0_0 : ∀ a, (![0, 0] : Fin 2 → Nat) a + S6256x64.size a ≤ S6256x64.size a
  h_S6256x64 : 0 < S6256x64.numel
  shapeCasts_S6256x64_S6256x64 : S6256x64.ShapeCasts S6256x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S850000x1_S850000x64_0_1 : S850000x1.BroadcastsInDim S850000x64 (![0, 1] : Fin 2 → Fin S850000x64.rank)
  bcast_S_S50048x64 : S_.BroadcastsInDim S50048x64 (![] : Fin 0 → Fin S50048x64.rank)
  bcast_S64_S1x64_1 : S64.BroadcastsInDim S1x64 (![1] : Fin 1 → Fin S1x64.rank)
  bcast_S1x64_S50048x64_0_1 : S1x64.BroadcastsInDim S50048x64 (![0, 1] : Fin 2 → Fin S50048x64.rank)
  inb_S64x128_S64x128_0_0 : ∀ a, (![0, 0] : Fin 2 → Nat) a + S64x128.size a ≤ S64x128.size a
  h_S64x128 : 0 < S64x128.numel
  inb_S6256x128_S6256x128_0_0 : ∀ a, (![0, 0] : Fin 2 → Nat) a + S6256x128.size a ≤ S6256x128.size a
  h_S6256x128 : 0 < S6256x128.numel
  bcast_S850000x1_S850000x128_0_1 : S850000x1.BroadcastsInDim S850000x128 (![0, 1] : Fin 2 → Fin S850000x128.rank)
  bcast_S_S50048x128 : S_.BroadcastsInDim S50048x128 (![] : Fin 0 → Fin S50048x128.rank)
  bcast_S128_S1x128_1 : S128.BroadcastsInDim S1x128 (![1] : Fin 1 → Fin S1x128.rank)
  bcast_S1x128_S50048x128_0_1 : S1x128.BroadcastsInDim S50048x128 (![0, 1] : Fin 2 → Fin S50048x128.rank)
  pads_S50000_S50048_0480 : S50000.Pads (![0] : Fin 1 → Nat) ![48] ![0] S50048
  shapeCasts_S50048_S50048x1 : S50048.ShapeCasts S50048x1
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S3128x1_S3128x1_0_0 : ∀ a, (![0, 0] : Fin 2 → Nat) a + S3128x1.size a ≤ S3128x1.size a
  h_S3128x1 : 0 < S3128x1.numel
  shapeCasts_S3128x1_S3128x1 : S3128x1.ShapeCasts S3128x1
  iota_S3128x512_d1_w32 : S3128x512.Iotas .tc 32 [1]
  broadcasts_S3128x1_S3128x512 : S3128x1.Broadcasts S3128x512
  natLt_1_32 : 1 < 32
  inb_S3128x128_S3128x128_0_0 : ∀ a, (![0, 0] : Fin 2 → Nat) a + S3128x128.size a ≤ S3128x128.size a
  h_S3128x128 : 0 < S3128x128.numel
  shapeCasts_S3128x128_S3128x128 : S3128x128.ShapeCasts S3128x128
  bcast_S_S512 : S_.BroadcastsInDim S512 (![] : Fin 0 → Fin S512.rank)
  bcast_S50000_S50000x1_0 : S50000.BroadcastsInDim S50000x1 (![0] : Fin 1 → Fin S50000x1.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S512x64 : S1x64.Broadcasts S512x64
  inb_S512x64_S512x64_0_0 : ∀ a, (![0, 0] : Fin 2 → Nat) a + S512x64.size a ≤ S512x64.size a
  h_S512x64 : 0 < S512x64.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S6256x64_S64x64_S6256x64_1_0_0_1_n_n_wf : DotDims.WF S6256x64 S64x64 S6256x64 [1] [0] [0] [1] [] []
  gather_S50048x64_S850000x1_S850000x64_1_0_n_n_0_1_164_wf : GatherDims.WF S50048x64 S850000x1 S850000x64 [1] [0] [] [0] [] 1 ![1, 64]
  scatter_S50048x64_S850000x1_S850000x64_1_0_0_1_wf : ScatterDims.WF S50048x64 S850000x1 S850000x64 [1] [0] [0] 1
  dot_S6256x64_S64x128_S6256x128_1_0_0_1_n_n_wf : DotDims.WF S6256x64 S64x128 S6256x128 [1] [0] [0] [1] [] []
  gather_S50048x128_S850000x1_S850000x128_1_0_n_n_0_1_1128_wf : GatherDims.WF S50048x128 S850000x1 S850000x128 [1] [0] [] [0] [] 1 ![1, 128]
  scatter_S50048x128_S850000x1_S850000x128_1_0_0_1_wf : ScatterDims.WF S50048x128 S850000x1 S850000x128 [1] [0] [0] 1
  dot_S3128x512_S3128x128_S512x128_0_0_1_1_n_n_wf : DotDims.WF S3128x512 S3128x128 S512x128 [0] [0] [1] [1] [] []
  scatter_S512_S50000x1_S50000_n_0_0_1_wf : ScatterDims.WF S512 S50000x1 S50000 [] [0] [0] 1
  dot_S512x128_S128x64_S512x64_1_0_0_1_n_n_wf : DotDims.WF S512x128 S128x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6256x64.size a ≤ S50048x64.size a
  hwx0_0 : ∀ i : grid0.Coords, EltTy.bits .f32 = 32 ∨ (Rect.block (s := S50048x64) S6256x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S6256x64.size a ≤ S50048x64.size a
  hwx0_2 : ∀ i : grid0.Coords, EltTy.bits .f32 = 32 ∨ (Rect.block (s := S50048x64) S6256x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S6256x64.size a ≤ S50048x64.size a
  hwx1_0 : ∀ i : grid1.Coords, EltTy.bits .f32 = 32 ∨ (Rect.block (s := S50048x64) S6256x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x128.size a ≤ S64x128.size a
  hwx1_1 : ∀ i : grid1.Coords, EltTy.bits .f32 = 32 ∨ (Rect.block (s := S64x128) S64x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S6256x128.size a ≤ S50048x128.size a
  hwx1_2 : ∀ i : grid1.Coords, EltTy.bits .f32 = 32 ∨ (Rect.block (s := S50048x128) S6256x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S3128x128.size a ≤ S50048x128.size a
  hwx2_0 : ∀ i : grid2.Coords, EltTy.bits .f32 = 32 ∨ (Rect.block (s := S50048x128) S3128x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S3128x1.size a ≤ S50048x1.size a
  hwx2_1 : ∀ i : grid2.Coords, EltTy.bits .i32 = 32 ∨ (Rect.block (s := S50048x1) S3128x1.size (cc2_transform_1 i) (hinb2_1 i)).WholeWords (EltTy.packing .i32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S512x128.size a ≤ S512x128.size a
  hwx2_2 : ∀ i : grid2.Coords, EltTy.bits .f32 = 32 ∨ (Rect.block (s := S512x128) S512x128.size (cc2_transform_2 i) (hinb2_2 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S512x128.size a ≤ S512x128.size a
  hwx3_0 : ∀ i : grid3.Coords, EltTy.bits .f32 = 32 ∨ (Rect.block (s := S512x128) S512x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x64.size a ≤ S128x64.size a
  hwx3_1 : ∀ i : grid3.Coords, EltTy.bits .f32 = 32 ∨ (Rect.block (s := S128x64) S128x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S512x64.size a ≤ S512x64.size a
  hwx3_3 : ∀ i : grid3.Coords, EltTy.bits .f32 = 32 ∨ (Rect.block (s := S512x64) S512x64.size (cc3_transform_3 i) (hinb3_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S6256x64_S64x64_S6256x64_1_0_0_1_n_n : DotDims S6256x64 S64x64 S6256x64 where
  lhsContracting := [1]
  rhsContracting := [0]
  lhsNonContracting := [0]
  rhsNonContracting := [1]
  lhsBatch := []
  rhsBatch := []
  wf := dot_S6256x64_S64x64_S6256x64_1_0_0_1_n_n_wf
def gather_S50048x64_S850000x1_S850000x64_1_0_n_n_0_1_164 : GatherDims S50048x64 S850000x1 S850000x64 where
  offsetDims := [1]
  collapsedSliceDims := [0]
  operandBatchingDims := []
  startIndicesBatchingDims := []
  startIndexMap := [0]
  indexVectorDim := 1
  sliceSizes := ![1, 64]
  wf := gather_S50048x64_S850000x1_S850000x64_1_0_n_n_0_1_164_wf
def scatter_S50048x64_S850000x1_S850000x64_1_0_0_1 : ScatterDims S50048x64 S850000x1 S850000x64 where
  updateWindowDims := [1]
  insertedWindowDims := [0]
  scatterDimsToOperandDims := [0]
  indexVectorDim := 1
  wf := scatter_S50048x64_S850000x1_S850000x64_1_0_0_1_wf
def dot_S6256x64_S64x128_S6256x128_1_0_0_1_n_n : DotDims S6256x64 S64x128 S6256x128 where
  lhsContracting := [1]
  rhsContracting := [0]
  lhsNonContracting := [0]
  rhsNonContracting := [1]
  lhsBatch := []
  rhsBatch := []
  wf := dot_S6256x64_S64x128_S6256x128_1_0_0_1_n_n_wf
def gather_S50048x128_S850000x1_S850000x128_1_0_n_n_0_1_1128 : GatherDims S50048x128 S850000x1 S850000x128 where
  offsetDims := [1]
  collapsedSliceDims := [0]
  operandBatchingDims := []
  startIndicesBatchingDims := []
  startIndexMap := [0]
  indexVectorDim := 1
  sliceSizes := ![1, 128]
  wf := gather_S50048x128_S850000x1_S850000x128_1_0_n_n_0_1_1128_wf
def scatter_S50048x128_S850000x1_S850000x128_1_0_0_1 : ScatterDims S50048x128 S850000x1 S850000x128 where
  updateWindowDims := [1]
  insertedWindowDims := [0]
  scatterDimsToOperandDims := [0]
  indexVectorDim := 1
  wf := scatter_S50048x128_S850000x1_S850000x128_1_0_0_1_wf
def dot_S3128x512_S3128x128_S512x128_0_0_1_1_n_n : DotDims S3128x512 S3128x128 S512x128 where
  lhsContracting := [0]
  rhsContracting := [0]
  lhsNonContracting := [1]
  rhsNonContracting := [1]
  lhsBatch := []
  rhsBatch := []
  wf := dot_S3128x512_S3128x128_S512x128_0_0_1_1_n_n_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def dot_S512x128_S128x64_S512x64_1_0_0_1_n_n : DotDims S512x128 S128x64 S512x64 where
  lhsContracting := [1]
  rhsContracting := [0]
  lhsNonContracting := [0]
  rhsNonContracting := [1]
  lhsBatch := []
  rhsBatch := []
  wf := dot_S512x128_S128x64_S512x64_1_0_0_1_n_n_wf

abbrev win0_0 : Pipeline.Window sig grid0 :=
  Pipeline.Window.ofSpec (Memref.whole main_v32) S6256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S6256x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v54) S6256x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S64x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v55) S6256x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v76) S3128x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v78) S3128x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v79) S512x128.size cc2_transform_2 reads2_2 true true 1 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

abbrev win3_0 : Pipeline.Window sig grid3 :=
  Pipeline.Window.ofSpec (Memref.whole main_v95) S512x128.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S128x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v96) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v97) S512x64.size cc3_transform_3 reads3_3 true true 1 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S50000 : Shape := ⟨1, ![50000]⟩
abbrev S64x64 : Shape := ⟨2, ![64, 64]⟩
abbrev S64 : Shape := ⟨1, ![64]⟩
abbrev S64x128 : Shape := ⟨2, ![64, 128]⟩
abbrev S128 : Shape := ⟨1, ![128]⟩
abbrev S128x64 : Shape := ⟨2, ![128, 64]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x64 : Shape := ⟨2, ![850000, 64]⟩
abbrev S1x64 : Shape := ⟨2, ![1, 64]⟩
abbrev S50000x128 : Shape := ⟨2, ![50000, 128]⟩
abbrev S850000x128 : Shape := ⟨2, ![850000, 128]⟩
abbrev S1x128 : Shape := ⟨2, ![1, 128]⟩
abbrev S512x128 : Shape := ⟨2, ![512, 128]⟩
abbrev S50000x1 : Shape := ⟨2, ![50000, 1]⟩
abbrev S512 : Shape := ⟨1, ![512]⟩
abbrev S512x1 : Shape := ⟨2, ![512, 1]⟩
abbrev S512x64 : Shape := ⟨2, ![512, 64]⟩

abbrev nBuf : Space → Nat
  | .hbm => 126
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S50000, .i32⟩
  | .hbm, ⟨3, _⟩ => ⟨S64x64, .f32⟩
  | .hbm, ⟨4, _⟩ => ⟨S64, .f32⟩
  | .hbm, ⟨5, _⟩ => ⟨S64x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S50000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S1x800000, .i32⟩
  | .hbm, ⟨14, _⟩ => ⟨S800000, .i32⟩
  | .hbm, ⟨15, _⟩ => ⟨S850000, .i32⟩
  | .hbm, ⟨16, _⟩ => ⟨S_, .f32⟩
  | .hbm, ⟨17, _⟩ => ⟨S50000, .f32⟩
  | .hbm, ⟨18, _⟩ => ⟨S_, .i32⟩
  | .hbm, ⟨19, _⟩ => ⟨S850000, .i32⟩
  | .hbm, ⟨20, _⟩ => ⟨S850000, .i1⟩
  | .hbm, ⟨21, _⟩ => ⟨S_, .i32⟩
  | .hbm, ⟨22, _⟩ => ⟨S850000, .i32⟩
  | .hbm, ⟨23, _⟩ => ⟨S850000, .i32⟩
  | .hbm, ⟨24, _⟩ => ⟨S850000, .i32⟩
  | .hbm, ⟨25, _⟩ => ⟨S850000x1, .i32⟩
  | .hbm, ⟨26, _⟩ => ⟨S_, .f32⟩
  | .hbm, ⟨27, _⟩ => ⟨S850000, .f32⟩
  | .hbm, ⟨28, _⟩ => ⟨S50000, .f32⟩
  | .hbm, ⟨29, _⟩ => ⟨S50000, .f32⟩
  | .hbm, ⟨30, _⟩ => ⟨S_, .i32⟩
  | .hbm, ⟨31, _⟩ => ⟨S850000, .i32⟩
  | .hbm, ⟨32, _⟩ => ⟨S850000, .i1⟩
  | .hbm, ⟨33, _⟩ => ⟨S_, .i32⟩
  | .hbm, ⟨34, _⟩ => ⟨S850000, .i32⟩
  | .hbm, ⟨35, _⟩ => ⟨S850000, .i32⟩
  | .hbm, ⟨36, _⟩ => ⟨S850000, .i32⟩
  | .hbm, ⟨37, _⟩ => ⟨S850000x1, .i32⟩
  | .hbm, ⟨38, _⟩ => ⟨S850000, .f32⟩
  | .hbm, ⟨39, _⟩ => ⟨S_, .i32⟩
  | .hbm, ⟨40, _⟩ => ⟨S850000, .i32⟩
  | .hbm, ⟨41, _⟩ => ⟨S850000, .i1⟩
  | .hbm, ⟨42, _⟩ => ⟨S_, .i32⟩
  | .hbm, ⟨43, _⟩ => ⟨S850000, .i32⟩
  | .hbm, ⟨44, _⟩ => ⟨S850000, .i32⟩
  | .hbm, ⟨45, _⟩ => ⟨S850000, .i32⟩
  | .hbm, ⟨46, _⟩ => ⟨S850000x1, .i32⟩
  | .hbm, ⟨47, _⟩ => ⟨S850000, .f32⟩
  | .hbm, ⟨48, _⟩ => ⟨S850000, .f32⟩
  | .hbm, ⟨49, _⟩ => ⟨S50000x64, .f32⟩
  | .hbm, ⟨50, _⟩ => ⟨S_, .i32⟩
  | .hbm, ⟨51, _⟩ => ⟨S850000, .i32⟩
  | .hbm, ⟨52, _⟩ => ⟨S850000, .i1⟩
  | .hbm, ⟨53, _⟩ => ⟨S_, .i32⟩
  | .hbm, ⟨54, _⟩ => ⟨S850000, .i32⟩
  | .hbm, ⟨55, _⟩ => ⟨S850000, .i32⟩
  | .hbm, ⟨56, _⟩ => ⟨S850000, .i32⟩
  | .hbm, ⟨57, _⟩ => ⟨S850000x1, .i32⟩
  | .hbm, ⟨58, _⟩ => ⟨S850000x64, .f32⟩
  | .hbm, ⟨59, _⟩ => ⟨S850000x1, .f32⟩
  | .hbm, ⟨60, _⟩ => ⟨S850000x64, .f32⟩
  | .hbm, ⟨61, _⟩ => ⟨S850000x64, .f32⟩
  | .hbm, ⟨62, _⟩ => ⟨S_, .f32⟩
  | .hbm, ⟨63, _⟩ => ⟨S50000x64, .f32⟩
  | .hbm, ⟨64, _⟩ => ⟨S_, .i32⟩
  | .hbm, ⟨65, _⟩ => ⟨S850000, .i32⟩
  | .hbm, ⟨66, _⟩ => ⟨S850000, .i1⟩
  | .hbm, ⟨67, _⟩ => ⟨S_, .i32⟩
  | .hbm, ⟨68, _⟩ => ⟨S850000, .i32⟩
  | .hbm, ⟨69, _⟩ => ⟨S850000, .i32⟩
  | .hbm, ⟨70, _⟩ => ⟨S850000, .i32⟩
  | .hbm, ⟨71, _⟩ => ⟨S850000x1, .i32⟩
  | .hbm, ⟨72, _⟩ => ⟨S50000x64, .f32⟩
  | .hbm, ⟨73, _⟩ => ⟨S1x64, .f32⟩
  | .hbm, ⟨74, _⟩ => ⟨S50000x64, .f32⟩
  | .hbm, ⟨75, _⟩ => ⟨S50000x64, .f32⟩
  | .hbm, ⟨76, _⟩ => ⟨S_, .f32⟩
  | .hbm, ⟨77, _⟩ => ⟨S50000x64, .f32⟩
  | .hbm, ⟨78, _⟩ => ⟨S50000x64, .f32⟩
  | .hbm, ⟨79, _⟩ => ⟨S50000x128, .f32⟩
  | .hbm, ⟨80, _⟩ => ⟨S_, .i32⟩
  | .hbm, ⟨81, _⟩ => ⟨S850000, .i32⟩
  | .hbm, ⟨82, _⟩ => ⟨S850000, .i1⟩
  | .hbm, ⟨83, _⟩ => ⟨S_, .i32⟩
  | .hbm, ⟨84, _⟩ => ⟨S850000, .i32⟩
  | .hbm, ⟨85, _⟩ => ⟨S850000, .i32⟩
  | .hbm, ⟨86, _⟩ => ⟨S850000, .i32⟩
  | .hbm, ⟨87, _⟩ => ⟨S850000x1, .i32⟩
  | .hbm, ⟨88, _⟩ => ⟨S850000x128, .f32⟩
  | .hbm, ⟨89, _⟩ => ⟨S850000x1, .f32⟩
  | .hbm, ⟨90, _⟩ => ⟨S850000x128, .f32⟩
  | .hbm, ⟨91, _⟩ => ⟨S850000x128, .f32⟩
  | .hbm, ⟨92, _⟩ => ⟨S_, .f32⟩
  | .hbm, ⟨93, _⟩ => ⟨S50000x128, .f32⟩
  | .hbm, ⟨94, _⟩ => ⟨S_, .i32⟩
  | .hbm, ⟨95, _⟩ => ⟨S850000, .i32⟩
  | .hbm, ⟨96, _⟩ => ⟨S850000, .i1⟩
  | .hbm, ⟨97, _⟩ => ⟨S_, .i32⟩
  | .hbm, ⟨98, _⟩ => ⟨S850000, .i32⟩
  | .hbm, ⟨99, _⟩ => ⟨S850000, .i32⟩
  | .hbm, ⟨100, _⟩ => ⟨S850000, .i32⟩
  | .hbm, ⟨101, _⟩ => ⟨S850000x1, .i32⟩
  | .hbm, ⟨102, _⟩ => ⟨S50000x128, .f32⟩
  | .hbm, ⟨103, _⟩ => ⟨S1x128, .f32⟩
  | .hbm, ⟨104, _⟩ => ⟨S50000x128, .f32⟩
  | .hbm, ⟨105, _⟩ => ⟨S50000x128, .f32⟩
  | .hbm, ⟨106, _⟩ => ⟨S_, .f32⟩
  | .hbm, ⟨107, _⟩ => ⟨S512x128, .f32⟩
  | .hbm, ⟨108, _⟩ => ⟨S50000x1, .i32⟩
  | .hbm, ⟨109, _⟩ => ⟨S512x128, .f32⟩
  | .hbm, ⟨110, _⟩ => ⟨S_, .f32⟩
  | .hbm, ⟨111, _⟩ => ⟨S50000, .f32⟩
  | .hbm, ⟨112, _⟩ => ⟨S_, .f32⟩
  | .hbm, ⟨113, _⟩ => ⟨S512, .f32⟩
  | .hbm, ⟨114, _⟩ => ⟨S50000x1, .i32⟩
  | .hbm, ⟨115, _⟩ => ⟨S512, .f32⟩
  | .hbm, ⟨116, _⟩ => ⟨S_, .f32⟩
  | .hbm, ⟨117, _⟩ => ⟨S512, .f32⟩
  | .hbm, ⟨118, _⟩ => ⟨S512, .f32⟩
  | .hbm, ⟨119, _⟩ => ⟨S512x1, .f32⟩
  | .hbm, ⟨120, _⟩ => ⟨S512x128, .f32⟩
  | .hbm, ⟨121, _⟩ => ⟨S512x128, .f32⟩
  | .hbm, ⟨122, _⟩ => ⟨S512x64, .f32⟩
  | .hbm, ⟨123, _⟩ => ⟨S1x64, .f32⟩
  | .hbm, ⟨124, _⟩ => ⟨S512x64, .f32⟩
  | .hbm, ⟨125, _⟩ => ⟨S512x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_c : Ref sig .tc := ⟨.hbm, 18, rfl⟩
abbrev main_v8 : Ref sig .tc := ⟨.hbm, 19, rfl⟩
abbrev main_v9 : Ref sig .tc := ⟨.hbm, 20, rfl⟩
abbrev main_c_0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c_2 : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_6 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_c_9 : Ref sig .tc := ⟨.hbm, 64, rfl⟩
abbrev main_v44 : Ref sig .tc := ⟨.hbm, 65, rfl⟩
abbrev main_v45 : Ref sig .tc := ⟨.hbm, 66, rfl⟩
abbrev main_c_10 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_call0_cst : Ref sig .tc := ⟨.hbm, 76, rfl⟩
abbrev main_call0_v0 : Ref sig .tc := ⟨.hbm, 77, rfl⟩
abbrev main_v54 : Ref sig .tc := ⟨.hbm, 78, rfl⟩
abbrev main_v55 : Ref sig .tc := ⟨.hbm, 79, rfl⟩
abbrev main_c_11 : Ref sig .tc := ⟨.hbm, 80, rfl⟩
abbrev main_v56 : Ref sig .tc := ⟨.hbm, 81, rfl⟩
abbrev main_v57 : Ref sig .tc := ⟨.hbm, 82, rfl⟩
abbrev main_c_12 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_13 : Ref sig .tc := ⟨.hbm, 92, rfl⟩
abbrev main_v66 : Ref sig .tc := ⟨.hbm, 93, rfl⟩
abbrev main_c_14 : Ref sig .tc := ⟨.hbm, 94, rfl⟩
abbrev main_v67 : Ref sig .tc := ⟨.hbm, 95, rfl⟩
abbrev main_v68 : Ref sig .tc := ⟨.hbm, 96, rfl⟩
abbrev main_c_15 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_cst_16 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_cst_17 : Ref sig .tc := ⟨.hbm, 110, rfl⟩
abbrev main_v80 : Ref sig .tc := ⟨.hbm, 111, rfl⟩
abbrev main_cst_18 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_cst_19 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S50000 : S_.BroadcastsInDim S50000 (![] : Fin 0 → Fin S50000.rank)
  bcast_S_S850000 : S_.BroadcastsInDim S850000 (![] : Fin 0 → Fin S850000.rank)
  bcast_S850000_S850000x1_0 : S850000.BroadcastsInDim S850000x1 (![0] : Fin 1 → Fin S850000x1.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S512x128 : S_.BroadcastsInDim S512x128 (![] : Fin 0 → Fin S512x128.rank)
  bcast_S50000_S50000x1_0 : S50000.BroadcastsInDim S50000x1 (![0] : Fin 1 → Fin S50000x1.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  bcast_S1x64_S512x64_0_1 : S1x64.BroadcastsInDim S512x64 (![0, 1] : Fin 2 → Fin S512x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x64_S64x64_S50000x64_1_0_0_1_n_n_wf : DotDims.WF S50000x64 S64x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S50000x64_S64x128_S50000x128_1_0_0_1_n_n_wf : DotDims.WF S50000x64 S64x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  scatter_S512x128_S50000x1_S50000x128_1_0_0_1_wf : ScatterDims.WF S512x128 S50000x1 S50000x128 [1] [0] [0] 1
  scatter_S512_S50000x1_S50000_n_0_0_1_wf : ScatterDims.WF S512 S50000x1 S50000 [] [0] [0] 1
  dot_S512x128_S128x64_S512x64_1_0_0_1_n_n_wf : DotDims.WF S512x128 S128x64 S512x64 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def scatter_S512x128_S50000x1_S50000x128_1_0_0_1 : ScatterDims S512x128 S50000x1 S50000x128 where
  updateWindowDims := [1]
  insertedWindowDims := [0]
  scatterDimsToOperandDims := [0]
  indexVectorDim := 1
  wf := scatter_S512x128_S50000x1_S50000x128_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def dot_S512x128_S128x64_S512x64_1_0_0_1_n_n : DotDims S512x128 S128x64 S512x64 where
  lhsContracting := [1]
  rhsContracting := [0]
  lhsNonContracting := [0]
  rhsNonContracting := [1]
  lhsBatch := []
  rhsBatch := []
  wf := dot_S512x128_S128x64_S512x64_1_0_0_1_n_n_wf

class Facts : Prop extends Facts₀ where

variable [Facts]
-- ==== Proof.KB.Data.lean ====
/-
  The proof data of the four kernel regions and the buffer contents at every boundary of the program, with no proofs:
  what each window's block is at a grid point, what each body leaves in its staging buffers, the running sum the pooling
  body carries in its scratch between grid points, and the fold of buffer contents from the launch memory through the
  host stretches and the regions.
-/
import proofs.«411454_j24300924961028_1_alg».proof.Proof.Gen.Kernel.Launch
import proofs.«411454_j24300924961028_1_alg».proof.Proof.Gen.Kernel.Skeleton
import proofs.«411454_j24300924961028_1_alg».proof.Proof.Gen.Kernel.Points
import proofs.«411454_j24300924961028_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Regions
-- the TensorCore's buffer contents when a region is entered
variable (V : (c : Dev nD) → (b : Ref sig .tc) → Buf (Elt F) ((c : Thread nD τ).loc b))

/-! ## Region 0: a row block of the padded features times the first weight matrix -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- After the body at point `t`: the two inputs' buffers as fetched, the output's at the product of the row block
    with the weights. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay1 (iblk0 V c 0 t) (iblk0 V c 1 t)
  Φ _ := Pipeline.ΦA spec0 c
  q _ := fullShare
  owed _ := 0

/-! ## Region 1: the positive part of a row block times the second weight matrix -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay1 (iblk1 V c 0 t) (iblk1 V c 1 t)
  Φ _ := Pipeline.ΦA spec1 c
  q _ := fullShare
  owed _ := 0

/-! ## Region 2: the per-graph sums, accumulated over sixteen row blocks in a scratch buffer -/

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The scratch buffer after the body at position `n`: the first point clears it and adds its block's per-graph sums,
    every later point adds its block's to what the point before left. -/
def acc2 (c : Dev nD) : (n : ℕ) → n < cfg2.N → Vec F S512x128 .f32
  | 0, hn => k2_pay2 (iblk2 V c 1 ⟨0, hn⟩) (iblk2 V c 0 ⟨0, hn⟩) (k2_pay1 (F := F))
  | n + 1, hn => k2_pay2 (iblk2 V c 1 ⟨n + 1, hn⟩) (iblk2 V c 0 ⟨n + 1, hn⟩) (acc2 c n (Nat.lt_of_succ_lt hn))

/-- The region's invariant before position `n`: before the first point every scoped buffer that is no staging buffer of
    this region at anything; afterwards the scratch at what the point before left, the other such buffers still at
    anything, and the generator register at some state. -/
def PhiS2 (c : Dev nD) : (n : ℕ) → n ≤ cfg2.N → sProp 𝕄
  | 0, _ => Pipeline.ΦA spec2 c
  | n + 1, hn => iprop(owns (c : Thread nD τ) (Memref.whole cc2_scratch0) fullShare (acc2 V c n hn)
      ∗ Pipeline.scopedRestBut (Ix := Unit) (Name := ℕ) (U := UR sig nD τ) (Lvl := ℕ) (Val := Elt F) spec2 c [cc2_scratch0]
      ∗ (∃ r, prngReg c r))

/-- After the body at point `t`: the inputs' buffers as fetched; the output's buffer, consulted only at the last point
    (elsewhere the window is idle), at the scratch's contents. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => acc2 V c t.val t.isLt
  Φ t := PhiS2 V c t.val (Nat.le_of_lt_succ t.isLt)
  q _ := fullShare
  owed _ := 0

/-! ## Region 3: the pooled rows times the last weight matrix, plus the bias row -/

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => k3_pay1 (iblk3 V c 0 t) (iblk3 V c 1 t) (iblk3 V c 2 t)
  Φ _ := Pipeline.ΦA spec3 c
  q _ := fullShare
  owed _ := 0

end Regions

/-! ## The buffer contents at each boundary: a fold from the launch memory -/

variable (m : (ℓ : Loc nD τ sig) → Buf (Elt F) ℓ)

/-- Core `c`'s buffers at launch. -/
abbrev W0 : Dev nD → Valuation τ sig (Elt F) := fun c b => m ((c : Dev nD), b)
abbrev W1 : Dev nD → Valuation τ sig (Elt F) := fun c => StableHlo.after hostOps0 (W0 m c)
/-- At region 0's entry. -/
abbrev W2 : Dev nD → Valuation τ sig (Elt F) := fun c => StableHlo.after hostOps0_1 (W1 m c)
abbrev E2 : (c : Dev nD) → (b : Ref sig .tc) → Buf (Elt F) ((c : Thread nD τ).loc b) := fun c b => W2 m c b
/-- At region 0's exit: its arrays at what the pipeline leaves, every other buffer as entered. -/
def W3 (c : Dev nD) : Valuation τ sig (Elt F) :=
  Pipeline.withArrays spec0 c (W2 m c) fun w => (dat0 (E2 m) c).arrAt w cfg0.N
/-- At region 1's entry. -/
abbrev W4 : Dev nD → Valuation τ sig (Elt F) := fun c => StableHlo.after hostOps1 (W3 m c)
abbrev E4 : (c : Dev nD) → (b : Ref sig .tc) → Buf (Elt F) ((c : Thread nD τ).loc b) := fun c b => W4 m c b
def W5 (c : Dev nD) : Valuation τ sig (Elt F) :=
  Pipeline.withArrays spec1 c (W4 m c) fun w => (dat1 (E4 m) c).arrAt w cfg1.N
abbrev W6 : Dev nD → Valuation τ sig (Elt F) := fun c => StableHlo.after hostOps2 (W5 m c)
abbrev W7 : Dev nD → Valuation τ sig (Elt F) := fun c => StableHlo.after hostOps2_1 (W6 m c)
/-- At region 2's entry. -/
abbrev W8 : Dev nD → Valuation τ sig (Elt F) := fun c => StableHlo.after hostOps2_2 (W7 m c)
abbrev E8 : (c : Dev nD) → (b : Ref sig .tc) → Buf (Elt F) ((c : Thread nD τ).loc b) := fun c b => W8 m c b
def W9 (c : Dev nD) : Valuation τ sig (Elt F) :=
  Pipeline.withArrays spec2 c (W8 m c) fun w => (dat2 (E8 m) c).arrAt w cfg2.N
abbrev W10 : Dev nD → Valuation τ sig (Elt F) := fun c => StableHlo.after hostOps3 (W9 m c)
abbrev W11 : Dev nD → Valuation τ sig (Elt F) := fun c => StableHlo.after hostOps3_1 (W10 m c)
/-- At region 3's entry. -/
abbrev W12 : Dev nD → Valuation τ sig (Elt F) := fun c => StableHlo.after hostOps3_2 (W11 m c)
abbrev E12 : (c : Dev nD) → (b : Ref sig .tc) → Buf (Elt F) ((c : Thread nD τ).loc b) := fun c b => W12 m c b
/-- At the return. -/
def W13 (c : Dev nD) : Valuation τ sig (Elt F) :=
  Pipeline.withArrays spec3 c (W12 m c) fun w => (dat3 (E12 m) c).arrAt w cfg3.N

/-- The prefetched tables' admissible contents: no pipeline has a table. -/
abbrev adm : (p : Fin 4) → (pcfgs (F := F) p).Adm := fun p => (cfgs p).toPCfg_adm

/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (E2 m) c
  | ⟨1, _⟩ => fun c => dat1 (E4 m) c
  | ⟨2, _⟩ => fun c => dat2 (E8 m) c
  | ⟨3, _⟩ => fun c => dat3 (E12 m) c

end Cert.Kernel.Hand

end
-- ==== Proof.KB.Reg0.lean ====
/-
  Region 0: the body obligation of its pipeline, at any contents the region is entered with.
-/
import proofs.«411454_j24300924961028_1_alg».proof.Proof.KB.Data
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The proof data, projected -/

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by
  dsimp only [dat0]
theorem after0_1 (c : Dev nD) (t : Fin cfg0.N) : (dat0 V c).after 1 t = iblk0 V c 1 t := by
  dsimp only [dat0]
theorem after0_2 (c : Dev nD) (t : Fin cfg0.N) : (dat0 V c).after 2 t = k0_pay1 (iblk0 V c 0 t) (iblk0 V c 1 t) := by
  dsimp only [dat0]

/-! ## What the body finds in the input windows' buffers -/

/-- The row block's buffer holds the row block at every point: the body leaves it in place, and a point that does not
    fetch it has the block index of the point before. -/
private theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-- The weights' buffer holds the weight block at every point, although only the first point fetches it: its block
    index never moves. -/
private theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

/-! ## The body's triple -/

/-- The offsets of every access of the body are zero. -/
private theorem zeros2 : (![0, 0] : Fin 2 → Nat) = fun _ => 0 := funext fun a => by fin_cases a <;> rfl

set_option maxHeartbeats 1000000 in
/-- The body on whole staging memrefs, the row block's at read contents `x0`, the weights' at `x1` and the output's at
    anything, runs to the continuation holding the two inputs' as they were and the output's at the product
    `k0_pay1 x0 x1`: its one store covers the whole output block. -/
private theorem sound_kernel0 (c : Dev nD) (E : Set ℕ) (i : grid0.Coords)
    (arg1 : Memref sig .tc .vmem S6256x64 .f32) (harg1 : arg1.IsWhole)
    (arg2 : Memref sig .tc .vmem S64x64 .f32) (harg2 : arg2.IsWhole)
    (arg3 : Memref sig .tc .vmem S6256x64 .f32) (harg3 : arg3.IsWhole)
    (x0 : Vec F S6256x64 .f32) (x1 : Vec F S64x64 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (k0_pay1 x0 x1)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (fun y => ⟨_, List.mem_singleton_self _,
      View.mem_set_unit_zero zeros2 inb_S6256x64_S6256x64_0_0 y⟩),
    View.canon_unit_zero (S := S6256x64) zeros2]
  exact congrArg₂ k0_pay1
    (View.ld_unit_zero (S := S6256x64) zeros2 inb_S6256x64_S6256x64_0_0 (View.read (Elt F) arg1.view f0))
    (View.ld_unit_zero (S := S64x64) zeros2 inb_S64x64_S64x64_0_0 (View.read (Elt F) arg2.view f1))

/-! ## The body obligation, at a generic point -/

/-- What the body is called with at point `t`, the windows one by one, -/
private def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
private def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant and the
    core's debts pass through unread. -/
private theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KB.Reg1.lean ====
/-
  Region 1: the body obligation of its pipeline, at any contents the region is entered with.
-/
import proofs.«411454_j24300924961028_1_alg».proof.Proof.KB.Data
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The proof data, projected -/

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by
  dsimp only [dat1]
theorem after1_1 (c : Dev nD) (t : Fin cfg1.N) : (dat1 V c).after 1 t = iblk1 V c 1 t := by
  dsimp only [dat1]
theorem after1_2 (c : Dev nD) (t : Fin cfg1.N) : (dat1 V c).after 2 t = k1_pay1 (iblk1 V c 0 t) (iblk1 V c 1 t) := by
  dsimp only [dat1]

/-! ## What the body finds in the input windows' buffers -/

/-- The row block's buffer holds the row block at every point: the body leaves it in place, and a point that does not
    fetch it has the block index of the point before. -/
private theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)

/-- The weights' buffer holds the weight block at every point, although only the first point fetches it: its block
    index never moves. -/
private theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

/-! ## The body's triple -/

/-- The offsets of every access of the body are zero. -/
private theorem zeros2 : (![0, 0] : Fin 2 → Nat) = fun _ => 0 := funext fun a => by fin_cases a <;> rfl

set_option maxHeartbeats 1000000 in
/-- The body on whole staging memrefs, the row block's at read contents `x0`, the weights' at `x1` and the output's at
    anything, runs to the continuation holding the two inputs' as they were and the output's at the product of the positive
    part of the rows with the weights, `k1_pay1 x0 x1`: its one store covers the whole output block. -/
private theorem sound_kernel1 (c : Dev nD) (E : Set ℕ) (i : grid1.Coords)
    (arg1 : Memref sig .tc .vmem S6256x64 .f32) (harg1 : arg1.IsWhole)
    (arg2 : Memref sig .tc .vmem S64x128 .f32) (harg2 : arg2.IsWhole)
    (arg3 : Memref sig .tc .vmem S6256x128 .f32) (harg3 : arg3.IsWhole)
    (x0 : Vec F S6256x64 .f32) (x1 : Vec F S64x128 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (k1_pay1 x0 x1)) -∗ K ⟨⟩))
      ⊢ wp frame (wpE (defs₀ (F := F)) Variants.none c none) E (cc1__relu_linear_kernel i arg1 harg1 arg2 harg2 arg3 harg3) K := by
  simp only [cc1__relu_linear_kernel_eq_skeleton]; unfold cc1__relu_linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (fun y => ⟨_, List.mem_singleton_self _,
      View.mem_set_unit_zero zeros2 inb_S6256x128_S6256x128_0_0 y⟩),
    View.canon_unit_zero (S := S6256x128) zeros2]
  exact congrArg₂ k1_pay1
    (View.ld_unit_zero (S := S6256x64) zeros2 inb_S6256x64_S6256x64_0_0 (View.read (Elt F) arg1.view f0))
    (View.ld_unit_zero (S := S64x128) zeros2 inb_S64x128_S64x128_0_0 (View.read (Elt F) arg2.view f1))

/-! ## The body obligation, at a generic point -/

/-- What the body is called with at point `t`, the windows one by one, -/
private def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
private def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so the body's triple applies; the invariant and the
    core's debts pass through unread. -/
private theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KB.Reg2.lean ====
/-
  Region 2: the body obligation of the pooling pipeline, whose body carries a running sum in a scratch buffer between
  grid points, at any contents the region is entered with; and the invariant's two ends.

  The grid has sixteen points and the body three control cases. At the first point it clears the scratch and adds the
  block's per-graph sums to the cleared block; at every later point it adds the block's sums to what the point before
  left; at the last point it also stores the scratch's new contents over the whole output block, which at every other
  point is idle and handed back untouched. The invariant carries the scratch at the running sum so far, the core's other
  scoped buffers unopened, and the generator register at some state.
-/
import proofs.«411454_j24300924961028_1_alg».proof.Proof.KB.Data
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by
  dsimp only [dat2]
theorem after2_1 (c : Dev nD) (t : Fin cfg2.N) : (dat2 V c).after 1 t = iblk2 V c 1 t := by
  dsimp only [dat2]
theorem after2_2 (c : Dev nD) (t : Fin cfg2.N) : (dat2 V c).after 2 t = acc2 V c t.val t.isLt := by
  dsimp only [dat2]

/-! ## The invariant, opened -/

/-- The scratch buffer as the body is handed it. -/
private abbrev scM2 : Memref sig .tc .vmem S512x128 .f32 := Memref.whole cc2_scratch0

/-- The class invariant with the scratch split off the other scoped buffers: the scratch at anything, the other
    scoped buffers unopened, the generator register at some state. -/
private theorem PhiA2_eq (c : Dev nD) :
    (Pipeline.ΦA spec2 c : sProp 𝕄)
      = iprop(((∃ d, owns (c : Thread nD τ) scM2 fullShare d)
          ∗ Pipeline.scopedRestBut (Ix := Unit) (Name := ℕ) (U := UR sig nD τ) (Lvl := ℕ) (Val := Elt F) spec2 c [cc2_scratch0])
          ∗ (∃ r, prngReg c r)) := by
  unfold Pipeline.ΦA
  rw [Pipeline.scopedRest_split_of_list spec2 c [cc2_scratch0] (by decide) (by decide)]
  simp only [bigSepL_singleton, scM2, owns_whole]
  try rfl

private theorem PhiS2_zero (c : Dev nD) (n : ℕ) (h : n ≤ cfg2.N) (hz : n = 0) : PhiS2 V c n h = Pipeline.ΦA spec2 c := by
  subst hz; rfl

private theorem PhiS2_succ (c : Dev nD) (n : ℕ) (hn : n < cfg2.N) :
    PhiS2 V c (n + 1) hn = iprop(owns (c : Thread nD τ) scM2 fullShare (acc2 V c n hn)
      ∗ Pipeline.scopedRestBut (Ix := Unit) (Name := ℕ) (U := UR sig nD τ) (Lvl := ℕ) (Val := Elt F) spec2 c [cc2_scratch0]
      ∗ (∃ r, prngReg c r)) := rfl

private theorem PhiS2_pos (c : Dev nD) (n : ℕ) (h : n ≤ cfg2.N) (hz : n ≠ 0) :
    PhiS2 V c n h = iprop(owns (c : Thread nD τ) scM2 fullShare (acc2 V c (n - 1) (by omega))
      ∗ Pipeline.scopedRestBut (Ix := Unit) (Name := ℕ) (U := UR sig nD τ) (Lvl := ℕ) (Val := Elt F) spec2 c [cc2_scratch0]
      ∗ (∃ r, prngReg c r)) := by
  cases n with
  | zero => exact absurd rfl hz
  | succ n => rfl

private theorem PhiS2_castSucc (c : Dev nD) (t : Fin cfg2.N) :
    (dat2 V c).Φ t.castSucc = PhiS2 V c t.val (Nat.le_of_lt t.isLt) := by
  dsimp only [dat2]; simp only [Fin.coe_castSucc]

/-- The running sum at the first point: the cleared block plus this block's sums. -/
private theorem acc2_zero (c : Dev nD) (t : Fin cfg2.N) (hz : t.val = 0) :
    acc2 V c t.val t.isLt = k2_pay2 (iblk2 V c 1 t) (iblk2 V c 0 t) (k2_pay1 (F := F)) := by
  obtain ⟨n, hn⟩ := t
  cases n with
  | zero => rfl
  | succ n => exact absurd hz (Nat.succ_ne_zero n)

/-- At a later point: what the point before left plus this block's sums. -/
private theorem acc2_pos (c : Dev nD) (t : Fin cfg2.N) (hz : t.val ≠ 0) :
    acc2 V c t.val t.isLt = k2_pay2 (iblk2 V c 1 t) (iblk2 V c 0 t)
      (acc2 V c (t.val - 1) (Nat.lt_of_le_of_lt (Nat.sub_le _ _) t.isLt)) := by
  obtain ⟨n, hn⟩ := t
  cases n with
  | zero => exact absurd rfl hz
  | succ n => rfl

/-! ## The body's branch conditions, in closed form -/

/-- The condition of the body's first conditional: the grid coordinate is zero. -/
private abbrev cond2_0 (i : grid2.Coords) : Prop :=
  (Scalar.cmpi .ne (Scalar.extui (Scalar.cmpi .eq (BitVec.ofNat 32 (i 0).val) 0#32)) 0#32) = 1#1
/-- The condition of its second: the grid coordinate is the last. -/
private abbrev cond2_1 (i : grid2.Coords) : Prop := k2_cond2 i = 1#1

private theorem hcond2_0 : ∀ t : Fin cfg2.N, cond2_0 (grid2.coords t) ↔ t.val = 0 :=
  (by decide +kernel : ∀ t : Fin grid2.N, cond2_0 (grid2.coords t) ↔ t.val = 0)
private theorem hcond2_1 : ∀ t : Fin cfg2.N, cond2_1 (grid2.coords t) ↔ t.val = 15 :=
  (by decide +kernel : ∀ t : Fin grid2.N, cond2_1 (grid2.coords t) ↔ t.val = 15)

/-! ## Where the windows are idle -/

private theorem liveAt2_0 : ∀ t : Fin cfg2.N, cfg2.idle 0 (grid2.coords t) = false := by decide +kernel
private theorem liveAt2_1 : ∀ t : Fin cfg2.N, cfg2.idle 1 (grid2.coords t) = false := by decide +kernel
/-- Away from the last point the output window is idle, -/
private theorem idleAt2_2 : ∀ t : Fin cfg2.N, ¬cond2_1 (grid2.coords t) → cfg2.idle 2 (grid2.coords t) = true := by decide +kernel
/-- and not written back; -/
private theorem noFlush2_2 : ∀ t : Fin cfg2.N, ¬cond2_1 (grid2.coords t) → (cfg2.win 2).flush t = false := by decide +kernel
/-- at the last point it is live. -/
private theorem liveAt2_2 : ∀ t : Fin cfg2.N, cond2_1 (grid2.coords t) → cfg2.idle 2 (grid2.coords t) = false := by decide +kernel

/-! ## The inputs' staging buffers hold their blocks -/

private theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)
private theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)

/-! ## The body's triple, one per control case -/

private theorem hz2 : (![0, 0] : Fin 2 → Nat) = fun _ => 0 := funext fun a => by fin_cases a <;> rfl

/-- A store over the whole scratch-shaped buffer, last, covers it whatever was stored before. -/
private theorem cover_whole (p : Vec F S512x128 .f32) (L : List (View.Piece (Elt F) S512x128 .f32)) (y : S512x128.Idx) :
    ∃ pc ∈ ((⟨Rect.unit (s := S512x128) ![0, 0] S512x128.size inb_S512x128_S512x128_0_0, p⟩ : View.Piece (Elt F) S512x128 .f32) :: L),
      y ∈ pc.1.set :=
  ⟨_, List.mem_cons_self, View.mem_set_unit_zero hz2 inb_S512x128_S512x128_0_0 y⟩

set_option maxHeartbeats 1000000 in
/-- At the first point: the scratch, at anything, is cleared, and this block's per-graph sums are added to the
    cleared block; the inputs' buffers are left as they were, the output's buffer is not touched. -/
private theorem run2_A (c : Dev nD) (E : Set ℕ) (i : grid2.Coords)
    (arg1 : Memref sig .tc .vmem S3128x128 .f32) (harg1 : arg1.IsWhole)
    (arg2 : Memref sig .tc .vmem S3128x1 .i32) (harg2 : arg2.IsWhole)
    (arg3 : Memref sig .tc .vmem S512x128 .f32) (harg3 : arg3.IsWhole)
    (arg4 : Memref sig .tc .vmem S512x128 .f32) (harg4 : arg4.IsWhole)
    (hc0 : cond2_0 i) (hc1 : ¬cond2_1 i)
    (x0 : Vec F S3128x128 .f32) (x1 : Vec F S3128x1 .i32) (K : PUnit → sProp 𝕄) :
    iprop(owns (c : Thread nD τ) arg1 fullShare x0 ∗ owns (c : Thread nD τ) arg2 fullShare x1
        ∗ (∃ d, owns (c : Thread nD τ) arg4 fullShare d)
        ∗ (iprop(owns (c : Thread nD τ) arg1 fullShare x0 ∗ owns (c : Thread nD τ) arg2 fullShare x1
            ∗ owns (c : Thread nD τ) arg4 fullShare (k2_pay2 x1 x0 (k2_pay1 (F := F)))) -∗ K ⟨⟩))
      ⊢ wp frame (wpE (defs₀ (F := F)) Variants.none c none) E (cc2__pool_kernel i arg1 harg1 arg2 harg2 arg3 harg3 arg4 harg4) K := by
  simp only [cc2__pool_kernel_eq_skeleton]; unfold cc2__pool_kernel_skel
  unfold owns
  iintro ⟨⟨%f0, %hf0, H0⟩, ⟨%f1, %hf1, H1⟩, ⟨%ds, %fs, -, HS⟩, Hk⟩
  obtain rfl := harg1.eq_unread hf0; obtain rfl := harg2.eq_unread hf1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  iexists _; isplitr
  swap; · iexact HS
  ipureintro
  sl_unfold_words
  rw [View.read_writes_eq_canon _ _ _ (cover_whole _ _),
    View.canon_cons_unit_zero (S := S512x128) hz2]
  simp only [View.readAt_eq_ld, harg1.read_unread, harg2.read_unread, View.readCov_unit_zero (S := S512x128) _ hz2,
    View.ld_unit_zero (S := S3128x128) hz2, View.ld_unit_zero (S := S3128x1) hz2]

set_option maxHeartbeats 1000000 in
/-- At a middle point: this block's per-graph sums are added to what the scratch held. -/
private theorem run2_B (c : Dev nD) (E : Set ℕ) (i : grid2.Coords)
    (arg1 : Memref sig .tc .vmem S3128x128 .f32) (harg1 : arg1.IsWhole)
    (arg2 : Memref sig .tc .vmem S3128x1 .i32) (harg2 : arg2.IsWhole)
    (arg3 : Memref sig .tc .vmem S512x128 .f32) (harg3 : arg3.IsWhole)
    (arg4 : Memref sig .tc .vmem S512x128 .f32) (harg4 : arg4.IsWhole)
    (hc0 : ¬cond2_0 i) (hc1 : ¬cond2_1 i)
    (x0 : Vec F S3128x128 .f32) (x1 : Vec F S3128x1 .i32) (s : Vec F S512x128 .f32) (K : PUnit → sProp 𝕄) :
    iprop(owns (c : Thread nD τ) arg1 fullShare x0 ∗ owns (c : Thread nD τ) arg2 fullShare x1
        ∗ owns (c : Thread nD τ) arg4 fullShare s
        ∗ (iprop(owns (c : Thread nD τ) arg1 fullShare x0 ∗ owns (c : Thread nD τ) arg2 fullShare x1
            ∗ owns (c : Thread nD τ) arg4 fullShare (k2_pay2 x1 x0 s)) -∗ K ⟨⟩))
      ⊢ wp frame (wpE (defs₀ (F := F)) Variants.none c none) E (cc2__pool_kernel i arg1 harg1 arg2 harg2 arg3 harg3 arg4 harg4) K := by
  simp only [cc2__pool_kernel_eq_skeleton]; unfold cc2__pool_kernel_skel
  unfold owns
  iintro ⟨⟨%f0, %hf0, H0⟩, ⟨%f1, %hf1, H1⟩, ⟨%fs, %hfs, HS⟩, Hk⟩
  obtain rfl := harg1.eq_unread hf0; obtain rfl := harg2.eq_unread hf1; obtain rfl := harg4.eq_unread hfs
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  iexists _; isplitr
  swap; · iexact HS
  ipureintro
  sl_unfold_words
  rw [View.read_writes_eq_canon _ _ _ (cover_whole _ _),
    View.canon_unit_zero (S := S512x128) hz2]
  simp only [View.readAt_eq_ld, harg1.read_unread, harg2.read_unread, harg4.read_unread,
    View.ld_unit_zero (S := S3128x128) hz2, View.ld_unit_zero (S := S3128x1) hz2, View.ld_unit_zero (S := S512x128) hz2]

set_option maxHeartbeats 1000000 in
/-- At the last point: the same update of the scratch, whose new contents are then stored over the whole output
    buffer, whatever it held. -/
private theorem run2_C (c : Dev nD) (E : Set ℕ) (i : grid2.Coords)
    (arg1 : Memref sig .tc .vmem S3128x128 .f32) (harg1 : arg1.IsWhole)
    (arg2 : Memref sig .tc .vmem S3128x1 .i32) (harg2 : arg2.IsWhole)
    (arg3 : Memref sig .tc .vmem S512x128 .f32) (harg3 : arg3.IsWhole)
    (arg4 : Memref sig .tc .vmem S512x128 .f32) (harg4 : arg4.IsWhole)
    (hc0 : ¬cond2_0 i) (hc1 : cond2_1 i)
    (x0 : Vec F S3128x128 .f32) (x1 : Vec F S3128x1 .i32) (s : Vec F S512x128 .f32) (K : PUnit → sProp 𝕄) :
    iprop(owns (c : Thread nD τ) arg1 fullShare x0 ∗ owns (c : Thread nD τ) arg2 fullShare x1
        ∗ (∃ d, owns (c : Thread nD τ) arg3 fullShare d)
        ∗ owns (c : Thread nD τ) arg4 fullShare s
        ∗ (iprop(owns (c : Thread nD τ) arg1 fullShare x0 ∗ owns (c : Thread nD τ) arg2 fullShare x1
            ∗ owns (c : Thread nD τ) arg3 fullShare (k2_pay2 x1 x0 s)
            ∗ owns (c : Thread nD τ) arg4 fullShare (k2_pay2 x1 x0 s)) -∗ K ⟨⟩))
      ⊢ wp frame (wpE (defs₀ (F := F)) Variants.none c none) E (cc2__pool_kernel i arg1 harg1 arg2 harg2 arg3 harg3 arg4 harg4) K := by
  simp only [cc2__pool_kernel_eq_skeleton]; unfold cc2__pool_kernel_skel
  unfold owns
  iintro ⟨⟨%f0, %hf0, H0⟩, ⟨%f1, %hf1, H1⟩, ⟨%d3, %f3, -, H3⟩, ⟨%fs, %hfs, HS⟩, Hk⟩
  obtain rfl := harg1.eq_unread hf0; obtain rfl := harg2.eq_unread hf1; obtain rfl := harg4.eq_unread hfs
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H3]
  · iexists _; isplitr
    swap; · iexact H3
    ipureintro
    sl_unfold_words
    rw [View.read_writes_eq_canon _ _ _ (cover_whole _ _),
      View.canon_unit_zero (S := S512x128) hz2]
    simp only [View.readAt_eq_ld, harg1.read_unread, harg2.read_unread, harg4.read_unread, View.readCov_unit_zero (S := S512x128) _ hz2,
      View.ld_unit_zero (S := S3128x128) hz2, View.ld_unit_zero (S := S3128x1) hz2, View.ld_unit_zero (S := S512x128) hz2]
  iexists _; isplitr
  swap; · iexact HS
  ipureintro
  sl_unfold_words
  rw [View.read_writes_eq_canon _ _ _ (cover_whole _ _),
    View.canon_unit_zero (S := S512x128) hz2]
  simp only [View.readAt_eq_ld, harg1.read_unread, harg2.read_unread, harg4.read_unread,
    View.ld_unit_zero (S := S3128x128) hz2, View.ld_unit_zero (S := S3128x1) hz2, View.ld_unit_zero (S := S512x128) hz2]

/-! ## The body obligation, at a generic point -/

/-- What the body is called with at point `t`, the windows one by one, -/
private def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
private def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
/-- The body at any point. The inputs' buffers hold their blocks. At the first point the invariant hands over the
    scratch at anything and takes it back at the cleared block plus this block's sums; at a later point it hands it
    over at what the point before left and takes it back with this block's sums added. Away from the last point the
    output's buffer, idle and not written back, is handed back untouched; at the last point it is stored whole with
    the scratch's new contents. The other scoped buffers, the generator register and what the core owes pass through. -/
private theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (st2_0 t) fullShare ((dat2 V c).after 0 t) from by
    unfold Dat.leavesExact; rw [liveAt2_0 t], after2_0]
  rw [show (dat2 V c).leavesExact 1 t = owns (c : Thread nD τ) (st2_1 t) fullShare ((dat2 V c).after 1 t) from by
    unfold Dat.leavesExact; rw [liveAt2_1 t], after2_1]
  have hN : t.val < 16 := lt_of_lt_of_eq t.isLt (show cfg2.N = 16 from N_2)
  by_cases h1 : t.val = 15
  · have h0 : ¬t.val = 0 := by omega
    rw [show (dat2 V c).leavesExact 2 t = owns (c : Thread nD τ) (st2_2 t) fullShare ((dat2 V c).after 2 t) from by
      unfold Dat.leavesExact; rw [liveAt2_2 t ((hcond2_1 t).mpr h1)], after2_2]
    rw [acc2_pos V c t h0]
    rw [PhiS2_castSucc V c t, PhiS2_pos V c _ _ h0]
    iintro ⟨⟨HS, HR, Hg⟩, Ho, ⟨%d0, H0⟩, ⟨%d1, H1⟩, ⟨%d2, H2⟩⟩
    iapply (run2_C c Set.univ (grid2.coords t) _ _ _ _ _ _ _ _ (fun h => h0 ((hcond2_0 t).mp h)) ((hcond2_1 t).mpr h1)
      (iblk2 V c 0 t) (iblk2 V c 1 t) (acc2 V c (t.val - 1) (Nat.lt_of_le_of_lt (Nat.sub_le _ _) t.isLt)) _)
    isplitl [H0]; · iexact H0
    isplitl [H1]; · iexact H1
    isplitl [H2]; · iexists _; iexact H2
    isplitl [HS]; · iexact HS
    iintro ⟨H0, H1, H2, HS⟩
    isplitl [HS HR Hg]
    · isplitl [HS]; · iexact HS
      isplitl [HR]; · iexact HR
      iexact Hg
    isplitl [Ho]; · iexact Ho
    isplitl [H0]; · iexact H0
    isplitl [H1]; · iexact H1
    iexact H2
  · rw [Dat.leavesExact_idle (dat2 V c) 2 t (idleAt2_2 t (fun h => h1 ((hcond2_1 t).mp h))) (noFlush2_2 t (fun h => h1 ((hcond2_1 t).mp h)))]
    by_cases h0 : t.val = 0
    · rw [acc2_zero V c t h0]
      rw [PhiS2_castSucc V c t, PhiS2_zero V c _ _ h0, PhiA2_eq]
      iintro ⟨⟨⟨HS, HR⟩, Hg⟩, Ho, ⟨%d0, H0⟩, ⟨%d1, H1⟩, ⟨%d2, H2⟩⟩
      iapply (run2_A c Set.univ (grid2.coords t) _ _ _ _ _ _ _ _ ((hcond2_0 t).mpr h0) (fun h => h1 ((hcond2_1 t).mp h))
        (iblk2 V c 0 t) (iblk2 V c 1 t) _)
      isplitl [H0]; · iexact H0
      isplitl [H1]; · iexact H1
      isplitl [HS]; · iexact HS
      iintro ⟨H0, H1, HS⟩
      isplitl [HS HR Hg]
      · isplitl [HS]; · iexact HS
        isplitl [HR]; · iexact HR
        iexact Hg
      isplitl [Ho]; · iexact Ho
      isplitl [H0]; · iexact H0
      isplitl [H1]; · iexact H1
      iexists _; iexact H2
    · rw [acc2_pos V c t h0]
      rw [PhiS2_castSucc V c t, PhiS2_pos V c _ _ h0]
      iintro ⟨⟨HS, HR, Hg⟩, Ho, ⟨%d0, H0⟩, ⟨%d1, H1⟩, ⟨%d2, H2⟩⟩
      iapply (run2_B c Set.univ (grid2.coords t) _ _ _ _ _ _ _ _ (fun h => h0 ((hcond2_0 t).mp h)) (fun h => h1 ((hcond2_1 t).mp h))
        (iblk2 V c 0 t) (iblk2 V c 1 t) (acc2 V c (t.val - 1) (Nat.lt_of_le_of_lt (Nat.sub_le _ _) t.isLt)) _)
      isplitl [H0]; · iexact H0
      isplitl [H1]; · iexact H1
      isplitl [HS]; · iexact HS
      iintro ⟨H0, H1, HS⟩
      isplitl [HS HR Hg]
      · isplitl [HS]; · iexact HS
        isplitl [HR]; · iexact HR
        iexact Hg
      isplitl [Ho]; · iexact Ho
      isplitl [H0]; · iexact H0
      isplitl [H1]; · iexact H1
      iexists _; iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]

/-- After any point but the first the invariant gives the class invariant back: the scratch's named contents are
    forgotten. -/
private theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨HS, HR, Hg⟩
  isplitl [HS HR]
  · isplitl [HS]
    · iexists _; iexact HS
    iexact HR
  iexact Hg

/-- After the last point the invariant gives the scoped buffers and the generator register back. -/
theorem hout2 (c : Dev nD) : (dat2 V c).Φ (Fin.last cfg2.N) ⊢ Pipeline.ΦA spec2 c :=
  Phi_out2 V c _ (by rw [Fin.val_last]; have : cfg2.N = 16 := N_2; omega)

end Cert.Kernel.Hand

end
-- ==== Proof.KB.Reg3.lean ====
/-
  Region 3: the body obligation of its pipeline, at any contents the region is entered with.
-/
import proofs.«411454_j24300924961028_1_alg».proof.Proof.KB.Data
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The proof data, projected -/

/-- The arrays are the contents the region is entered with. -/
theorem A_eq3 (c : Dev nD) (w : Fin cfg3.W) : (dat3 V c).A w = V c (Pipeline.arrRef spec3 w) := by
  dsimp only [dat3]

/-- The three inputs' buffers are left at their blocks, -/
theorem after3_0 (c : Dev nD) (t : Fin cfg3.N) : (dat3 V c).after 0 t = iblk3 V c 0 t := by
  dsimp only [dat3]
theorem after3_1 (c : Dev nD) (t : Fin cfg3.N) : (dat3 V c).after 1 t = iblk3 V c 1 t := by
  dsimp only [dat3]
theorem after3_2 (c : Dev nD) (t : Fin cfg3.N) : (dat3 V c).after 2 t = iblk3 V c 2 t := by
  dsimp only [dat3]
/-- and the output's at the pooled block times the weights, plus the bias row. -/
theorem after3_3 (c : Dev nD) (t : Fin cfg3.N) : (dat3 V c).after 3 t = k3_pay1 (iblk3 V c 0 t) (iblk3 V c 1 t) (iblk3 V c 2 t) := by
  dsimp only [dat3]

/-! ## What the body finds in the inputs' buffers

Each input window is fetched at the grid's one point, and none is cut: when the body runs its buffer holds the whole
block of its array. -/

theorem before3_0 (c : Dev nD) (t : Fin cfg3.N) (d) : (dat3 V c).before 0 t d = iblk3 V c 0 t := by
  rw [(dat3 V c).before_fetched 0 t (fetch3_0 t) d]
  unfold Dat.fetched Dat.blockOf iblk3
  rw [A_eq3]; rfl
theorem before3_1 (c : Dev nD) (t : Fin cfg3.N) (d) : (dat3 V c).before 1 t d = iblk3 V c 1 t := by
  rw [(dat3 V c).before_fetched 1 t (fetch3_1 t) d]
  unfold Dat.fetched Dat.blockOf iblk3
  rw [A_eq3]; rfl
theorem before3_2 (c : Dev nD) (t : Fin cfg3.N) (d) : (dat3 V c).before 2 t d = iblk3 V c 2 t := by
  rw [(dat3 V c).before_fetched 2 t (fetch3_2 t) d]
  unfold Dat.fetched Dat.blockOf iblk3
  rw [A_eq3]; rfl

/-! ## The body's accesses: every load and the one store go through a whole buffer -/

/-- Every access starts at offset zero on both axes. -/
theorem off3_zero : (![0, 0] : Fin 2 → Nat) = fun _ => 0 := by
  funext a; fin_cases a <;> rfl

/-- The store's rectangle: the whole output buffer. -/
abbrev r3_3 : Rect S512x64 := Rect.unit (s := S512x64) ![0, 0] S512x64.size inb_S512x64_S512x64_0_0

/-- So the one store covers the output buffer. -/
theorem cover3_3 (p : Vec F S512x64 .f32) (y : S512x64.Idx) :
    ∃ pc ∈ ([⟨r3_3, p⟩] : List (View.Piece (Elt F) S512x64 .f32)), y ∈ pc.1.set :=
  ⟨_, List.mem_singleton_self _, View.mem_set_unit_zero (S := S512x64) off3_zero inb_S512x64_S512x64_0_0 y⟩

/-! ## The body's triple -/

set_option maxHeartbeats 1000000 in
/-- The body on whole staging memrefs, the three inputs' at contents `x0`, `x1`, `x2` and the output's at anything,
    runs to the continuation holding the inputs' as they were and the output's at `x0` (rounded to bf16) times `x1`
    (rounded to bf16) plus the row `x2` on every row: each load reads a whole buffer, so the store's payload is
    the payload of the buffers' contents, and the store overwrites the whole output buffer, the value the dead load
    of it read included. -/
theorem sound_kernel3 (c : Dev nD) (E : Set ℕ) (i : grid3.Coords)
    (arg1 : Memref sig .tc .vmem S512x128 .f32) (harg1 : arg1.IsWhole)
    (arg2 : Memref sig .tc .vmem S128x64 .f32) (harg2 : arg2.IsWhole)
    (arg3 : Memref sig .tc .vmem S1x64 .f32) (harg3 : arg3.IsWhole)
    (arg4 : Memref sig .tc .vmem S512x64 .f32) (harg4 : arg4.IsWhole)
    (x0 : Vec F S512x128 .f32) (x1 : Vec F S128x64 .f32) (x2 : Vec F S1x64 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2
            ∗ owns (c : Thread nD τ) arg4 fullShare (k3_pay1 x0 x1 x2)) -∗ K ⟨⟩))
      ⊢ wp frame (wpE (defs₀ (F := F)) Variants.none c none) E
          (cc3__fc_kernel i arg1 harg1 arg2 harg2 arg3 harg3 arg4 harg4) K := by
  simp only [cc3__fc_kernel_eq_skeleton]; unfold cc3__fc_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (cover3_3 _), View.canon_unit_zero off3_zero]
  simp only [View.readAt_eq_ld, View.ld_unit_zero (S := S512x128) off3_zero,
    View.ld_unit_zero (S := S128x64) off3_zero, View.ld_unit_zero (S := S1x64) off3_zero]

/-! ## The body obligation, at a generic point -/

/-- What the body is called with at point `t`: the invariant, what the core owes, and each window's current buffer. -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- What it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' buffers hold their blocks, so the body's triple applies at those blocks; the
    invariant and what the core owes are the same before and after and pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation3 (c : Dev nD) : BodyObligation (dat3 (F := F) V c) (defs₀ (F := F)) Variants.none () Set.univ := by
  intro t
  rw [bigSep_W3, bigSep_W3]
  exact sound_body3 V c t

end Cert.Kernel.Hand

end
-- ==== Proof.KB.Run.lean ====
/-
  The program's run from the launch to the return: the buffer contents at each boundary read back (every argument ends as
  launched: no host operation writes one and a region only reads it), each kernel region as a segment over the thread
  state "every unscoped buffer at the boundary's contents, the generator register at some state, nothing owed", @main as
  the list of its thirteen segments, and the run itself: every weakly fair execution terminates, nothing faulting, with
  the result buffer at what the last region's pipeline leaves in it and the arguments unchanged.
-/
import proofs.«411454_j24300924961028_1_alg».proof.Proof.KB.Reg0
import proofs.«411454_j24300924961028_1_alg».proof.Proof.KB.Reg1
import proofs.«411454_j24300924961028_1_alg».proof.Proof.KB.Reg2
import proofs.«411454_j24300924961028_1_alg».proof.Proof.KB.Reg3

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Each region's exit contents: its arrays at what the pipeline leaves, every other buffer as entered -/

theorem W3_arr (c : Dev nD) (w : Fin cfg0.W) :
    W3 m c (Proc.devRef .tc (Pipeline.arrRef spec0 w)) = (dat0 (E2 m) c).arrAt w cfg0.N := by
  unfold W3; exact Pipeline.withArrays_arr spec0 launch0.win.arr_inj c _ _ w
theorem W3_of_ne (c : Dev nD) (b : Ref sig .tc) (hb : ∀ w, Pipeline.arrRef spec0 w ≠ b) :
    W3 m c (Proc.devRef .tc b) = W2 m c (Proc.devRef .tc b) := by
  unfold W3; exact Pipeline.withArrays_of_ne spec0 c _ _ b hb
/-- Region 0's exit contents, read at the TensorCore's references. -/
abbrev E3 : (c : Dev nD) → (b : Ref sig .tc) → Buf (Elt F) ((c : Thread nD τ).loc b) := fun c b => W3 m c b
theorem hF0 (c : Dev nD) (w : Fin cfg0.W) : (dat0 (E2 m) c).arrAt w cfg0.N = E3 m c (Pipeline.arrRef spec0 w) :=
  (W3_arr m c w).symm
theorem hrest0 (c : Dev nD) : ∀ b, b ∉ Finset.univ.image (Pipeline.arrRef spec0) → E3 m c b = E2 m c b :=
  fun b hb => W3_of_ne m c b fun w e => hb (Finset.mem_image.mpr ⟨w, Finset.mem_univ _, e⟩)

theorem W5_arr (c : Dev nD) (w : Fin cfg1.W) :
    W5 m c (Proc.devRef .tc (Pipeline.arrRef spec1 w)) = (dat1 (E4 m) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m c (Proc.devRef .tc b) = W4 m c (Proc.devRef .tc b) := by
  unfold W5; exact Pipeline.withArrays_of_ne spec1 c _ _ b hb
/-- Region 1's exit contents, read at the TensorCore's references. -/
abbrev E5 : (c : Dev nD) → (b : Ref sig .tc) → Buf (Elt F) ((c : Thread nD τ).loc b) := fun c b => W5 m c b
theorem hF1 (c : Dev nD) (w : Fin cfg1.W) : (dat1 (E4 m) c).arrAt w cfg1.N = E5 m c (Pipeline.arrRef spec1 w) :=
  (W5_arr m c w).symm
theorem hrest1 (c : Dev nD) : ∀ b, b ∉ Finset.univ.image (Pipeline.arrRef spec1) → E5 m c b = E4 m c b :=
  fun b hb => W5_of_ne m c b fun w e => hb (Finset.mem_image.mpr ⟨w, Finset.mem_univ _, e⟩)

theorem W9_arr (c : Dev nD) (w : Fin cfg2.W) :
    W9 m c (Proc.devRef .tc (Pipeline.arrRef spec2 w)) = (dat2 (E8 m) c).arrAt w cfg2.N := by
  unfold W9; exact Pipeline.withArrays_arr spec2 launch2.win.arr_inj c _ _ w
theorem W9_of_ne (c : Dev nD) (b : Ref sig .tc) (hb : ∀ w, Pipeline.arrRef spec2 w ≠ b) :
    W9 m c (Proc.devRef .tc b) = W8 m c (Proc.devRef .tc b) := by
  unfold W9; exact Pipeline.withArrays_of_ne spec2 c _ _ b hb
/-- Region 2's exit contents, read at the TensorCore's references. -/
abbrev E9 : (c : Dev nD) → (b : Ref sig .tc) → Buf (Elt F) ((c : Thread nD τ).loc b) := fun c b => W9 m c b
theorem hF2 (c : Dev nD) (w : Fin cfg2.W) : (dat2 (E8 m) c).arrAt w cfg2.N = E9 m c (Pipeline.arrRef spec2 w) :=
  (W9_arr m c w).symm
theorem hrest2 (c : Dev nD) : ∀ b, b ∉ Finset.univ.image (Pipeline.arrRef spec2) → E9 m c b = E8 m c b :=
  fun b hb => W9_of_ne m c b fun w e => hb (Finset.mem_image.mpr ⟨w, Finset.mem_univ _, e⟩)

theorem W13_arr (c : Dev nD) (w : Fin cfg3.W) :
    W13 m c (Proc.devRef .tc (Pipeline.arrRef spec3 w)) = (dat3 (E12 m) c).arrAt w cfg3.N := by
  unfold W13; exact Pipeline.withArrays_arr spec3 launch3.win.arr_inj c _ _ w
theorem W13_of_ne (c : Dev nD) (b : Ref sig .tc) (hb : ∀ w, Pipeline.arrRef spec3 w ≠ b) :
    W13 m c (Proc.devRef .tc b) = W12 m c (Proc.devRef .tc b) := by
  unfold W13; exact Pipeline.withArrays_of_ne spec3 c _ _ b hb
/-- Region 3's exit contents, read at the TensorCore's references. -/
abbrev E13 : (c : Dev nD) → (b : Ref sig .tc) → Buf (Elt F) ((c : Thread nD τ).loc b) := fun c b => W13 m c b
theorem hF3 (c : Dev nD) (w : Fin cfg3.W) : (dat3 (E12 m) c).arrAt w cfg3.N = E13 m c (Pipeline.arrRef spec3 w) :=
  (W13_arr m c w).symm
theorem hrest3 (c : Dev nD) : ∀ b, b ∉ Finset.univ.image (Pipeline.arrRef spec3) → E13 m c b = E12 m c b :=
  fun b hb => W13_of_ne m c b fun w e => hb (Finset.mem_image.mpr ⟨w, Finset.mem_univ _, e⟩)

/-! ## The arguments end as launched -/

theorem W13_main_arg0 (c : Dev nD) : W13 m c (Proc.devRef .tc main_arg0) = m ((c : Thread nD τ).loc main_arg0) :=
  calc W13 m c (Proc.devRef .tc main_arg0)
    _ = W12 m c (Proc.devRef .tc main_arg0) := W13_of_ne m c main_arg0 (by decide)
    _ = W11 m c (Proc.devRef .tc main_arg0) := StableHlo.after_of_writes_sub hostOps3_2 _ hostOps3_2_writes (by decide)
    _ = W10 m c (Proc.devRef .tc main_arg0) := StableHlo.after_of_writes_sub hostOps3_1 _ hostOps3_1_writes (by decide)
    _ = W9 m c (Proc.devRef .tc main_arg0) := StableHlo.after_of_writes_sub hostOps3 _ hostOps3_writes (by decide)
    _ = W8 m c (Proc.devRef .tc main_arg0) := W9_of_ne m c main_arg0 (by decide)
    _ = W7 m c (Proc.devRef .tc main_arg0) := StableHlo.after_of_writes_sub hostOps2_2 _ hostOps2_2_writes (by decide)
    _ = W6 m c (Proc.devRef .tc main_arg0) := StableHlo.after_of_writes_sub hostOps2_1 _ hostOps2_1_writes (by decide)
    _ = W5 m c (Proc.devRef .tc main_arg0) := StableHlo.after_of_writes_sub hostOps2 _ hostOps2_writes (by decide)
    _ = W4 m c (Proc.devRef .tc main_arg0) := W5_of_ne m c main_arg0 (by decide)
    _ = W3 m c (Proc.devRef .tc main_arg0) := StableHlo.after_of_writes_sub hostOps1 _ hostOps1_writes (by decide)
    _ = W2 m c (Proc.devRef .tc main_arg0) := W3_of_ne m c main_arg0 (by decide)
    _ = W1 m c (Proc.devRef .tc main_arg0) := StableHlo.after_of_writes_sub hostOps0_1 _ hostOps0_1_writes (by decide)
    _ = W0 m c (Proc.devRef .tc main_arg0) := StableHlo.after_of_writes_sub hostOps0 _ hostOps0_writes (by decide)
    _ = m ((c : Thread nD τ).loc main_arg0) := rfl

theorem W13_main_arg1 (c : Dev nD) : W13 m c (Proc.devRef .tc main_arg1) = m ((c : Thread nD τ).loc main_arg1) :=
  calc W13 m c (Proc.devRef .tc main_arg1)
    _ = W12 m c (Proc.devRef .tc main_arg1) := W13_of_ne m c main_arg1 (by decide)
    _ = W11 m c (Proc.devRef .tc main_arg1) := StableHlo.after_of_writes_sub hostOps3_2 _ hostOps3_2_writes (by decide)
    _ = W10 m c (Proc.devRef .tc main_arg1) := StableHlo.after_of_writes_sub hostOps3_1 _ hostOps3_1_writes (by decide)
    _ = W9 m c (Proc.devRef .tc main_arg1) := StableHlo.after_of_writes_sub hostOps3 _ hostOps3_writes (by decide)
    _ = W8 m c (Proc.devRef .tc main_arg1) := W9_of_ne m c main_arg1 (by decide)
    _ = W7 m c (Proc.devRef .tc main_arg1) := StableHlo.after_of_writes_sub hostOps2_2 _ hostOps2_2_writes (by decide)
    _ = W6 m c (Proc.devRef .tc main_arg1) := StableHlo.after_of_writes_sub hostOps2_1 _ hostOps2_1_writes (by decide)
    _ = W5 m c (Proc.devRef .tc main_arg1) := StableHlo.after_of_writes_sub hostOps2 _ hostOps2_writes (by decide)
    _ = W4 m c (Proc.devRef .tc main_arg1) := W5_of_ne m c main_arg1 (by decide)
    _ = W3 m c (Proc.devRef .tc main_arg1) := StableHlo.after_of_writes_sub hostOps1 _ hostOps1_writes (by decide)
    _ = W2 m c (Proc.devRef .tc main_arg1) := W3_of_ne m c main_arg1 (by decide)
    _ = W1 m c (Proc.devRef .tc main_arg1) := StableHlo.after_of_writes_sub hostOps0_1 _ hostOps0_1_writes (by decide)
    _ = W0 m c (Proc.devRef .tc main_arg1) := StableHlo.after_of_writes_sub hostOps0 _ hostOps0_writes (by decide)
    _ = m ((c : Thread nD τ).loc main_arg1) := rfl

theorem W13_main_arg2 (c : Dev nD) : W13 m c (Proc.devRef .tc main_arg2) = m ((c : Thread nD τ).loc main_arg2) :=
  calc W13 m c (Proc.devRef .tc main_arg2)
    _ = W12 m c (Proc.devRef .tc main_arg2) := W13_of_ne m c main_arg2 (by decide)
    _ = W11 m c (Proc.devRef .tc main_arg2) := StableHlo.after_of_writes_sub hostOps3_2 _ hostOps3_2_writes (by decide)
    _ = W10 m c (Proc.devRef .tc main_arg2) := StableHlo.after_of_writes_sub hostOps3_1 _ hostOps3_1_writes (by decide)
    _ = W9 m c (Proc.devRef .tc main_arg2) := StableHlo.after_of_writes_sub hostOps3 _ hostOps3_writes (by decide)
    _ = W8 m c (Proc.devRef .tc main_arg2) := W9_of_ne m c main_arg2 (by decide)
    _ = W7 m c (Proc.devRef .tc main_arg2) := StableHlo.after_of_writes_sub hostOps2_2 _ hostOps2_2_writes (by decide)
    _ = W6 m c (Proc.devRef .tc main_arg2) := StableHlo.after_of_writes_sub hostOps2_1 _ hostOps2_1_writes (by decide)
    _ = W5 m c (Proc.devRef .tc main_arg2) := StableHlo.after_of_writes_sub hostOps2 _ hostOps2_writes (by decide)
    _ = W4 m c (Proc.devRef .tc main_arg2) := W5_of_ne m c main_arg2 (by decide)
    _ = W3 m c (Proc.devRef .tc main_arg2) := StableHlo.after_of_writes_sub hostOps1 _ hostOps1_writes (by decide)
    _ = W2 m c (Proc.devRef .tc main_arg2) := W3_of_ne m c main_arg2 (by decide)
    _ = W1 m c (Proc.devRef .tc main_arg2) := StableHlo.after_of_writes_sub hostOps0_1 _ hostOps0_1_writes (by decide)
    _ = W0 m c (Proc.devRef .tc main_arg2) := StableHlo.after_of_writes_sub hostOps0 _ hostOps0_writes (by decide)
    _ = m ((c : Thread nD τ).loc main_arg2) := rfl

theorem W13_main_arg3 (c : Dev nD) : W13 m c (Proc.devRef .tc main_arg3) = m ((c : Thread nD τ).loc main_arg3) :=
  calc W13 m c (Proc.devRef .tc main_arg3)
    _ = W12 m c (Proc.devRef .tc main_arg3) := W13_of_ne m c main_arg3 (by decide)
    _ = W11 m c (Proc.devRef .tc main_arg3) := StableHlo.after_of_writes_sub hostOps3_2 _ hostOps3_2_writes (by decide)
    _ = W10 m c (Proc.devRef .tc main_arg3) := StableHlo.after_of_writes_sub hostOps3_1 _ hostOps3_1_writes (by decide)
    _ = W9 m c (Proc.devRef .tc main_arg3) := StableHlo.after_of_writes_sub hostOps3 _ hostOps3_writes (by decide)
    _ = W8 m c (Proc.devRef .tc main_arg3) := W9_of_ne m c main_arg3 (by decide)
    _ = W7 m c (Proc.devRef .tc main_arg3) := StableHlo.after_of_writes_sub hostOps2_2 _ hostOps2_2_writes (by decide)
    _ = W6 m c (Proc.devRef .tc main_arg3) := StableHlo.after_of_writes_sub hostOps2_1 _ hostOps2_1_writes (by decide)
    _ = W5 m c (Proc.devRef .tc main_arg3) := StableHlo.after_of_writes_sub hostOps2 _ hostOps2_writes (by decide)
    _ = W4 m c (Proc.devRef .tc main_arg3) := W5_of_ne m c main_arg3 (by decide)
    _ = W3 m c (Proc.devRef .tc main_arg3) := StableHlo.after_of_writes_sub hostOps1 _ hostOps1_writes (by decide)
    _ = W2 m c (Proc.devRef .tc main_arg3) := (W3_arr m c 1).trans (((dat0 (E2 m) c).arrAt_in 1 rfl _).trans (A_eq0 (E2 m) c 1))
    _ = W1 m c (Proc.devRef .tc main_arg3) := StableHlo.after_of_writes_sub hostOps0_1 _ hostOps0_1_writes (by decide)
    _ = W0 m c (Proc.devRef .tc main_arg3) := StableHlo.after_of_writes_sub hostOps0 _ hostOps0_writes (by decide)
    _ = m ((c : Thread nD τ).loc main_arg3) := rfl

theorem W13_main_arg4 (c : Dev nD) : W13 m c (Proc.devRef .tc main_arg4) = m ((c : Thread nD τ).loc main_arg4) :=
  calc W13 m c (Proc.devRef .tc main_arg4)
    _ = W12 m c (Proc.devRef .tc main_arg4) := W13_of_ne m c main_arg4 (by decide)
    _ = W11 m c (Proc.devRef .tc main_arg4) := StableHlo.after_of_writes_sub hostOps3_2 _ hostOps3_2_writes (by decide)
    _ = W10 m c (Proc.devRef .tc main_arg4) := StableHlo.after_of_writes_sub hostOps3_1 _ hostOps3_1_writes (by decide)
    _ = W9 m c (Proc.devRef .tc main_arg4) := StableHlo.after_of_writes_sub hostOps3 _ hostOps3_writes (by decide)
    _ = W8 m c (Proc.devRef .tc main_arg4) := W9_of_ne m c main_arg4 (by decide)
    _ = W7 m c (Proc.devRef .tc main_arg4) := StableHlo.after_of_writes_sub hostOps2_2 _ hostOps2_2_writes (by decide)
    _ = W6 m c (Proc.devRef .tc main_arg4) := StableHlo.after_of_writes_sub hostOps2_1 _ hostOps2_1_writes (by decide)
    _ = W5 m c (Proc.devRef .tc main_arg4) := StableHlo.after_of_writes_sub hostOps2 _ hostOps2_writes (by decide)
    _ = W4 m c (Proc.devRef .tc main_arg4) := W5_of_ne m c main_arg4 (by decide)
    _ = W3 m c (Proc.devRef .tc main_arg4) := StableHlo.after_of_writes_sub hostOps1 _ hostOps1_writes (by decide)
    _ = W2 m c (Proc.devRef .tc main_arg4) := W3_of_ne m c main_arg4 (by decide)
    _ = W1 m c (Proc.devRef .tc main_arg4) := StableHlo.after_of_writes_sub hostOps0_1 _ hostOps0_1_writes (by decide)
    _ = W0 m c (Proc.devRef .tc main_arg4) := StableHlo.after_of_writes_sub hostOps0 _ hostOps0_writes (by decide)
    _ = m ((c : Thread nD τ).loc main_arg4) := rfl

theorem W13_main_arg5 (c : Dev nD) : W13 m c (Proc.devRef .tc main_arg5) = m ((c : Thread nD τ).loc main_arg5) :=
  calc W13 m c (Proc.devRef .tc main_arg5)
    _ = W12 m c (Proc.devRef .tc main_arg5) := W13_of_ne m c main_arg5 (by decide)
    _ = W11 m c (Proc.devRef .tc main_arg5) := StableHlo.after_of_writes_sub hostOps3_2 _ hostOps3_2_writes (by decide)
    _ = W10 m c (Proc.devRef .tc main_arg5) := StableHlo.after_of_writes_sub hostOps3_1 _ hostOps3_1_writes (by decide)
    _ = W9 m c (Proc.devRef .tc main_arg5) := StableHlo.after_of_writes_sub hostOps3 _ hostOps3_writes (by decide)
    _ = W8 m c (Proc.devRef .tc main_arg5) := W9_of_ne m c main_arg5 (by decide)
    _ = W7 m c (Proc.devRef .tc main_arg5) := StableHlo.after_of_writes_sub hostOps2_2 _ hostOps2_2_writes (by decide)
    _ = W6 m c (Proc.devRef .tc main_arg5) := StableHlo.after_of_writes_sub hostOps2_1 _ hostOps2_1_writes (by decide)
    _ = W5 m c (Proc.devRef .tc main_arg5) := StableHlo.after_of_writes_sub hostOps2 _ hostOps2_writes (by decide)
    _ = W4 m c (Proc.devRef .tc main_arg5) := (W5_arr m c 1).trans (((dat1 (E4 m) c).arrAt_in 1 rfl _).trans (A_eq1 (E4 m) c 1))
    _ = W3 m c (Proc.devRef .tc main_arg5) := StableHlo.after_of_writes_sub hostOps1 _ hostOps1_writes (by decide)
    _ = W2 m c (Proc.devRef .tc main_arg5) := W3_of_ne m c main_arg5 (by decide)
    _ = W1 m c (Proc.devRef .tc main_arg5) := StableHlo.after_of_writes_sub hostOps0_1 _ hostOps0_1_writes (by decide)
    _ = W0 m c (Proc.devRef .tc main_arg5) := StableHlo.after_of_writes_sub hostOps0 _ hostOps0_writes (by decide)
    _ = m ((c : Thread nD τ).loc main_arg5) := rfl

theorem W13_main_arg6 (c : Dev nD) : W13 m c (Proc.devRef .tc main_arg6) = m ((c : Thread nD τ).loc main_arg6) :=
  calc W13 m c (Proc.devRef .tc main_arg6)
    _ = W12 m c (Proc.devRef .tc main_arg6) := W13_of_ne m c main_arg6 (by decide)
    _ = W11 m c (Proc.devRef .tc main_arg6) := StableHlo.after_of_writes_sub hostOps3_2 _ hostOps3_2_writes (by decide)
    _ = W10 m c (Proc.devRef .tc main_arg6) := StableHlo.after_of_writes_sub hostOps3_1 _ hostOps3_1_writes (by decide)
    _ = W9 m c (Proc.devRef .tc main_arg6) := StableHlo.after_of_writes_sub hostOps3 _ hostOps3_writes (by decide)
    _ = W8 m c (Proc.devRef .tc main_arg6) := W9_of_ne m c main_arg6 (by decide)
    _ = W7 m c (Proc.devRef .tc main_arg6) := StableHlo.after_of_writes_sub hostOps2_2 _ hostOps2_2_writes (by decide)
    _ = W6 m c (Proc.devRef .tc main_arg6) := StableHlo.after_of_writes_sub hostOps2_1 _ hostOps2_1_writes (by decide)
    _ = W5 m c (Proc.devRef .tc main_arg6) := StableHlo.after_of_writes_sub hostOps2 _ hostOps2_writes (by decide)
    _ = W4 m c (Proc.devRef .tc main_arg6) := W5_of_ne m c main_arg6 (by decide)
    _ = W3 m c (Proc.devRef .tc main_arg6) := StableHlo.after_of_writes_sub hostOps1 _ hostOps1_writes (by decide)
    _ = W2 m c (Proc.devRef .tc main_arg6) := W3_of_ne m c main_arg6 (by decide)
    _ = W1 m c (Proc.devRef .tc main_arg6) := StableHlo.after_of_writes_sub hostOps0_1 _ hostOps0_1_writes (by decide)
    _ = W0 m c (Proc.devRef .tc main_arg6) := StableHlo.after_of_writes_sub hostOps0 _ hostOps0_writes (by decide)
    _ = m ((c : Thread nD τ).loc main_arg6) := rfl

theorem W13_main_arg7 (c : Dev nD) : W13 m c (Proc.devRef .tc main_arg7) = m ((c : Thread nD τ).loc main_arg7) :=
  calc W13 m c (Proc.devRef .tc main_arg7)
    _ = W12 m c (Proc.devRef .tc main_arg7) := (W13_arr m c 1).trans (((dat3 (E12 m) c).arrAt_in 1 rfl _).trans (A_eq3 (E12 m) c 1))
    _ = W11 m c (Proc.devRef .tc main_arg7) := StableHlo.after_of_writes_sub hostOps3_2 _ hostOps3_2_writes (by decide)
    _ = W10 m c (Proc.devRef .tc main_arg7) := StableHlo.after_of_writes_sub hostOps3_1 _ hostOps3_1_writes (by decide)
    _ = W9 m c (Proc.devRef .tc main_arg7) := StableHlo.after_of_writes_sub hostOps3 _ hostOps3_writes (by decide)
    _ = W8 m c (Proc.devRef .tc main_arg7) := W9_of_ne m c main_arg7 (by decide)
    _ = W7 m c (Proc.devRef .tc main_arg7) := StableHlo.after_of_writes_sub hostOps2_2 _ hostOps2_2_writes (by decide)
    _ = W6 m c (Proc.devRef .tc main_arg7) := StableHlo.after_of_writes_sub hostOps2_1 _ hostOps2_1_writes (by decide)
    _ = W5 m c (Proc.devRef .tc main_arg7) := StableHlo.after_of_writes_sub hostOps2 _ hostOps2_writes (by decide)
    _ = W4 m c (Proc.devRef .tc main_arg7) := W5_of_ne m c main_arg7 (by decide)
    _ = W3 m c (Proc.devRef .tc main_arg7) := StableHlo.after_of_writes_sub hostOps1 _ hostOps1_writes (by decide)
    _ = W2 m c (Proc.devRef .tc main_arg7) := W3_of_ne m c main_arg7 (by decide)
    _ = W1 m c (Proc.devRef .tc main_arg7) := StableHlo.after_of_writes_sub hostOps0_1 _ hostOps0_1_writes (by decide)
    _ = W0 m c (Proc.devRef .tc main_arg7) := StableHlo.after_of_writes_sub hostOps0 _ hostOps0_writes (by decide)
    _ = m ((c : Thread nD τ).loc main_arg7) := rfl

theorem W13_main_arg8 (c : Dev nD) : W13 m c (Proc.devRef .tc main_arg8) = m ((c : Thread nD τ).loc main_arg8) :=
  calc W13 m c (Proc.devRef .tc main_arg8)
    _ = W12 m c (Proc.devRef .tc main_arg8) := W13_of_ne m c main_arg8 (by decide)
    _ = W11 m c (Proc.devRef .tc main_arg8) := StableHlo.after_of_writes_sub hostOps3_2 _ hostOps3_2_writes (by decide)
    _ = W10 m c (Proc.devRef .tc main_arg8) := StableHlo.after_of_writes_sub hostOps3_1 _ hostOps3_1_writes (by decide)
    _ = W9 m c (Proc.devRef .tc main_arg8) := StableHlo.after_of_writes_sub hostOps3 _ hostOps3_writes (by decide)
    _ = W8 m c (Proc.devRef .tc main_arg8) := W9_of_ne m c main_arg8 (by decide)
    _ = W7 m c (Proc.devRef .tc main_arg8) := StableHlo.after_of_writes_sub hostOps2_2 _ hostOps2_2_writes (by decide)
    _ = W6 m c (Proc.devRef .tc main_arg8) := StableHlo.after_of_writes_sub hostOps2_1 _ hostOps2_1_writes (by decide)
    _ = W5 m c (Proc.devRef .tc main_arg8) := StableHlo.after_of_writes_sub hostOps2 _ hostOps2_writes (by decide)
    _ = W4 m c (Proc.devRef .tc main_arg8) := W5_of_ne m c main_arg8 (by decide)
    _ = W3 m c (Proc.devRef .tc main_arg8) := StableHlo.after_of_writes_sub hostOps1 _ hostOps1_writes (by decide)
    _ = W2 m c (Proc.devRef .tc main_arg8) := W3_of_ne m c main_arg8 (by decide)
    _ = W1 m c (Proc.devRef .tc main_arg8) := StableHlo.after_of_writes_sub hostOps0_1 _ hostOps0_1_writes (by decide)
    _ = W0 m c (Proc.devRef .tc main_arg8) := StableHlo.after_of_writes_sub hostOps0 _ hostOps0_writes (by decide)
    _ = m ((c : Thread nD τ).loc main_arg8) := rfl

/-! ## The thread state -/

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, none. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W13 m c) ∗ ∃ r, prngReg c r)

/-! ## The regions as segments -/

set_option backward.isDefEq.respectTransparency.types false in
/-- Region 0 over the thread state: entered from every unscoped buffer at the entry contents, left at the exit
    contents; its arrays split out of the unscoped buffers and put back; the generator register into the invariant and
    out; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E2 m) c).loose
  hwaits := Pipeline.hwaits_of_owed_zero _ _ _ _ L lv 0 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec0 c (E2 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E2 m c) (E3 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the entry contents, left at the exit
    contents; its arrays split out of the unscoped buffers and put back; the generator register into the invariant and
    out; nothing owed; no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E4 m) c).loose
  hwaits := Pipeline.hwaits_of_owed_zero _ _ _ _ L lv 1 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec1 c (E4 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E4 m c) (E5 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at the entry contents, left at the exit
    contents; its arrays split out of the unscoped buffers and put back; the generator register into the invariant and
    out; nothing owed; no semaphore of the kernel's own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E8 m) c).loose
  hwaits := Pipeline.hwaits_of_owed_zero _ _ _ _ L lv 2 fun _ _ => rfl
  pre c := iprop(StableHlo.held (c : Thread nD τ) (Pipeline.ucRefs τ sig) (W8 m c) ∗ R c)
  post c := iprop(StableHlo.held (c : Thread nD τ) (Pipeline.ucRefs τ sig) (W9 m c) ∗ R c)
  X c := iprop(∃ r, prngReg c r)
  Y c := iprop(∃ r, prngReg c r)
  Z c := Pipeline.unscopedRest (Ix := Unit) (Name := ℕ) (U := UR sig nD τ) (Lvl := ℕ) spec2 c (E8 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E8 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (E8 m) c)
    unfold Pipeline.ΦA
    iintro ⟨Hp, -, Hr⟩
    isplitl [Hr]; · iexact Hr
    iexact Hp
  hout c := by
    rw [Pipeline.ownSems0_none]
    refine BIBase.Entails.trans (hout2 (E8 m) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E8 m c) (E9 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at the entry contents, left at the exit
    contents; its arrays split out of the unscoped buffers and put back; the generator register into the invariant and
    out; nothing owed; no semaphore of the kernel's own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (E12 m) c).loose
  hwaits := Pipeline.hwaits_of_owed_zero _ _ _ _ L lv 3 fun _ _ => rfl
  pre c := iprop(StableHlo.held (c : Thread nD τ) (Pipeline.ucRefs τ sig) (W12 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (E12 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (E12 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (E12 m c) (E13 m c) ((pdats m 3 c).arrAt · cfg3.N) (hF3 m c) (hrest3 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's thirteen segments in order. -/
abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .region (reg0 m),
    .host (hseg hostOps1 hostOps1_sub hostOps1_fresh (W3 m)),
    .region (reg1 m),
    .host (hseg hostOps2 hostOps2_sub hostOps2_fresh (W5 m)),
    .host (hseg hostOps2_1 hostOps2_1_sub hostOps2_1_fresh (W6 m)),
    .host (hseg hostOps2_2 hostOps2_2_sub hostOps2_2_fresh (W7 m)),
    .region (reg2 m),
    .host (hseg hostOps3 hostOps3_sub hostOps3_fresh (W9 m)),
    .host (hseg hostOps3_1 hostOps3_1_sub hostOps3_1_fresh (W10 m)),
    .host (hseg hostOps3_2 hostOps3_2_sub hostOps3_2_fresh (W11 m)),
    .region (reg3 m) ]

/-- @main is the run of the segments. -/
theorem main_run (c : Dev nD) : main (F := F) c = Pipeline.Seg.run (segs m) := (main_chain c).trans (by chain_rfl)

set_option backward.isDefEq.respectTransparency.types false in
/-- THE RUN: from any memory with zero counters every weakly fair execution of @main on the TensorCores terminates,
    nothing faulting, and every final state has the result buffer at the last boundary's contents and the argument
    arrays as launched. -/
theorem run_named : θ_run defs (onTc (τ := τ) (main (F := F))) ⟨m, fun _ => 0, ρ⟩ (fun r => ∀ c : Dev nD,
      r.2.mem ((c.tc : Thread nD τ).loc main_v97) = W13 m c (Proc.devRef .tc main_v97)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m c b)
    (hfin := fun c s' => by
      iintro ⟨⟨Hh, -⟩, HSI⟩
      unfold StableHlo.held
      imodintro
      iapply (pointsTo_read_all (Pipeline.ucRefs τ sig) (fun b => (((c : Thread nD τ)).1, b)) (W13 m c) s')
      isplitl [Hh] <;> iassumption)
    (hQ := fun s h c =>
      ⟨h c _ (mem_uc main_v97 (by decide)),
       (h c _ (mem_uc main_arg0 (by decide))).trans (W13_main_arg0 m c),
       (h c _ (mem_uc main_arg1 (by decide))).trans (W13_main_arg1 m c),
       (h c _ (mem_uc main_arg2 (by decide))).trans (W13_main_arg2 m c),
       (h c _ (mem_uc main_arg3 (by decide))).trans (W13_main_arg3 m c),
       (h c _ (mem_uc main_arg4 (by decide))).trans (W13_main_arg4 m c),
       (h c _ (mem_uc main_arg5 (by decide))).trans (W13_main_arg5 m c),
       (h c _ (mem_uc main_arg6 (by decide))).trans (W13_main_arg6 m c),
       (h c _ (mem_uc main_arg7 (by decide))).trans (W13_main_arg7 m c),
       (h c _ (mem_uc main_arg8 (by decide))).trans (W13_main_arg8 m c)⟩)

/-- THE FRAME at any float instance: the run, its result forgotten. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => (h c).2) (run_named m ρ)

end Cert.Kernel.Hand

end
-- ==== Proof.KI.Data.lean ====
/-
  The proof data of the four kernel regions and the buffer contents at every boundary of the program, with no proofs:
  what each window's block is at a grid point, what each body leaves in its staging buffers, the running sum the pooling
  body carries in its scratch between grid points, and the fold of buffer contents from the launch memory through the
  host stretches and the regions.
-/
import proofs.«411454_j24300924961028_1_alg».proof.Proof.Gen.KernelIdeal.Launch
import proofs.«411454_j24300924961028_1_alg».proof.Proof.Gen.KernelIdeal.Skeleton
import proofs.«411454_j24300924961028_1_alg».proof.Proof.Gen.KernelIdeal.Points
import proofs.«411454_j24300924961028_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Regions
-- the TensorCore's buffer contents when a region is entered
variable (V : (c : Dev nD) → (b : Ref sig .tc) → Buf (Elt F) ((c : Thread nD τ).loc b))

/-! ## Region 0: a row block of the padded features times the first weight matrix -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- After the body at point `t`: the two inputs' buffers as fetched, the output's at the product of the row block
    with the weights. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay1 (iblk0 V c 0 t) (iblk0 V c 1 t)
  Φ _ := Pipeline.ΦA spec0 c
  q _ := fullShare
  owed _ := 0

/-! ## Region 1: the positive part of a row block times the second weight matrix -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay1 (iblk1 V c 0 t) (iblk1 V c 1 t)
  Φ _ := Pipeline.ΦA spec1 c
  q _ := fullShare
  owed _ := 0

/-! ## Region 2: the per-graph sums, accumulated over sixteen row blocks in a scratch buffer -/

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The scratch buffer after the body at position `n`: the first point clears it and adds its block's per-graph sums,
    every later point adds its block's to what the point before left. -/
def acc2 (c : Dev nD) : (n : ℕ) → n < cfg2.N → Vec F S512x128 .f32
  | 0, hn => k2_pay2 (iblk2 V c 1 ⟨0, hn⟩) (iblk2 V c 0 ⟨0, hn⟩) (k2_pay1 (F := F))
  | n + 1, hn => k2_pay2 (iblk2 V c 1 ⟨n + 1, hn⟩) (iblk2 V c 0 ⟨n + 1, hn⟩) (acc2 c n (Nat.lt_of_succ_lt hn))

/-- The region's invariant before position `n`: before the first point every scoped buffer that is no staging buffer of
    this region at anything; afterwards the scratch at what the point before left, the other such buffers still at
    anything, and the generator register at some state. -/
def PhiS2 (c : Dev nD) : (n : ℕ) → n ≤ cfg2.N → sProp 𝕄
  | 0, _ => Pipeline.ΦA spec2 c
  | n + 1, hn => iprop(owns (c : Thread nD τ) (Memref.whole cc2_scratch0) fullShare (acc2 V c n hn)
      ∗ Pipeline.scopedRestBut (Ix := Unit) (Name := ℕ) (U := UR sig nD τ) (Lvl := ℕ) (Val := Elt F) spec2 c [cc2_scratch0]
      ∗ (∃ r, prngReg c r))

/-- After the body at point `t`: the inputs' buffers as fetched; the output's buffer, consulted only at the last point
    (elsewhere the window is idle), at the scratch's contents. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => acc2 V c t.val t.isLt
  Φ t := PhiS2 V c t.val (Nat.le_of_lt_succ t.isLt)
  q _ := fullShare
  owed _ := 0

/-! ## Region 3: the pooled rows times the last weight matrix, plus the bias row -/

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => k3_pay1 (iblk3 V c 0 t) (iblk3 V c 1 t) (iblk3 V c 2 t)
  Φ _ := Pipeline.ΦA spec3 c
  q _ := fullShare
  owed _ := 0

end Regions

/-! ## The buffer contents at each boundary: a fold from the launch memory -/

variable (m : (ℓ : Loc nD τ sig) → Buf (Elt F) ℓ)

/-- Core `c`'s buffers at launch. -/
abbrev W0 : Dev nD → Valuation τ sig (Elt F) := fun c b => m ((c : Dev nD), b)
abbrev W1 : Dev nD → Valuation τ sig (Elt F) := fun c => StableHlo.after hostOps0 (W0 m c)
/-- At region 0's entry. -/
abbrev W2 : Dev nD → Valuation τ sig (Elt F) := fun c => StableHlo.after hostOps0_1 (W1 m c)
abbrev E2 : (c : Dev nD) → (b : Ref sig .tc) → Buf (Elt F) ((c : Thread nD τ).loc b) := fun c b => W2 m c b
/-- At region 0's exit: its arrays at what the pipeline leaves, every other buffer as entered. -/
def W3 (c : Dev nD) : Valuation τ sig (Elt F) :=
  Pipeline.withArrays spec0 c (W2 m c) fun w => (dat0 (E2 m) c).arrAt w cfg0.N
/-- At region 1's entry. -/
abbrev W4 : Dev nD → Valuation τ sig (Elt F) := fun c => StableHlo.after hostOps1 (W3 m c)
abbrev E4 : (c : Dev nD) → (b : Ref sig .tc) → Buf (Elt F) ((c : Thread nD τ).loc b) := fun c b => W4 m c b
def W5 (c : Dev nD) : Valuation τ sig (Elt F) :=
  Pipeline.withArrays spec1 c (W4 m c) fun w => (dat1 (E4 m) c).arrAt w cfg1.N
abbrev W6 : Dev nD → Valuation τ sig (Elt F) := fun c => StableHlo.after hostOps2 (W5 m c)
abbrev W7 : Dev nD → Valuation τ sig (Elt F) := fun c => StableHlo.after hostOps2_1 (W6 m c)
/-- At region 2's entry. -/
abbrev W8 : Dev nD → Valuation τ sig (Elt F) := fun c => StableHlo.after hostOps2_2 (W7 m c)
abbrev E8 : (c : Dev nD) → (b : Ref sig .tc) → Buf (Elt F) ((c : Thread nD τ).loc b) := fun c b => W8 m c b
def W9 (c : Dev nD) : Valuation τ sig (Elt F) :=
  Pipeline.withArrays spec2 c (W8 m c) fun w => (dat2 (E8 m) c).arrAt w cfg2.N
abbrev W10 : Dev nD → Valuation τ sig (Elt F) := fun c => StableHlo.after hostOps3 (W9 m c)
abbrev W11 : Dev nD → Valuation τ sig (Elt F) := fun c => StableHlo.after hostOps3_1 (W10 m c)
/-- At region 3's entry. -/
abbrev W12 : Dev nD → Valuation τ sig (Elt F) := fun c => StableHlo.after hostOps3_2 (W11 m c)
abbrev E12 : (c : Dev nD) → (b : Ref sig .tc) → Buf (Elt F) ((c : Thread nD τ).loc b) := fun c b => W12 m c b
/-- At the return. -/
def W13 (c : Dev nD) : Valuation τ sig (Elt F) :=
  Pipeline.withArrays spec3 c (W12 m c) fun w => (dat3 (E12 m) c).arrAt w cfg3.N

/-- The prefetched tables' admissible contents: no pipeline has a table. -/
abbrev adm : (p : Fin 4) → (pcfgs (F := F) p).Adm := fun p => (cfgs p).toPCfg_adm

/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (E2 m) c
  | ⟨1, _⟩ => fun c => dat1 (E4 m) c
  | ⟨2, _⟩ => fun c => dat2 (E8 m) c
  | ⟨3, _⟩ => fun c => dat3 (E12 m) c

end Cert.KernelIdeal.Hand

end
-- ==== Proof.KI.Reg0.lean ====
/-
  Region 0: the body obligation of its pipeline, at any contents the region is entered with.
-/
import proofs.«411454_j24300924961028_1_alg».proof.Proof.KI.Data
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The proof data, projected -/

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by
  dsimp only [dat0]
theorem after0_1 (c : Dev nD) (t : Fin cfg0.N) : (dat0 V c).after 1 t = iblk0 V c 1 t := by
  dsimp only [dat0]
theorem after0_2 (c : Dev nD) (t : Fin cfg0.N) : (dat0 V c).after 2 t = k0_pay1 (iblk0 V c 0 t) (iblk0 V c 1 t) := by
  dsimp only [dat0]

/-! ## What the body finds in the input windows' buffers -/

/-- The row block's buffer holds the row block at every point: the body leaves it in place, and a point that does not
    fetch it has the block index of the point before. -/
private theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-- The weights' buffer holds the weight block at every point, although only the first point fetches it: its block
    index never moves. -/
private theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

/-! ## The body's triple -/

/-- The offsets of every access of the body are zero. -/
private theorem zeros2 : (![0, 0] : Fin 2 → Nat) = fun _ => 0 := funext fun a => by fin_cases a <;> rfl

set_option maxHeartbeats 1000000 in
/-- The body on whole staging memrefs, the row block's at read contents `x0`, the weights' at `x1` and the output's at
    anything, runs to the continuation holding the two inputs' as they were and the output's at the product
    `k0_pay1 x0 x1`: its one store covers the whole output block. -/
private theorem sound_kernel0 (c : Dev nD) (E : Set ℕ) (i : grid0.Coords)
    (arg1 : Memref sig .tc .vmem S6256x64 .f32) (harg1 : arg1.IsWhole)
    (arg2 : Memref sig .tc .vmem S64x64 .f32) (harg2 : arg2.IsWhole)
    (arg3 : Memref sig .tc .vmem S6256x64 .f32) (harg3 : arg3.IsWhole)
    (x0 : Vec F S6256x64 .f32) (x1 : Vec F S64x64 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (k0_pay1 x0 x1)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (fun y => ⟨_, List.mem_singleton_self _,
      View.mem_set_unit_zero zeros2 inb_S6256x64_S6256x64_0_0 y⟩),
    View.canon_unit_zero (S := S6256x64) zeros2]
  exact congrArg₂ k0_pay1
    (View.ld_unit_zero (S := S6256x64) zeros2 inb_S6256x64_S6256x64_0_0 (View.read (Elt F) arg1.view f0))
    (View.ld_unit_zero (S := S64x64) zeros2 inb_S64x64_S64x64_0_0 (View.read (Elt F) arg2.view f1))

/-! ## The body obligation, at a generic point -/

/-- What the body is called with at point `t`, the windows one by one, -/
private def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
private def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant and the
    core's debts pass through unread. -/
private theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg1.lean ====
/-
  Region 1: the body obligation of its pipeline, at any contents the region is entered with.
-/
import proofs.«411454_j24300924961028_1_alg».proof.Proof.KI.Data
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The proof data, projected -/

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by
  dsimp only [dat1]
theorem after1_1 (c : Dev nD) (t : Fin cfg1.N) : (dat1 V c).after 1 t = iblk1 V c 1 t := by
  dsimp only [dat1]
theorem after1_2 (c : Dev nD) (t : Fin cfg1.N) : (dat1 V c).after 2 t = k1_pay1 (iblk1 V c 0 t) (iblk1 V c 1 t) := by
  dsimp only [dat1]

/-! ## What the body finds in the input windows' buffers -/

/-- The row block's buffer holds the row block at every point: the body leaves it in place, and a point that does not
    fetch it has the block index of the point before. -/
private theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)

/-- The weights' buffer holds the weight block at every point, although only the first point fetches it: its block
    index never moves. -/
private theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

/-! ## The body's triple -/

/-- The offsets of every access of the body are zero. -/
private theorem zeros2 : (![0, 0] : Fin 2 → Nat) = fun _ => 0 := funext fun a => by fin_cases a <;> rfl

set_option maxHeartbeats 1000000 in
/-- The body on whole staging memrefs, the row block's at read contents `x0`, the weights' at `x1` and the output's at
    anything, runs to the continuation holding the two inputs' as they were and the output's at the product of the positive
    part of the rows with the weights, `k1_pay1 x0 x1`: its one store covers the whole output block. -/
private theorem sound_kernel1 (c : Dev nD) (E : Set ℕ) (i : grid1.Coords)
    (arg1 : Memref sig .tc .vmem S6256x64 .f32) (harg1 : arg1.IsWhole)
    (arg2 : Memref sig .tc .vmem S64x128 .f32) (harg2 : arg2.IsWhole)
    (arg3 : Memref sig .tc .vmem S6256x128 .f32) (harg3 : arg3.IsWhole)
    (x0 : Vec F S6256x64 .f32) (x1 : Vec F S64x128 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (k1_pay1 x0 x1)) -∗ K ⟨⟩))
      ⊢ wp frame (wpE (defs₀ (F := F)) Variants.none c none) E (cc1__relu_linear_kernel i arg1 harg1 arg2 harg2 arg3 harg3) K := by
  simp only [cc1__relu_linear_kernel_eq_skeleton]; unfold cc1__relu_linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (fun y => ⟨_, List.mem_singleton_self _,
      View.mem_set_unit_zero zeros2 inb_S6256x128_S6256x128_0_0 y⟩),
    View.canon_unit_zero (S := S6256x128) zeros2]
  exact congrArg₂ k1_pay1
    (View.ld_unit_zero (S := S6256x64) zeros2 inb_S6256x64_S6256x64_0_0 (View.read (Elt F) arg1.view f0))
    (View.ld_unit_zero (S := S64x128) zeros2 inb_S64x128_S64x128_0_0 (View.read (Elt F) arg2.view f1))

/-! ## The body obligation, at a generic point -/

/-- What the body is called with at point `t`, the windows one by one, -/
private def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
private def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so the body's triple applies; the invariant and the
    core's debts pass through unread. -/
private theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Reg2.lean ====
/-
  Region 2: the body obligation of the pooling pipeline, whose body carries a running sum in a scratch buffer between
  grid points, at any contents the region is entered with; and the invariant's two ends.

  The grid has sixteen points and the body three control cases. At the first point it clears the scratch and adds the
  block's per-graph sums to the cleared block; at every later point it adds the block's sums to what the point before
  left; at the last point it also stores the scratch's new contents over the whole output block, which at every other
  point is idle and handed back untouched. The invariant carries the scratch at the running sum so far, the core's other
  scoped buffers unopened, and the generator register at some state.
-/
import proofs.«411454_j24300924961028_1_alg».proof.Proof.KI.Data
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by
  dsimp only [dat2]
theorem after2_1 (c : Dev nD) (t : Fin cfg2.N) : (dat2 V c).after 1 t = iblk2 V c 1 t := by
  dsimp only [dat2]
theorem after2_2 (c : Dev nD) (t : Fin cfg2.N) : (dat2 V c).after 2 t = acc2 V c t.val t.isLt := by
  dsimp only [dat2]

/-! ## The invariant, opened -/

/-- The scratch buffer as the body is handed it. -/
private abbrev scM2 : Memref sig .tc .vmem S512x128 .f32 := Memref.whole cc2_scratch0

/-- The class invariant with the scratch split off the other scoped buffers: the scratch at anything, the other
    scoped buffers unopened, the generator register at some state. -/
private theorem PhiA2_eq (c : Dev nD) :
    (Pipeline.ΦA spec2 c : sProp 𝕄)
      = iprop(((∃ d, owns (c : Thread nD τ) scM2 fullShare d)
          ∗ Pipeline.scopedRestBut (Ix := Unit) (Name := ℕ) (U := UR sig nD τ) (Lvl := ℕ) (Val := Elt F) spec2 c [cc2_scratch0])
          ∗ (∃ r, prngReg c r)) := by
  unfold Pipeline.ΦA
  rw [Pipeline.scopedRest_split_of_list spec2 c [cc2_scratch0] (by decide) (by decide)]
  simp only [bigSepL_singleton, scM2, owns_whole]
  try rfl

private theorem PhiS2_zero (c : Dev nD) (n : ℕ) (h : n ≤ cfg2.N) (hz : n = 0) : PhiS2 V c n h = Pipeline.ΦA spec2 c := by
  subst hz; rfl

private theorem PhiS2_succ (c : Dev nD) (n : ℕ) (hn : n < cfg2.N) :
    PhiS2 V c (n + 1) hn = iprop(owns (c : Thread nD τ) scM2 fullShare (acc2 V c n hn)
      ∗ Pipeline.scopedRestBut (Ix := Unit) (Name := ℕ) (U := UR sig nD τ) (Lvl := ℕ) (Val := Elt F) spec2 c [cc2_scratch0]
      ∗ (∃ r, prngReg c r)) := rfl

private theorem PhiS2_pos (c : Dev nD) (n : ℕ) (h : n ≤ cfg2.N) (hz : n ≠ 0) :
    PhiS2 V c n h = iprop(owns (c : Thread nD τ) scM2 fullShare (acc2 V c (n - 1) (by omega))
      ∗ Pipeline.scopedRestBut (Ix := Unit) (Name := ℕ) (U := UR sig nD τ) (Lvl := ℕ) (Val := Elt F) spec2 c [cc2_scratch0]
      ∗ (∃ r, prngReg c r)) := by
  cases n with
  | zero => exact absurd rfl hz
  | succ n => rfl

private theorem PhiS2_castSucc (c : Dev nD) (t : Fin cfg2.N) :
    (dat2 V c).Φ t.castSucc = PhiS2 V c t.val (Nat.le_of_lt t.isLt) := by
  dsimp only [dat2]; simp only [Fin.coe_castSucc]

/-- The running sum at the first point: the cleared block plus this block's sums. -/
private theorem acc2_zero (c : Dev nD) (t : Fin cfg2.N) (hz : t.val = 0) :
    acc2 V c t.val t.isLt = k2_pay2 (iblk2 V c 1 t) (iblk2 V c 0 t) (k2_pay1 (F := F)) := by
  obtain ⟨n, hn⟩ := t
  cases n with
  | zero => rfl
  | succ n => exact absurd hz (Nat.succ_ne_zero n)

/-- At a later point: what the point before left plus this block's sums. -/
private theorem acc2_pos (c : Dev nD) (t : Fin cfg2.N) (hz : t.val ≠ 0) :
    acc2 V c t.val t.isLt = k2_pay2 (iblk2 V c 1 t) (iblk2 V c 0 t)
      (acc2 V c (t.val - 1) (Nat.lt_of_le_of_lt (Nat.sub_le _ _) t.isLt)) := by
  obtain ⟨n, hn⟩ := t
  cases n with
  | zero => exact absurd rfl hz
  | succ n => rfl

/-! ## The body's branch conditions, in closed form -/

/-- The condition of the body's first conditional: the grid coordinate is zero. -/
private abbrev cond2_0 (i : grid2.Coords) : Prop :=
  (Scalar.cmpi .ne (Scalar.extui (Scalar.cmpi .eq (BitVec.ofNat 32 (i 0).val) 0#32)) 0#32) = 1#1
/-- The condition of its second: the grid coordinate is the last. -/
private abbrev cond2_1 (i : grid2.Coords) : Prop := k2_cond2 i = 1#1

private theorem hcond2_0 : ∀ t : Fin cfg2.N, cond2_0 (grid2.coords t) ↔ t.val = 0 :=
  (by decide +kernel : ∀ t : Fin grid2.N, cond2_0 (grid2.coords t) ↔ t.val = 0)
private theorem hcond2_1 : ∀ t : Fin cfg2.N, cond2_1 (grid2.coords t) ↔ t.val = 15 :=
  (by decide +kernel : ∀ t : Fin grid2.N, cond2_1 (grid2.coords t) ↔ t.val = 15)

/-! ## Where the windows are idle -/

private theorem liveAt2_0 : ∀ t : Fin cfg2.N, cfg2.idle 0 (grid2.coords t) = false := by decide +kernel
private theorem liveAt2_1 : ∀ t : Fin cfg2.N, cfg2.idle 1 (grid2.coords t) = false := by decide +kernel
/-- Away from the last point the output window is idle, -/
private theorem idleAt2_2 : ∀ t : Fin cfg2.N, ¬cond2_1 (grid2.coords t) → cfg2.idle 2 (grid2.coords t) = true := by decide +kernel
/-- and not written back; -/
private theorem noFlush2_2 : ∀ t : Fin cfg2.N, ¬cond2_1 (grid2.coords t) → (cfg2.win 2).flush t = false := by decide +kernel
/-- at the last point it is live. -/
private theorem liveAt2_2 : ∀ t : Fin cfg2.N, cond2_1 (grid2.coords t) → cfg2.idle 2 (grid2.coords t) = false := by decide +kernel

/-! ## The inputs' staging buffers hold their blocks -/

private theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)
private theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)

/-! ## The body's triple, one per control case -/

private theorem hz2 : (![0, 0] : Fin 2 → Nat) = fun _ => 0 := funext fun a => by fin_cases a <;> rfl

/-- A store over the whole scratch-shaped buffer, last, covers it whatever was stored before. -/
private theorem cover_whole (p : Vec F S512x128 .f32) (L : List (View.Piece (Elt F) S512x128 .f32)) (y : S512x128.Idx) :
    ∃ pc ∈ ((⟨Rect.unit (s := S512x128) ![0, 0] S512x128.size inb_S512x128_S512x128_0_0, p⟩ : View.Piece (Elt F) S512x128 .f32) :: L),
      y ∈ pc.1.set :=
  ⟨_, List.mem_cons_self, View.mem_set_unit_zero hz2 inb_S512x128_S512x128_0_0 y⟩

set_option maxHeartbeats 1000000 in
/-- At the first point: the scratch, at anything, is cleared, and this block's per-graph sums are added to the
    cleared block; the inputs' buffers are left as they were, the output's buffer is not touched. -/
private theorem run2_A (c : Dev nD) (E : Set ℕ) (i : grid2.Coords)
    (arg1 : Memref sig .tc .vmem S3128x128 .f32) (harg1 : arg1.IsWhole)
    (arg2 : Memref sig .tc .vmem S3128x1 .i32) (harg2 : arg2.IsWhole)
    (arg3 : Memref sig .tc .vmem S512x128 .f32) (harg3 : arg3.IsWhole)
    (arg4 : Memref sig .tc .vmem S512x128 .f32) (harg4 : arg4.IsWhole)
    (hc0 : cond2_0 i) (hc1 : ¬cond2_1 i)
    (x0 : Vec F S3128x128 .f32) (x1 : Vec F S3128x1 .i32) (K : PUnit → sProp 𝕄) :
    iprop(owns (c : Thread nD τ) arg1 fullShare x0 ∗ owns (c : Thread nD τ) arg2 fullShare x1
        ∗ (∃ d, owns (c : Thread nD τ) arg4 fullShare d)
        ∗ (iprop(owns (c : Thread nD τ) arg1 fullShare x0 ∗ owns (c : Thread nD τ) arg2 fullShare x1
            ∗ owns (c : Thread nD τ) arg4 fullShare (k2_pay2 x1 x0 (k2_pay1 (F := F)))) -∗ K ⟨⟩))
      ⊢ wp frame (wpE (defs₀ (F := F)) Variants.none c none) E (cc2__pool_kernel i arg1 harg1 arg2 harg2 arg3 harg3 arg4 harg4) K := by
  simp only [cc2__pool_kernel_eq_skeleton]; unfold cc2__pool_kernel_skel
  unfold owns
  iintro ⟨⟨%f0, %hf0, H0⟩, ⟨%f1, %hf1, H1⟩, ⟨%ds, %fs, -, HS⟩, Hk⟩
  obtain rfl := harg1.eq_unread hf0; obtain rfl := harg2.eq_unread hf1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  iexists _; isplitr
  swap; · iexact HS
  ipureintro
  sl_unfold_words
  rw [View.read_writes_eq_canon _ _ _ (cover_whole _ _),
    View.canon_cons_unit_zero (S := S512x128) hz2]
  simp only [View.readAt_eq_ld, harg1.read_unread, harg2.read_unread, View.readCov_unit_zero (S := S512x128) _ hz2,
    View.ld_unit_zero (S := S3128x128) hz2, View.ld_unit_zero (S := S3128x1) hz2]

set_option maxHeartbeats 1000000 in
/-- At a middle point: this block's per-graph sums are added to what the scratch held. -/
private theorem run2_B (c : Dev nD) (E : Set ℕ) (i : grid2.Coords)
    (arg1 : Memref sig .tc .vmem S3128x128 .f32) (harg1 : arg1.IsWhole)
    (arg2 : Memref sig .tc .vmem S3128x1 .i32) (harg2 : arg2.IsWhole)
    (arg3 : Memref sig .tc .vmem S512x128 .f32) (harg3 : arg3.IsWhole)
    (arg4 : Memref sig .tc .vmem S512x128 .f32) (harg4 : arg4.IsWhole)
    (hc0 : ¬cond2_0 i) (hc1 : ¬cond2_1 i)
    (x0 : Vec F S3128x128 .f32) (x1 : Vec F S3128x1 .i32) (s : Vec F S512x128 .f32) (K : PUnit → sProp 𝕄) :
    iprop(owns (c : Thread nD τ) arg1 fullShare x0 ∗ owns (c : Thread nD τ) arg2 fullShare x1
        ∗ owns (c : Thread nD τ) arg4 fullShare s
        ∗ (iprop(owns (c : Thread nD τ) arg1 fullShare x0 ∗ owns (c : Thread nD τ) arg2 fullShare x1
            ∗ owns (c : Thread nD τ) arg4 fullShare (k2_pay2 x1 x0 s)) -∗ K ⟨⟩))
      ⊢ wp frame (wpE (defs₀ (F := F)) Variants.none c none) E (cc2__pool_kernel i arg1 harg1 arg2 harg2 arg3 harg3 arg4 harg4) K := by
  simp only [cc2__pool_kernel_eq_skeleton]; unfold cc2__pool_kernel_skel
  unfold owns
  iintro ⟨⟨%f0, %hf0, H0⟩, ⟨%f1, %hf1, H1⟩, ⟨%fs, %hfs, HS⟩, Hk⟩
  obtain rfl := harg1.eq_unread hf0; obtain rfl := harg2.eq_unread hf1; obtain rfl := harg4.eq_unread hfs
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  iexists _; isplitr
  swap; · iexact HS
  ipureintro
  sl_unfold_words
  rw [View.read_writes_eq_canon _ _ _ (cover_whole _ _),
    View.canon_unit_zero (S := S512x128) hz2]
  simp only [View.readAt_eq_ld, harg1.read_unread, harg2.read_unread, harg4.read_unread,
    View.ld_unit_zero (S := S3128x128) hz2, View.ld_unit_zero (S := S3128x1) hz2, View.ld_unit_zero (S := S512x128) hz2]

set_option maxHeartbeats 1000000 in
/-- At the last point: the same update of the scratch, whose new contents are then stored over the whole output
    buffer, whatever it held. -/
private theorem run2_C (c : Dev nD) (E : Set ℕ) (i : grid2.Coords)
    (arg1 : Memref sig .tc .vmem S3128x128 .f32) (harg1 : arg1.IsWhole)
    (arg2 : Memref sig .tc .vmem S3128x1 .i32) (harg2 : arg2.IsWhole)
    (arg3 : Memref sig .tc .vmem S512x128 .f32) (harg3 : arg3.IsWhole)
    (arg4 : Memref sig .tc .vmem S512x128 .f32) (harg4 : arg4.IsWhole)
    (hc0 : ¬cond2_0 i) (hc1 : cond2_1 i)
    (x0 : Vec F S3128x128 .f32) (x1 : Vec F S3128x1 .i32) (s : Vec F S512x128 .f32) (K : PUnit → sProp 𝕄) :
    iprop(owns (c : Thread nD τ) arg1 fullShare x0 ∗ owns (c : Thread nD τ) arg2 fullShare x1
        ∗ (∃ d, owns (c : Thread nD τ) arg3 fullShare d)
        ∗ owns (c : Thread nD τ) arg4 fullShare s
        ∗ (iprop(owns (c : Thread nD τ) arg1 fullShare x0 ∗ owns (c : Thread nD τ) arg2 fullShare x1
            ∗ owns (c : Thread nD τ) arg3 fullShare (k2_pay2 x1 x0 s)
            ∗ owns (c : Thread nD τ) arg4 fullShare (k2_pay2 x1 x0 s)) -∗ K ⟨⟩))
      ⊢ wp frame (wpE (defs₀ (F := F)) Variants.none c none) E (cc2__pool_kernel i arg1 harg1 arg2 harg2 arg3 harg3 arg4 harg4) K := by
  simp only [cc2__pool_kernel_eq_skeleton]; unfold cc2__pool_kernel_skel
  unfold owns
  iintro ⟨⟨%f0, %hf0, H0⟩, ⟨%f1, %hf1, H1⟩, ⟨%d3, %f3, -, H3⟩, ⟨%fs, %hfs, HS⟩, Hk⟩
  obtain rfl := harg1.eq_unread hf0; obtain rfl := harg2.eq_unread hf1; obtain rfl := harg4.eq_unread hfs
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H3]
  · iexists _; isplitr
    swap; · iexact H3
    ipureintro
    sl_unfold_words
    rw [View.read_writes_eq_canon _ _ _ (cover_whole _ _),
      View.canon_unit_zero (S := S512x128) hz2]
    simp only [View.readAt_eq_ld, harg1.read_unread, harg2.read_unread, harg4.read_unread, View.readCov_unit_zero (S := S512x128) _ hz2,
      View.ld_unit_zero (S := S3128x128) hz2, View.ld_unit_zero (S := S3128x1) hz2, View.ld_unit_zero (S := S512x128) hz2]
  iexists _; isplitr
  swap; · iexact HS
  ipureintro
  sl_unfold_words
  rw [View.read_writes_eq_canon _ _ _ (cover_whole _ _),
    View.canon_unit_zero (S := S512x128) hz2]
  simp only [View.readAt_eq_ld, harg1.read_unread, harg2.read_unread, harg4.read_unread,
    View.ld_unit_zero (S := S3128x128) hz2, View.ld_unit_zero (S := S3128x1) hz2, View.ld_unit_zero (S := S512x128) hz2]

/-! ## The body obligation, at a generic point -/

/-- What the body is called with at point `t`, the windows one by one, -/
private def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
private def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
/-- The body at any point. The inputs' buffers hold their blocks. At the first point the invariant hands over the
    scratch at anything and takes it back at the cleared block plus this block's sums; at a later point it hands it
    over at what the point before left and takes it back with this block's sums added. Away from the last point the
    output's buffer, idle and not written back, is handed back untouched; at the last point it is stored whole with
    the scratch's new contents. The other scoped buffers, the generator register and what the core owes pass through. -/
private theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (st2_0 t) fullShare ((dat2 V c).after 0 t) from by
    unfold Dat.leavesExact; rw [liveAt2_0 t], after2_0]
  rw [show (dat2 V c).leavesExact 1 t = owns (c : Thread nD τ) (st2_1 t) fullShare ((dat2 V c).after 1 t) from by
    unfold Dat.leavesExact; rw [liveAt2_1 t], after2_1]
  have hN : t.val < 16 := lt_of_lt_of_eq t.isLt (show cfg2.N = 16 from N_2)
  by_cases h1 : t.val = 15
  · have h0 : ¬t.val = 0 := by omega
    rw [show (dat2 V c).leavesExact 2 t = owns (c : Thread nD τ) (st2_2 t) fullShare ((dat2 V c).after 2 t) from by
      unfold Dat.leavesExact; rw [liveAt2_2 t ((hcond2_1 t).mpr h1)], after2_2]
    rw [acc2_pos V c t h0]
    rw [PhiS2_castSucc V c t, PhiS2_pos V c _ _ h0]
    iintro ⟨⟨HS, HR, Hg⟩, Ho, ⟨%d0, H0⟩, ⟨%d1, H1⟩, ⟨%d2, H2⟩⟩
    iapply (run2_C c Set.univ (grid2.coords t) _ _ _ _ _ _ _ _ (fun h => h0 ((hcond2_0 t).mp h)) ((hcond2_1 t).mpr h1)
      (iblk2 V c 0 t) (iblk2 V c 1 t) (acc2 V c (t.val - 1) (Nat.lt_of_le_of_lt (Nat.sub_le _ _) t.isLt)) _)
    isplitl [H0]; · iexact H0
    isplitl [H1]; · iexact H1
    isplitl [H2]; · iexists _; iexact H2
    isplitl [HS]; · iexact HS
    iintro ⟨H0, H1, H2, HS⟩
    isplitl [HS HR Hg]
    · isplitl [HS]; · iexact HS
      isplitl [HR]; · iexact HR
      iexact Hg
    isplitl [Ho]; · iexact Ho
    isplitl [H0]; · iexact H0
    isplitl [H1]; · iexact H1
    iexact H2
  · rw [Dat.leavesExact_idle (dat2 V c) 2 t (idleAt2_2 t (fun h => h1 ((hcond2_1 t).mp h))) (noFlush2_2 t (fun h => h1 ((hcond2_1 t).mp h)))]
    by_cases h0 : t.val = 0
    · rw [acc2_zero V c t h0]
      rw [PhiS2_castSucc V c t, PhiS2_zero V c _ _ h0, PhiA2_eq]
      iintro ⟨⟨⟨HS, HR⟩, Hg⟩, Ho, ⟨%d0, H0⟩, ⟨%d1, H1⟩, ⟨%d2, H2⟩⟩
      iapply (run2_A c Set.univ (grid2.coords t) _ _ _ _ _ _ _ _ ((hcond2_0 t).mpr h0) (fun h => h1 ((hcond2_1 t).mp h))
        (iblk2 V c 0 t) (iblk2 V c 1 t) _)
      isplitl [H0]; · iexact H0
      isplitl [H1]; · iexact H1
      isplitl [HS]; · iexact HS
      iintro ⟨H0, H1, HS⟩
      isplitl [HS HR Hg]
      · isplitl [HS]; · iexact HS
        isplitl [HR]; · iexact HR
        iexact Hg
      isplitl [Ho]; · iexact Ho
      isplitl [H0]; · iexact H0
      isplitl [H1]; · iexact H1
      iexists _; iexact H2
    · rw [acc2_pos V c t h0]
      rw [PhiS2_castSucc V c t, PhiS2_pos V c _ _ h0]
      iintro ⟨⟨HS, HR, Hg⟩, Ho, ⟨%d0, H0⟩, ⟨%d1, H1⟩, ⟨%d2, H2⟩⟩
      iapply (run2_B c Set.univ (grid2.coords t) _ _ _ _ _ _ _ _ (fun h => h0 ((hcond2_0 t).mp h)) (fun h => h1 ((hcond2_1 t).mp h))
        (iblk2 V c 0 t) (iblk2 V c 1 t) (acc2 V c (t.val - 1) (Nat.lt_of_le_of_lt (Nat.sub_le _ _) t.isLt)) _)
      isplitl [H0]; · iexact H0
      isplitl [H1]; · iexact H1
      isplitl [HS]; · iexact HS
      iintro ⟨H0, H1, HS⟩
      isplitl [HS HR Hg]
      · isplitl [HS]; · iexact HS
        isplitl [HR]; · iexact HR
        iexact Hg
      isplitl [Ho]; · iexact Ho
      isplitl [H0]; · iexact H0
      isplitl [H1]; · iexact H1
      iexists _; iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]

/-- After any point but the first the invariant gives the class invariant back: the scratch's named contents are
    forgotten. -/
private theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨HS, HR, Hg⟩
  isplitl [HS HR]
  · isplitl [HS]
    · iexists _; iexact HS
    iexact HR
  iexact Hg

/-- After the last point the invariant gives the scoped buffers and the generator register back. -/
theorem hout2 (c : Dev nD) : (dat2 V c).Φ (Fin.last cfg2.N) ⊢ Pipeline.ΦA spec2 c :=
  Phi_out2 V c _ (by rw [Fin.val_last]; have : cfg2.N = 16 := N_2; omega)

end Cert.KernelIdeal.Hand

end
-- ==== Proof.KI.Reg3.lean ====
/-
  Region 3: the body obligation of its pipeline, at any contents the region is entered with.
-/
import proofs.«411454_j24300924961028_1_alg».proof.Proof.KI.Data
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The proof data, projected -/

/-- The arrays are the contents the region is entered with. -/
theorem A_eq3 (c : Dev nD) (w : Fin cfg3.W) : (dat3 V c).A w = V c (Pipeline.arrRef spec3 w) := by
  dsimp only [dat3]

/-- The three inputs' buffers are left at their blocks, -/
theorem after3_0 (c : Dev nD) (t : Fin cfg3.N) : (dat3 V c).after 0 t = iblk3 V c 0 t := by
  dsimp only [dat3]
theorem after3_1 (c : Dev nD) (t : Fin cfg3.N) : (dat3 V c).after 1 t = iblk3 V c 1 t := by
  dsimp only [dat3]
theorem after3_2 (c : Dev nD) (t : Fin cfg3.N) : (dat3 V c).after 2 t = iblk3 V c 2 t := by
  dsimp only [dat3]
/-- and the output's at the pooled block times the weights, plus the bias row. -/
theorem after3_3 (c : Dev nD) (t : Fin cfg3.N) : (dat3 V c).after 3 t = k3_pay1 (iblk3 V c 0 t) (iblk3 V c 1 t) (iblk3 V c 2 t) := by
  dsimp only [dat3]

/-! ## What the body finds in the inputs' buffers

Each input window is fetched at the grid's one point, and none is cut: when the body runs its buffer holds the whole
block of its array. -/

theorem before3_0 (c : Dev nD) (t : Fin cfg3.N) (d) : (dat3 V c).before 0 t d = iblk3 V c 0 t := by
  rw [(dat3 V c).before_fetched 0 t (fetch3_0 t) d]
  unfold Dat.fetched Dat.blockOf iblk3
  rw [A_eq3]; rfl
theorem before3_1 (c : Dev nD) (t : Fin cfg3.N) (d) : (dat3 V c).before 1 t d = iblk3 V c 1 t := by
  rw [(dat3 V c).before_fetched 1 t (fetch3_1 t) d]
  unfold Dat.fetched Dat.blockOf iblk3
  rw [A_eq3]; rfl
theorem before3_2 (c : Dev nD) (t : Fin cfg3.N) (d) : (dat3 V c).before 2 t d = iblk3 V c 2 t := by
  rw [(dat3 V c).before_fetched 2 t (fetch3_2 t) d]
  unfold Dat.fetched Dat.blockOf iblk3
  rw [A_eq3]; rfl

/-! ## The body's accesses: every load and the one store go through a whole buffer -/

/-- Every access starts at offset zero on both axes. -/
theorem off3_zero : (![0, 0] : Fin 2 → Nat) = fun _ => 0 := by
  funext a; fin_cases a <;> rfl

/-- The store's rectangle: the whole output buffer. -/
abbrev r3_3 : Rect S512x64 := Rect.unit (s := S512x64) ![0, 0] S512x64.size inb_S512x64_S512x64_0_0

/-- So the one store covers the output buffer. -/
theorem cover3_3 (p : Vec F S512x64 .f32) (y : S512x64.Idx) :
    ∃ pc ∈ ([⟨r3_3, p⟩] : List (View.Piece (Elt F) S512x64 .f32)), y ∈ pc.1.set :=
  ⟨_, List.mem_singleton_self _, View.mem_set_unit_zero (S := S512x64) off3_zero inb_S512x64_S512x64_0_0 y⟩

/-! ## The body's triple -/

set_option maxHeartbeats 1000000 in
/-- The body on whole staging memrefs, the three inputs' at contents `x0`, `x1`, `x2` and the output's at anything,
    runs to the continuation holding the inputs' as they were and the output's at `x0` (rounded to bf16) times `x1`
    (rounded to bf16) plus the row `x2` on every row: each load reads a whole buffer, so the store's payload is
    the payload of the buffers' contents, and the store overwrites the whole output buffer, the value the dead load
    of it read included. -/
theorem sound_kernel3 (c : Dev nD) (E : Set ℕ) (i : grid3.Coords)
    (arg1 : Memref sig .tc .vmem S512x128 .f32) (harg1 : arg1.IsWhole)
    (arg2 : Memref sig .tc .vmem S128x64 .f32) (harg2 : arg2.IsWhole)
    (arg3 : Memref sig .tc .vmem S1x64 .f32) (harg3 : arg3.IsWhole)
    (arg4 : Memref sig .tc .vmem S512x64 .f32) (harg4 : arg4.IsWhole)
    (x0 : Vec F S512x128 .f32) (x1 : Vec F S128x64 .f32) (x2 : Vec F S1x64 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2
            ∗ owns (c : Thread nD τ) arg4 fullShare (k3_pay1 x0 x1 x2)) -∗ K ⟨⟩))
      ⊢ wp frame (wpE (defs₀ (F := F)) Variants.none c none) E
          (cc3__fc_kernel i arg1 harg1 arg2 harg2 arg3 harg3 arg4 harg4) K := by
  simp only [cc3__fc_kernel_eq_skeleton]; unfold cc3__fc_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (cover3_3 _), View.canon_unit_zero off3_zero]
  simp only [View.readAt_eq_ld, View.ld_unit_zero (S := S512x128) off3_zero,
    View.ld_unit_zero (S := S128x64) off3_zero, View.ld_unit_zero (S := S1x64) off3_zero]

/-! ## The body obligation, at a generic point -/

/-- What the body is called with at point `t`: the invariant, what the core owes, and each window's current buffer. -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- What it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' buffers hold their blocks, so the body's triple applies at those blocks; the
    invariant and what the core owes are the same before and after and pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation3 (c : Dev nD) : BodyObligation (dat3 (F := F) V c) (defs₀ (F := F)) Variants.none () Set.univ := by
  intro t
  rw [bigSep_W3, bigSep_W3]
  exact sound_body3 V c t

end Cert.KernelIdeal.Hand

end
-- ==== Proof.KI.Run.lean ====
/-
  The program's run from the launch to the return: the buffer contents at each boundary read back (every argument ends as
  launched: no host operation writes one and a region only reads it), each kernel region as a segment over the thread
  state "every unscoped buffer at the boundary's contents, the generator register at some state, nothing owed", @main as
  the list of its thirteen segments, and the run itself: every weakly fair execution terminates, nothing faulting, with
  the result buffer at what the last region's pipeline leaves in it and the arguments unchanged.
-/
import proofs.«411454_j24300924961028_1_alg».proof.Proof.KI.Reg0
import proofs.«411454_j24300924961028_1_alg».proof.Proof.KI.Reg1
import proofs.«411454_j24300924961028_1_alg».proof.Proof.KI.Reg2
import proofs.«411454_j24300924961028_1_alg».proof.Proof.KI.Reg3

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Each region's exit contents: its arrays at what the pipeline leaves, every other buffer as entered -/

theorem W3_arr (c : Dev nD) (w : Fin cfg0.W) :
    W3 m c (Proc.devRef .tc (Pipeline.arrRef spec0 w)) = (dat0 (E2 m) c).arrAt w cfg0.N := by
  unfold W3; exact Pipeline.withArrays_arr spec0 launch0.win.arr_inj c _ _ w
theorem W3_of_ne (c : Dev nD) (b : Ref sig .tc) (hb : ∀ w, Pipeline.arrRef spec0 w ≠ b) :
    W3 m c (Proc.devRef .tc b) = W2 m c (Proc.devRef .tc b) := by
  unfold W3; exact Pipeline.withArrays_of_ne spec0 c _ _ b hb
/-- Region 0's exit contents, read at the TensorCore's references. -/
abbrev E3 : (c : Dev nD) → (b : Ref sig .tc) → Buf (Elt F) ((c : Thread nD τ).loc b) := fun c b => W3 m c b
theorem hF0 (c : Dev nD) (w : Fin cfg0.W) : (dat0 (E2 m) c).arrAt w cfg0.N = E3 m c (Pipeline.arrRef spec0 w) :=
  (W3_arr m c w).symm
theorem hrest0 (c : Dev nD) : ∀ b, b ∉ Finset.univ.image (Pipeline.arrRef spec0) → E3 m c b = E2 m c b :=
  fun b hb => W3_of_ne m c b fun w e => hb (Finset.mem_image.mpr ⟨w, Finset.mem_univ _, e⟩)

theorem W5_arr (c : Dev nD) (w : Fin cfg1.W) :
    W5 m c (Proc.devRef .tc (Pipeline.arrRef spec1 w)) = (dat1 (E4 m) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m c (Proc.devRef .tc b) = W4 m c (Proc.devRef .tc b) := by
  unfold W5; exact Pipeline.withArrays_of_ne spec1 c _ _ b hb
/-- Region 1's exit contents, read at the TensorCore's references. -/
abbrev E5 : (c : Dev nD) → (b : Ref sig .tc) → Buf (Elt F) ((c : Thread nD τ).loc b) := fun c b => W5 m c b
theorem hF1 (c : Dev nD) (w : Fin cfg1.W) : (dat1 (E4 m) c).arrAt w cfg1.N = E5 m c (Pipeline.arrRef spec1 w) :=
  (W5_arr m c w).symm
theorem hrest1 (c : Dev nD) : ∀ b, b ∉ Finset.univ.image (Pipeline.arrRef spec1) → E5 m c b = E4 m c b :=
  fun b hb => W5_of_ne m c b fun w e => hb (Finset.mem_image.mpr ⟨w, Finset.mem_univ _, e⟩)

theorem W9_arr (c : Dev nD) (w : Fin cfg2.W) :
    W9 m c (Proc.devRef .tc (Pipeline.arrRef spec2 w)) = (dat2 (E8 m) c).arrAt w cfg2.N := by
  unfold W9; exact Pipeline.withArrays_arr spec2 launch2.win.arr_inj c _ _ w
theorem W9_of_ne (c : Dev nD) (b : Ref sig .tc) (hb : ∀ w, Pipeline.arrRef spec2 w ≠ b) :
    W9 m c (Proc.devRef .tc b) = W8 m c (Proc.devRef .tc b) := by
  unfold W9; exact Pipeline.withArrays_of_ne spec2 c _ _ b hb
/-- Region 2's exit contents, read at the TensorCore's references. -/
abbrev E9 : (c : Dev nD) → (b : Ref sig .tc) → Buf (Elt F) ((c : Thread nD τ).loc b) := fun c b => W9 m c b
theorem hF2 (c : Dev nD) (w : Fin cfg2.W) : (dat2 (E8 m) c).arrAt w cfg2.N = E9 m c (Pipeline.arrRef spec2 w) :=
  (W9_arr m c w).symm
theorem hrest2 (c : Dev nD) : ∀ b, b ∉ Finset.univ.image (Pipeline.arrRef spec2) → E9 m c b = E8 m c b :=
  fun b hb => W9_of_ne m c b fun w e => hb (Finset.mem_image.mpr ⟨w, Finset.mem_univ _, e⟩)

theorem W13_arr (c : Dev nD) (w : Fin cfg3.W) :
    W13 m c (Proc.devRef .tc (Pipeline.arrRef spec3 w)) = (dat3 (E12 m) c).arrAt w cfg3.N := by
  unfold W13; exact Pipeline.withArrays_arr spec3 launch3.win.arr_inj c _ _ w
theorem W13_of_ne (c : Dev nD) (b : Ref sig .tc) (hb : ∀ w, Pipeline.arrRef spec3 w ≠ b) :
    W13 m c (Proc.devRef .tc b) = W12 m c (Proc.devRef .tc b) := by
  unfold W13; exact Pipeline.withArrays_of_ne spec3 c _ _ b hb
/-- Region 3's exit contents, read at the TensorCore's references. -/
abbrev E13 : (c : Dev nD) → (b : Ref sig .tc) → Buf (Elt F) ((c : Thread nD τ).loc b) := fun c b => W13 m c b
theorem hF3 (c : Dev nD) (w : Fin cfg3.W) : (dat3 (E12 m) c).arrAt w cfg3.N = E13 m c (Pipeline.arrRef spec3 w) :=
  (W13_arr m c w).symm
theorem hrest3 (c : Dev nD) : ∀ b, b ∉ Finset.univ.image (Pipeline.arrRef spec3) → E13 m c b = E12 m c b :=
  fun b hb => W13_of_ne m c b fun w e => hb (Finset.mem_image.mpr ⟨w, Finset.mem_univ _, e⟩)

/-! ## The arguments end as launched -/

theorem W13_main_arg0 (c : Dev nD) : W13 m c (Proc.devRef .tc main_arg0) = m ((c : Thread nD τ).loc main_arg0) :=
  calc W13 m c (Proc.devRef .tc main_arg0)
    _ = W12 m c (Proc.devRef .tc main_arg0) := W13_of_ne m c main_arg0 (by decide)
    _ = W11 m c (Proc.devRef .tc main_arg0) := StableHlo.after_of_writes_sub hostOps3_2 _ hostOps3_2_writes (by decide)
    _ = W10 m c (Proc.devRef .tc main_arg0) := StableHlo.after_of_writes_sub hostOps3_1 _ hostOps3_1_writes (by decide)
    _ = W9 m c (Proc.devRef .tc main_arg0) := StableHlo.after_of_writes_sub hostOps3 _ hostOps3_writes (by decide)
    _ = W8 m c (Proc.devRef .tc main_arg0) := W9_of_ne m c main_arg0 (by decide)
    _ = W7 m c (Proc.devRef .tc main_arg0) := StableHlo.after_of_writes_sub hostOps2_2 _ hostOps2_2_writes (by decide)
    _ = W6 m c (Proc.devRef .tc main_arg0) := StableHlo.after_of_writes_sub hostOps2_1 _ hostOps2_1_writes (by decide)
    _ = W5 m c (Proc.devRef .tc main_arg0) := StableHlo.after_of_writes_sub hostOps2 _ hostOps2_writes (by decide)
    _ = W4 m c (Proc.devRef .tc main_arg0) := W5_of_ne m c main_arg0 (by decide)
    _ = W3 m c (Proc.devRef .tc main_arg0) := StableHlo.after_of_writes_sub hostOps1 _ hostOps1_writes (by decide)
    _ = W2 m c (Proc.devRef .tc main_arg0) := W3_of_ne m c main_arg0 (by decide)
    _ = W1 m c (Proc.devRef .tc main_arg0) := StableHlo.after_of_writes_sub hostOps0_1 _ hostOps0_1_writes (by decide)
    _ = W0 m c (Proc.devRef .tc main_arg0) := StableHlo.after_of_writes_sub hostOps0 _ hostOps0_writes (by decide)
    _ = m ((c : Thread nD τ).loc main_arg0) := rfl

theorem W13_main_arg1 (c : Dev nD) : W13 m c (Proc.devRef .tc main_arg1) = m ((c : Thread nD τ).loc main_arg1) :=
  calc W13 m c (Proc.devRef .tc main_arg1)
    _ = W12 m c (Proc.devRef .tc main_arg1) := W13_of_ne m c main_arg1 (by decide)
    _ = W11 m c (Proc.devRef .tc main_arg1) := StableHlo.after_of_writes_sub hostOps3_2 _ hostOps3_2_writes (by decide)
    _ = W10 m c (Proc.devRef .tc main_arg1) := StableHlo.after_of_writes_sub hostOps3_1 _ hostOps3_1_writes (by decide)
    _ = W9 m c (Proc.devRef .tc main_arg1) := StableHlo.after_of_writes_sub hostOps3 _ hostOps3_writes (by decide)
    _ = W8 m c (Proc.devRef .tc main_arg1) := W9_of_ne m c main_arg1 (by decide)
    _ = W7 m c (Proc.devRef .tc main_arg1) := StableHlo.after_of_writes_sub hostOps2_2 _ hostOps2_2_writes (by decide)
    _ = W6 m c (Proc.devRef .tc main_arg1) := StableHlo.after_of_writes_sub hostOps2_1 _ hostOps2_1_writes (by decide)
    _ = W5 m c (Proc.devRef .tc main_arg1) := StableHlo.after_of_writes_sub hostOps2 _ hostOps2_writes (by decide)
    _ = W4 m c (Proc.devRef .tc main_arg1) := W5_of_ne m c main_arg1 (by decide)
    _ = W3 m c (Proc.devRef .tc main_arg1) := StableHlo.after_of_writes_sub hostOps1 _ hostOps1_writes (by decide)
    _ = W2 m c (Proc.devRef .tc main_arg1) := W3_of_ne m c main_arg1 (by decide)
    _ = W1 m c (Proc.devRef .tc main_arg1) := StableHlo.after_of_writes_sub hostOps0_1 _ hostOps0_1_writes (by decide)
    _ = W0 m c (Proc.devRef .tc main_arg1) := StableHlo.after_of_writes_sub hostOps0 _ hostOps0_writes (by decide)
    _ = m ((c : Thread nD τ).loc main_arg1) := rfl

theorem W13_main_arg2 (c : Dev nD) : W13 m c (Proc.devRef .tc main_arg2) = m ((c : Thread nD τ).loc main_arg2) :=
  calc W13 m c (Proc.devRef .tc main_arg2)
    _ = W12 m c (Proc.devRef .tc main_arg2) := W13_of_ne m c main_arg2 (by decide)
    _ = W11 m c (Proc.devRef .tc main_arg2) := StableHlo.after_of_writes_sub hostOps3_2 _ hostOps3_2_writes (by decide)
    _ = W10 m c (Proc.devRef .tc main_arg2) := StableHlo.after_of_writes_sub hostOps3_1 _ hostOps3_1_writes (by decide)
    _ = W9 m c (Proc.devRef .tc main_arg2) := StableHlo.after_of_writes_sub hostOps3 _ hostOps3_writes (by decide)
    _ = W8 m c (Proc.devRef .tc main_arg2) := W9_of_ne m c main_arg2 (by decide)
    _ = W7 m c (Proc.devRef .tc main_arg2) := StableHlo.after_of_writes_sub hostOps2_2 _ hostOps2_2_writes (by decide)
    _ = W6 m c (Proc.devRef .tc main_arg2) := StableHlo.after_of_writes_sub hostOps2_1 _ hostOps2_1_writes (by decide)
    _ = W5 m c (Proc.devRef .tc main_arg2) := StableHlo.after_of_writes_sub hostOps2 _ hostOps2_writes (by decide)
    _ = W4 m c (Proc.devRef .tc main_arg2) := W5_of_ne m c main_arg2 (by decide)
    _ = W3 m c (Proc.devRef .tc main_arg2) := StableHlo.after_of_writes_sub hostOps1 _ hostOps1_writes (by decide)
    _ = W2 m c (Proc.devRef .tc main_arg2) := W3_of_ne m c main_arg2 (by decide)
    _ = W1 m c (Proc.devRef .tc main_arg2) := StableHlo.after_of_writes_sub hostOps0_1 _ hostOps0_1_writes (by decide)
    _ = W0 m c (Proc.devRef .tc main_arg2) := StableHlo.after_of_writes_sub hostOps0 _ hostOps0_writes (by decide)
    _ = m ((c : Thread nD τ).loc main_arg2) := rfl

theorem W13_main_arg3 (c : Dev nD) : W13 m c (Proc.devRef .tc main_arg3) = m ((c : Thread nD τ).loc main_arg3) :=
  calc W13 m c (Proc.devRef .tc main_arg3)
    _ = W12 m c (Proc.devRef .tc main_arg3) := W13_of_ne m c main_arg3 (by decide)
    _ = W11 m c (Proc.devRef .tc main_arg3) := StableHlo.after_of_writes_sub hostOps3_2 _ hostOps3_2_writes (by decide)
    _ = W10 m c (Proc.devRef .tc main_arg3) := StableHlo.after_of_writes_sub hostOps3_1 _ hostOps3_1_writes (by decide)
    _ = W9 m c (Proc.devRef .tc main_arg3) := StableHlo.after_of_writes_sub hostOps3 _ hostOps3_writes (by decide)
    _ = W8 m c (Proc.devRef .tc main_arg3) := W9_of_ne m c main_arg3 (by decide)
    _ = W7 m c (Proc.devRef .tc main_arg3) := StableHlo.after_of_writes_sub hostOps2_2 _ hostOps2_2_writes (by decide)
    _ = W6 m c (Proc.devRef .tc main_arg3) := StableHlo.after_of_writes_sub hostOps2_1 _ hostOps2_1_writes (by decide)
    _ = W5 m c (Proc.devRef .tc main_arg3) := StableHlo.after_of_writes_sub hostOps2 _ hostOps2_writes (by decide)
    _ = W4 m c (Proc.devRef .tc main_arg3) := W5_of_ne m c main_arg3 (by decide)
    _ = W3 m c (Proc.devRef .tc main_arg3) := StableHlo.after_of_writes_sub hostOps1 _ hostOps1_writes (by decide)
    _ = W2 m c (Proc.devRef .tc main_arg3) := (W3_arr m c 1).trans (((dat0 (E2 m) c).arrAt_in 1 rfl _).trans (A_eq0 (E2 m) c 1))
    _ = W1 m c (Proc.devRef .tc main_arg3) := StableHlo.after_of_writes_sub hostOps0_1 _ hostOps0_1_writes (by decide)
    _ = W0 m c (Proc.devRef .tc main_arg3) := StableHlo.after_of_writes_sub hostOps0 _ hostOps0_writes (by decide)
    _ = m ((c : Thread nD τ).loc main_arg3) := rfl

theorem W13_main_arg4 (c : Dev nD) : W13 m c (Proc.devRef .tc main_arg4) = m ((c : Thread nD τ).loc main_arg4) :=
  calc W13 m c (Proc.devRef .tc main_arg4)
    _ = W12 m c (Proc.devRef .tc main_arg4) := W13_of_ne m c main_arg4 (by decide)
    _ = W11 m c (Proc.devRef .tc main_arg4) := StableHlo.after_of_writes_sub hostOps3_2 _ hostOps3_2_writes (by decide)
    _ = W10 m c (Proc.devRef .tc main_arg4) := StableHlo.after_of_writes_sub hostOps3_1 _ hostOps3_1_writes (by decide)
    _ = W9 m c (Proc.devRef .tc main_arg4) := StableHlo.after_of_writes_sub hostOps3 _ hostOps3_writes (by decide)
    _ = W8 m c (Proc.devRef .tc main_arg4) := W9_of_ne m c main_arg4 (by decide)
    _ = W7 m c (Proc.devRef .tc main_arg4) := StableHlo.after_of_writes_sub hostOps2_2 _ hostOps2_2_writes (by decide)
    _ = W6 m c (Proc.devRef .tc main_arg4) := StableHlo.after_of_writes_sub hostOps2_1 _ hostOps2_1_writes (by decide)
    _ = W5 m c (Proc.devRef .tc main_arg4) := StableHlo.after_of_writes_sub hostOps2 _ hostOps2_writes (by decide)
    _ = W4 m c (Proc.devRef .tc main_arg4) := W5_of_ne m c main_arg4 (by decide)
    _ = W3 m c (Proc.devRef .tc main_arg4) := StableHlo.after_of_writes_sub hostOps1 _ hostOps1_writes (by decide)
    _ = W2 m c (Proc.devRef .tc main_arg4) := W3_of_ne m c main_arg4 (by decide)
    _ = W1 m c (Proc.devRef .tc main_arg4) := StableHlo.after_of_writes_sub hostOps0_1 _ hostOps0_1_writes (by decide)
    _ = W0 m c (Proc.devRef .tc main_arg4) := StableHlo.after_of_writes_sub hostOps0 _ hostOps0_writes (by decide)
    _ = m ((c : Thread nD τ).loc main_arg4) := rfl

theorem W13_main_arg5 (c : Dev nD) : W13 m c (Proc.devRef .tc main_arg5) = m ((c : Thread nD τ).loc main_arg5) :=
  calc W13 m c (Proc.devRef .tc main_arg5)
    _ = W12 m c (Proc.devRef .tc main_arg5) := W13_of_ne m c main_arg5 (by decide)
    _ = W11 m c (Proc.devRef .tc main_arg5) := StableHlo.after_of_writes_sub hostOps3_2 _ hostOps3_2_writes (by decide)
    _ = W10 m c (Proc.devRef .tc main_arg5) := StableHlo.after_of_writes_sub hostOps3_1 _ hostOps3_1_writes (by decide)
    _ = W9 m c (Proc.devRef .tc main_arg5) := StableHlo.after_of_writes_sub hostOps3 _ hostOps3_writes (by decide)
    _ = W8 m c (Proc.devRef .tc main_arg5) := W9_of_ne m c main_arg5 (by decide)
    _ = W7 m c (Proc.devRef .tc main_arg5) := StableHlo.after_of_writes_sub hostOps2_2 _ hostOps2_2_writes (by decide)
    _ = W6 m c (Proc.devRef .tc main_arg5) := StableHlo.after_of_writes_sub hostOps2_1 _ hostOps2_1_writes (by decide)
    _ = W5 m c (Proc.devRef .tc main_arg5) := StableHlo.after_of_writes_sub hostOps2 _ hostOps2_writes (by decide)
    _ = W4 m c (Proc.devRef .tc main_arg5) := (W5_arr m c 1).trans (((dat1 (E4 m) c).arrAt_in 1 rfl _).trans (A_eq1 (E4 m) c 1))
    _ = W3 m c (Proc.devRef .tc main_arg5) := StableHlo.after_of_writes_sub hostOps1 _ hostOps1_writes (by decide)
    _ = W2 m c (Proc.devRef .tc main_arg5) := W3_of_ne m c main_arg5 (by decide)
    _ = W1 m c (Proc.devRef .tc main_arg5) := StableHlo.after_of_writes_sub hostOps0_1 _ hostOps0_1_writes (by decide)
    _ = W0 m c (Proc.devRef .tc main_arg5) := StableHlo.after_of_writes_sub hostOps0 _ hostOps0_writes (by decide)
    _ = m ((c : Thread nD τ).loc main_arg5) := rfl

theorem W13_main_arg6 (c : Dev nD) : W13 m c (Proc.devRef .tc main_arg6) = m ((c : Thread nD τ).loc main_arg6) :=
  calc W13 m c (Proc.devRef .tc main_arg6)
    _ = W12 m c (Proc.devRef .tc main_arg6) := W13_of_ne m c main_arg6 (by decide)
    _ = W11 m c (Proc.devRef .tc main_arg6) := StableHlo.after_of_writes_sub hostOps3_2 _ hostOps3_2_writes (by decide)
    _ = W10 m c (Proc.devRef .tc main_arg6) := StableHlo.after_of_writes_sub hostOps3_1 _ hostOps3_1_writes (by decide)
    _ = W9 m c (Proc.devRef .tc main_arg6) := StableHlo.after_of_writes_sub hostOps3 _ hostOps3_writes (by decide)
    _ = W8 m c (Proc.devRef .tc main_arg6) := W9_of_ne m c main_arg6 (by decide)
    _ = W7 m c (Proc.devRef .tc main_arg6) := StableHlo.after_of_writes_sub hostOps2_2 _ hostOps2_2_writes (by decide)
    _ = W6 m c (Proc.devRef .tc main_arg6) := StableHlo.after_of_writes_sub hostOps2_1 _ hostOps2_1_writes (by decide)
    _ = W5 m c (Proc.devRef .tc main_arg6) := StableHlo.after_of_writes_sub hostOps2 _ hostOps2_writes (by decide)
    _ = W4 m c (Proc.devRef .tc main_arg6) := W5_of_ne m c main_arg6 (by decide)
    _ = W3 m c (Proc.devRef .tc main_arg6) := StableHlo.after_of_writes_sub hostOps1 _ hostOps1_writes (by decide)
    _ = W2 m c (Proc.devRef .tc main_arg6) := W3_of_ne m c main_arg6 (by decide)
    _ = W1 m c (Proc.devRef .tc main_arg6) := StableHlo.after_of_writes_sub hostOps0_1 _ hostOps0_1_writes (by decide)
    _ = W0 m c (Proc.devRef .tc main_arg6) := StableHlo.after_of_writes_sub hostOps0 _ hostOps0_writes (by decide)
    _ = m ((c : Thread nD τ).loc main_arg6) := rfl

theorem W13_main_arg7 (c : Dev nD) : W13 m c (Proc.devRef .tc main_arg7) = m ((c : Thread nD τ).loc main_arg7) :=
  calc W13 m c (Proc.devRef .tc main_arg7)
    _ = W12 m c (Proc.devRef .tc main_arg7) := (W13_arr m c 1).trans (((dat3 (E12 m) c).arrAt_in 1 rfl _).trans (A_eq3 (E12 m) c 1))
    _ = W11 m c (Proc.devRef .tc main_arg7) := StableHlo.after_of_writes_sub hostOps3_2 _ hostOps3_2_writes (by decide)
    _ = W10 m c (Proc.devRef .tc main_arg7) := StableHlo.after_of_writes_sub hostOps3_1 _ hostOps3_1_writes (by decide)
    _ = W9 m c (Proc.devRef .tc main_arg7) := StableHlo.after_of_writes_sub hostOps3 _ hostOps3_writes (by decide)
    _ = W8 m c (Proc.devRef .tc main_arg7) := W9_of_ne m c main_arg7 (by decide)
    _ = W7 m c (Proc.devRef .tc main_arg7) := StableHlo.after_of_writes_sub hostOps2_2 _ hostOps2_2_writes (by decide)
    _ = W6 m c (Proc.devRef .tc main_arg7) := StableHlo.after_of_writes_sub hostOps2_1 _ hostOps2_1_writes (by decide)
    _ = W5 m c (Proc.devRef .tc main_arg7) := StableHlo.after_of_writes_sub hostOps2 _ hostOps2_writes (by decide)
    _ = W4 m c (Proc.devRef .tc main_arg7) := W5_of_ne m c main_arg7 (by decide)
    _ = W3 m c (Proc.devRef .tc main_arg7) := StableHlo.after_of_writes_sub hostOps1 _ hostOps1_writes (by decide)
    _ = W2 m c (Proc.devRef .tc main_arg7) := W3_of_ne m c main_arg7 (by decide)
    _ = W1 m c (Proc.devRef .tc main_arg7) := StableHlo.after_of_writes_sub hostOps0_1 _ hostOps0_1_writes (by decide)
    _ = W0 m c (Proc.devRef .tc main_arg7) := StableHlo.after_of_writes_sub hostOps0 _ hostOps0_writes (by decide)
    _ = m ((c : Thread nD τ).loc main_arg7) := rfl

theorem W13_main_arg8 (c : Dev nD) : W13 m c (Proc.devRef .tc main_arg8) = m ((c : Thread nD τ).loc main_arg8) :=
  calc W13 m c (Proc.devRef .tc main_arg8)
    _ = W12 m c (Proc.devRef .tc main_arg8) := W13_of_ne m c main_arg8 (by decide)
    _ = W11 m c (Proc.devRef .tc main_arg8) := StableHlo.after_of_writes_sub hostOps3_2 _ hostOps3_2_writes (by decide)
    _ = W10 m c (Proc.devRef .tc main_arg8) := StableHlo.after_of_writes_sub hostOps3_1 _ hostOps3_1_writes (by decide)
    _ = W9 m c (Proc.devRef .tc main_arg8) := StableHlo.after_of_writes_sub hostOps3 _ hostOps3_writes (by decide)
    _ = W8 m c (Proc.devRef .tc main_arg8) := W9_of_ne m c main_arg8 (by decide)
    _ = W7 m c (Proc.devRef .tc main_arg8) := StableHlo.after_of_writes_sub hostOps2_2 _ hostOps2_2_writes (by decide)
    _ = W6 m c (Proc.devRef .tc main_arg8) := StableHlo.after_of_writes_sub hostOps2_1 _ hostOps2_1_writes (by decide)
    _ = W5 m c (Proc.devRef .tc main_arg8) := StableHlo.after_of_writes_sub hostOps2 _ hostOps2_writes (by decide)
    _ = W4 m c (Proc.devRef .tc main_arg8) := W5_of_ne m c main_arg8 (by decide)
    _ = W3 m c (Proc.devRef .tc main_arg8) := StableHlo.after_of_writes_sub hostOps1 _ hostOps1_writes (by decide)
    _ = W2 m c (Proc.devRef .tc main_arg8) := W3_of_ne m c main_arg8 (by decide)
    _ = W1 m c (Proc.devRef .tc main_arg8) := StableHlo.after_of_writes_sub hostOps0_1 _ hostOps0_1_writes (by decide)
    _ = W0 m c (Proc.devRef .tc main_arg8) := StableHlo.after_of_writes_sub hostOps0 _ hostOps0_writes (by decide)
    _ = m ((c : Thread nD τ).loc main_arg8) := rfl

/-! ## The thread state -/

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, none. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W13 m c) ∗ ∃ r, prngReg c r)

/-! ## The regions as segments -/

set_option backward.isDefEq.respectTransparency.types false in
/-- Region 0 over the thread state: entered from every unscoped buffer at the entry contents, left at the exit
    contents; its arrays split out of the unscoped buffers and put back; the generator register into the invariant and
    out; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E2 m) c).loose
  hwaits := Pipeline.hwaits_of_owed_zero _ _ _ _ L lv 0 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec0 c (E2 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E2 m c) (E3 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the entry contents, left at the exit
    contents; its arrays split out of the unscoped buffers and put back; the generator register into the invariant and
    out; nothing owed; no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E4 m) c).loose
  hwaits := Pipeline.hwaits_of_owed_zero _ _ _ _ L lv 1 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec1 c (E4 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E4 m c) (E5 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at the entry contents, left at the exit
    contents; its arrays split out of the unscoped buffers and put back; the generator register into the invariant and
    out; nothing owed; no semaphore of the kernel's own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E8 m) c).loose
  hwaits := Pipeline.hwaits_of_owed_zero _ _ _ _ L lv 2 fun _ _ => rfl
  pre c := iprop(StableHlo.held (c : Thread nD τ) (Pipeline.ucRefs τ sig) (W8 m c) ∗ R c)
  post c := iprop(StableHlo.held (c : Thread nD τ) (Pipeline.ucRefs τ sig) (W9 m c) ∗ R c)
  X c := iprop(∃ r, prngReg c r)
  Y c := iprop(∃ r, prngReg c r)
  Z c := Pipeline.unscopedRest (Ix := Unit) (Name := ℕ) (U := UR sig nD τ) (Lvl := ℕ) spec2 c (E8 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E8 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (E8 m) c)
    unfold Pipeline.ΦA
    iintro ⟨Hp, -, Hr⟩
    isplitl [Hr]; · iexact Hr
    iexact Hp
  hout c := by
    rw [Pipeline.ownSems0_none]
    refine BIBase.Entails.trans (hout2 (E8 m) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E8 m c) (E9 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at the entry contents, left at the exit
    contents; its arrays split out of the unscoped buffers and put back; the generator register into the invariant and
    out; nothing owed; no semaphore of the kernel's own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (E12 m) c).loose
  hwaits := Pipeline.hwaits_of_owed_zero _ _ _ _ L lv 3 fun _ _ => rfl
  pre c := iprop(StableHlo.held (c : Thread nD τ) (Pipeline.ucRefs τ sig) (W12 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (E12 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (E12 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (E12 m c) (E13 m c) ((pdats m 3 c).arrAt · cfg3.N) (hF3 m c) (hrest3 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's thirteen segments in order. -/
abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .region (reg0 m),
    .host (hseg hostOps1 hostOps1_sub hostOps1_fresh (W3 m)),
    .region (reg1 m),
    .host (hseg hostOps2 hostOps2_sub hostOps2_fresh (W5 m)),
    .host (hseg hostOps2_1 hostOps2_1_sub hostOps2_1_fresh (W6 m)),
    .host (hseg hostOps2_2 hostOps2_2_sub hostOps2_2_fresh (W7 m)),
    .region (reg2 m),
    .host (hseg hostOps3 hostOps3_sub hostOps3_fresh (W9 m)),
    .host (hseg hostOps3_1 hostOps3_1_sub hostOps3_1_fresh (W10 m)),
    .host (hseg hostOps3_2 hostOps3_2_sub hostOps3_2_fresh (W11 m)),
    .region (reg3 m) ]

/-- @main is the run of the segments. -/
theorem main_run (c : Dev nD) : main (F := F) c = Pipeline.Seg.run (segs m) := (main_chain c).trans (by chain_rfl)

set_option backward.isDefEq.respectTransparency.types false in
/-- THE RUN: from any memory with zero counters every weakly fair execution of @main on the TensorCores terminates,
    nothing faulting, and every final state has the result buffer at the last boundary's contents and the argument
    arrays as launched. -/
theorem run_named : θ_run defs (onTc (τ := τ) (main (F := F))) ⟨m, fun _ => 0, ρ⟩ (fun r => ∀ c : Dev nD,
      r.2.mem ((c.tc : Thread nD τ).loc main_v97) = W13 m c (Proc.devRef .tc main_v97)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m c b)
    (hfin := fun c s' => by
      iintro ⟨⟨Hh, -⟩, HSI⟩
      unfold StableHlo.held
      imodintro
      iapply (pointsTo_read_all (Pipeline.ucRefs τ sig) (fun b => (((c : Thread nD τ)).1, b)) (W13 m c) s')
      isplitl [Hh] <;> iassumption)
    (hQ := fun s h c =>
      ⟨h c _ (mem_uc main_v97 (by decide)),
       (h c _ (mem_uc main_arg0 (by decide))).trans (W13_main_arg0 m c),
       (h c _ (mem_uc main_arg1 (by decide))).trans (W13_main_arg1 m c),
       (h c _ (mem_uc main_arg2 (by decide))).trans (W13_main_arg2 m c),
       (h c _ (mem_uc main_arg3 (by decide))).trans (W13_main_arg3 m c),
       (h c _ (mem_uc main_arg4 (by decide))).trans (W13_main_arg4 m c),
       (h c _ (mem_uc main_arg5 (by decide))).trans (W13_main_arg5 m c),
       (h c _ (mem_uc main_arg6 (by decide))).trans (W13_main_arg6 m c),
       (h c _ (mem_uc main_arg7 (by decide))).trans (W13_main_arg7 m c),
       (h c _ (mem_uc main_arg8 (by decide))).trans (W13_main_arg8 m c)⟩)

/-- THE FRAME at any float instance: the run, its result forgotten. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => (h c).2) (run_named m ρ)

end Cert.KernelIdeal.Hand

end
-- ==== Proof.RefSide.lean ====
/-
  The reference program's run and its read-at-an-index lemmas, brought into scope for the modules that compare
  the two programs' results entry by entry.
-/
import proofs.«411454_j24300924961028_1_alg».proof.Proof.Gen.ReferenceIdeal.Run
import proofs.«411454_j24300924961028_1_alg».proof.Proof.Gen.ReferenceIdeal.Read
-- ==== Proof.KI.Val01.lean ====
/-
  What the first two kernel regions leave in their output arrays, entry by entry, over the extended reals: each of the
  eight row blocks is written back where it was read, so entry (i, j) of the whole array is the product of row i of the
  region's input (its positive part, for the second region) with column j of the weights.
-/
import proofs.«411454_j24300924961028_1_alg».proof.Proof.KI.Data
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- Region 0's input array: the features, padded with zero rows. -/
abbrev r0_in (c : Dev nD) : FVec Ideal S50048x64 .f32 := V c main_v32
/-- The first weight matrix. -/
abbrev r0_w (c : Dev nD) : FVec Ideal S64x64 .f32 := V c main_arg3
/-- Region 0's output array after its eight points. -/
abbrev r0_out (c : Dev nD) : FVec Ideal S50048x64 .f32 := (dat0 (F := Ideal) V c).arrAt 2 cfg0.N
/-- Region 1's input array. -/
abbrev r1_in (c : Dev nD) : FVec Ideal S50048x64 .f32 := V c main_v54
/-- The second weight matrix. -/
abbrev r1_w (c : Dev nD) : FVec Ideal S64x128 .f32 := V c main_arg5
/-- Region 1's output array after its eight points. -/
abbrev r1_out (c : Dev nD) : FVec Ideal S50048x128 .f32 := (dat1 (F := Ideal) V c).arrAt 2 cfg1.N

namespace Val01

/-! ## The matrix product of region 0's body, entry by entry -/

/-- The four coordinate facts of the contraction: the left operand is read at (row, k), the right at (k, column). -/
theorem lhs_k0_0 (i : S6256x64.Idx) (q : dot_S6256x64_S64x64_S6256x64_1_0_0_1_n_n.contr.Idx) :
    (dot_S6256x64_S64x64_S6256x64_1_0_0_1_n_n.lhsIdx i q 0).val = (i 0).val := by
  unfold DotDims.lhsIdx
  rw [dif_neg (show ¬(0 : Fin S6256x64.rank) ∈ dot_S6256x64_S64x64_S6256x64_1_0_0_1_n_n.lhsBatch by decide), dif_pos (show (0 : Fin S6256x64.rank) ∈ dot_S6256x64_S64x64_S6256x64_1_0_0_1_n_n.lhsNonContracting by decide)]
  rfl
theorem lhs_k0_1 (i : S6256x64.Idx) (q : dot_S6256x64_S64x64_S6256x64_1_0_0_1_n_n.contr.Idx) :
    (dot_S6256x64_S64x64_S6256x64_1_0_0_1_n_n.lhsIdx i q 1).val = (q ⟨0, by decide⟩).val :=
  dot_S6256x64_S64x64_S6256x64_1_0_0_1_n_n.lhsIdx_val_of_single rfl i q
theorem rhs_k0_0 (i : S6256x64.Idx) (q : dot_S6256x64_S64x64_S6256x64_1_0_0_1_n_n.contr.Idx) :
    (dot_S6256x64_S64x64_S6256x64_1_0_0_1_n_n.rhsIdx i q 0).val = (q ⟨0, by decide⟩).val :=
  dot_S6256x64_S64x64_S6256x64_1_0_0_1_n_n.rhsIdx_val_of_single rfl i q
theorem rhs_k0_1 (i : S6256x64.Idx) (q : dot_S6256x64_S64x64_S6256x64_1_0_0_1_n_n.contr.Idx) :
    (dot_S6256x64_S64x64_S6256x64_1_0_0_1_n_n.rhsIdx i q 1).val = (i 1).val := by
  unfold DotDims.rhsIdx
  rw [dif_neg (show ¬(1 : Fin S64x64.rank) ∈ dot_S6256x64_S64x64_S6256x64_1_0_0_1_n_n.rhsBatch by decide), dif_pos (show (1 : Fin S64x64.rank) ∈ dot_S6256x64_S64x64_S6256x64_1_0_0_1_n_n.rhsNonContracting by decide)]
  rfl

/-- The product of a row block with the weights, at an entry: the sum over the contracted axis. -/
theorem matmul0_apply (x : FVec Ideal S6256x64 .bf16) (w : FVec Ideal S64x64 .bf16) (i : Fin 6256) (j : Fin 64) :
    FloatOps.matmul dot_S6256x64_S64x64_S6256x64_1_0_0_1_n_n none x w (constant S6256x64 .f32 0x00000000#32) (ix2 i j)
      = ∑ k : Fin 64, x (ix2 i k) * w (ix2 k j) := by
  rw [Ideal.matmul_constant_zero_apply, ← Equiv.sum_comp (ValueIdx.contrEquiv1 dot_S6256x64_S64x64_S6256x64_1_0_0_1_n_n 64 rfl rfl).symm]
  refine Finset.sum_congr rfl fun k _ => ?_
  have hk := ValueIdx.contrEquiv1_symm_val dot_S6256x64_S64x64_S6256x64_1_0_0_1_n_n 64 rfl rfl k
  have el : dot_S6256x64_S64x64_S6256x64_1_0_0_1_n_n.lhsIdx (ix2 i j) ((ValueIdx.contrEquiv1 dot_S6256x64_S64x64_S6256x64_1_0_0_1_n_n 64 rfl rfl).symm k) = ix2 i k := funext fun a => Fin.ext (by
    match a with
    | ⟨0, _⟩ => exact lhs_k0_0 _ _
    | ⟨1, _⟩ => exact (lhs_k0_1 _ _).trans hk)
  have er : dot_S6256x64_S64x64_S6256x64_1_0_0_1_n_n.rhsIdx (ix2 i j) ((ValueIdx.contrEquiv1 dot_S6256x64_S64x64_S6256x64_1_0_0_1_n_n 64 rfl rfl).symm k) = ix2 k j := funext fun a => Fin.ext (by
    match a with
    | ⟨0, _⟩ => exact (rhs_k0_0 _ _).trans hk
    | ⟨1, _⟩ => exact rhs_k0_1 _ _)
  rw [el, er]

/-- Region 0's body at an entry. -/
theorem pay0_apply (x : FVec Ideal S6256x64 .f32) (w : FVec Ideal S64x64 .f32) (i : Fin 6256) (j : Fin 64) :
    k0_pay1 (F := Ideal) x w (ix2 i j) = ∑ k : Fin 64, x (ix2 i k) * w (ix2 k j) := by
  unfold k0_pay1
  refine (matmul0_apply _ _ i j).trans ?_
  refine Finset.sum_congr rfl fun k _ => ?_
  rw [truncf_apply, truncf_apply, shapeCast_self]

/-- The same at an index of the block's shape. -/
theorem pay0_apply' (x : FVec Ideal S6256x64 .f32) (w : FVec Ideal S64x64 .f32) (y : S6256x64.Idx) :
    k0_pay1 (F := Ideal) x w y = ∑ k : Fin 64, x (ix2 (y 0) k) * w (ix2 k (y 1)) := by
  rw [eq_ix2 y]
  exact pay0_apply x w (y 0) (y 1)

/-- Region 0's whole output: each row of the input times the weights. -/
def G0 (c : Dev nD) : FVec Ideal S50048x64 .f32 :=
  fun i => ∑ k : Fin 64, r0_in V c (ix2 (i 0) k) * r0_w V c (ix2 k (i 1))

/-- The block indices over the grid: the input's row block moves with the output's, the weights stay whole, and the
    output's row block at a point is the point's number. -/
theorem idx_facts0 : ∀ t : Fin cfg0.N, win0_0.index t (0 : Fin 2) = win0_2.index t (0 : Fin 2)
    ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of `G0`. -/
theorem flushed0_eq (c : Dev nD) (t : Fin cfg0.N) :
    (dat0 (F := Ideal) V c).flushed 2 t = ((cfg0.win 2).blk t).view.read (Elt Ideal) (G0 V c) := by
  obtain ⟨e0, e1, e2, e3, e4, e5⟩ := idx_facts0 t
  funext j
  show k0_pay1 (F := Ideal) (iblk0 V c 0 t) (iblk0 V c 1 t) (win0_2.xinj (grid0.coords t) j) = G0 V c (((cfg0.win 2).blk t).view.emb j)
  refine (pay0_apply' _ _ _).trans ?_
  unfold G0
  refine Finset.sum_congr rfl fun k _ => ?_
  have h0 : iblk0 V c 0 t (ix2 (win0_2.xinj (grid0.coords t) j 0) k) = r0_in V c (ix2 (((cfg0.win 2).blk t).view.emb j 0) k) := by
    show V c main_v32 (((cfg0.win 0).blk t).view.emb (ix2 (win0_2.xinj (grid0.coords t) j 0) k)) = V c main_v32 (ix2 (((cfg0.win 2).blk t).view.emb j 0) k)
    refine congrArg _ (funext fun a => Fin.ext ?_)
    match a with
    | ⟨0, _⟩ => show win0_0.index t (0 : Fin 2) * 6256 + 1 * (j 0).val = win0_2.index t (0 : Fin 2) * 6256 + 1 * (j 0).val; omega
    | ⟨1, _⟩ => show win0_0.index t (1 : Fin 2) * 64 + 1 * k.val = k.val; omega
  have h1 : iblk0 V c 1 t (ix2 k (win0_2.xinj (grid0.coords t) j 1)) = r0_w V c (ix2 k (((cfg0.win 2).blk t).view.emb j 1)) := by
    show V c main_arg3 (((cfg0.win 1).blk t).view.emb (ix2 k (win0_2.xinj (grid0.coords t) j 1))) = V c main_arg3 (ix2 k (((cfg0.win 2).blk t).view.emb j 1))
    refine congrArg _ (funext fun a => Fin.ext ?_)
    match a with
    | ⟨0, _⟩ => show win0_1.index t (0 : Fin 2) * 64 + 1 * k.val = k.val; omega
    | ⟨1, _⟩ => show win0_1.index t (1 : Fin 2) * 64 + 1 * (j 1).val = win0_2.index t (1 : Fin 2) * 64 + 1 * (j 1).val; omega
  rw [h0, h1]

/-- An index of the array is in point `t`'s block iff each coordinate is in the block's range on its axis. -/
theorem mem_blk0 (t : Fin cfg0.N) (i : S50048x64.Idx) :
    i ∈ ((cfg0.win 2).blk t).view.set ↔ ∀ a : Fin 2, win0_2.index t a * S6256x64.size a ≤ (i a).val ∧ (i a).val < win0_2.index t a * S6256x64.size a + S6256x64.size a := by
  show i ∈ ((View.whole main_v33).slice (win0_2.rect t)).set ↔ _
  rw [View.set_slice_whole, Rect.mem_set_unit]
  exact Iff.rfl

/-- Every row lies in the block of the point numbered by the row over the block height. -/
theorem cover0 (i : S50048x64.Idx) :
    ∃ t : Fin cfg0.N, (cfg0.win 2).flush t = true ∧ i ∈ ((cfg0.win 2).blk t).view.set := by
  have hi0 : (i 0).val < 50048 := (i 0).isLt
  have hi1 : (i 1).val < 64 := (i 1).isLt
  have hN : grid0.N = 8 := N_0
  have ht : (i 0).val / 6256 < grid0.N := by rw [hN]; omega
  obtain ⟨e0, e1, e2, e3, e4, e5⟩ := idx_facts0 ⟨(i 0).val / 6256, ht⟩
  have e4' : win0_2.index ⟨(i 0).val / 6256, ht⟩ (0 : Fin 2) = (i 0).val / 6256 := e4
  refine ⟨⟨(i 0).val / 6256, ht⟩, flush0_2 _, ?_⟩
  rw [mem_blk0]
  intro a
  match a with
  | ⟨0, _⟩ => show win0_2.index ⟨(i 0).val / 6256, ht⟩ (0 : Fin 2) * 6256 ≤ (i 0).val ∧ (i 0).val < win0_2.index ⟨(i 0).val / 6256, ht⟩ (0 : Fin 2) * 6256 + 6256; omega
  | ⟨1, _⟩ => show win0_2.index ⟨(i 0).val / 6256, ht⟩ (1 : Fin 2) * 64 ≤ (i 1).val ∧ (i 1).val < win0_2.index ⟨(i 0).val / 6256, ht⟩ (1 : Fin 2) * 64 + 64; omega

/-! ## The matrix product of region 1's body, entry by entry -/

/-- The four coordinate facts of the contraction: the left operand is read at (row, k), the right at (k, column). -/
theorem lhs_k1_0 (i : S6256x128.Idx) (q : dot_S6256x64_S64x128_S6256x128_1_0_0_1_n_n.contr.Idx) :
    (dot_S6256x64_S64x128_S6256x128_1_0_0_1_n_n.lhsIdx i q 0).val = (i 0).val := by
  unfold DotDims.lhsIdx
  rw [dif_neg (show ¬(0 : Fin S6256x64.rank) ∈ dot_S6256x64_S64x128_S6256x128_1_0_0_1_n_n.lhsBatch by decide), dif_pos (show (0 : Fin S6256x64.rank) ∈ dot_S6256x64_S64x128_S6256x128_1_0_0_1_n_n.lhsNonContracting by decide)]
  rfl
theorem lhs_k1_1 (i : S6256x128.Idx) (q : dot_S6256x64_S64x128_S6256x128_1_0_0_1_n_n.contr.Idx) :
    (dot_S6256x64_S64x128_S6256x128_1_0_0_1_n_n.lhsIdx i q 1).val = (q ⟨0, by decide⟩).val :=
  dot_S6256x64_S64x128_S6256x128_1_0_0_1_n_n.lhsIdx_val_of_single rfl i q
theorem rhs_k1_0 (i : S6256x128.Idx) (q : dot_S6256x64_S64x128_S6256x128_1_0_0_1_n_n.contr.Idx) :
    (dot_S6256x64_S64x128_S6256x128_1_0_0_1_n_n.rhsIdx i q 0).val = (q ⟨0, by decide⟩).val :=
  dot_S6256x64_S64x128_S6256x128_1_0_0_1_n_n.rhsIdx_val_of_single rfl i q
theorem rhs_k1_1 (i : S6256x128.Idx) (q : dot_S6256x64_S64x128_S6256x128_1_0_0_1_n_n.contr.Idx) :
    (dot_S6256x64_S64x128_S6256x128_1_0_0_1_n_n.rhsIdx i q 1).val = (i 1).val := by
  unfold DotDims.rhsIdx
  rw [dif_neg (show ¬(1 : Fin S64x128.rank) ∈ dot_S6256x64_S64x128_S6256x128_1_0_0_1_n_n.rhsBatch by decide), dif_pos (show (1 : Fin S64x128.rank) ∈ dot_S6256x64_S64x128_S6256x128_1_0_0_1_n_n.rhsNonContracting by decide)]
  rfl

/-- The product of a row block with the weights, at an entry: the sum over the contracted axis. -/
theorem matmul1_apply (x : FVec Ideal S6256x64 .bf16) (w : FVec Ideal S64x128 .bf16) (i : Fin 6256) (j : Fin 128) :
    FloatOps.matmul dot_S6256x64_S64x128_S6256x128_1_0_0_1_n_n none x w (constant S6256x128 .f32 0x00000000#32) (ix2 i j)
      = ∑ k : Fin 64, x (ix2 i k) * w (ix2 k j) := by
  rw [Ideal.matmul_constant_zero_apply, ← Equiv.sum_comp (ValueIdx.contrEquiv1 dot_S6256x64_S64x128_S6256x128_1_0_0_1_n_n 64 rfl rfl).symm]
  refine Finset.sum_congr rfl fun k _ => ?_
  have hk := ValueIdx.contrEquiv1_symm_val dot_S6256x64_S64x128_S6256x128_1_0_0_1_n_n 64 rfl rfl k
  have el : dot_S6256x64_S64x128_S6256x128_1_0_0_1_n_n.lhsIdx (ix2 i j) ((ValueIdx.contrEquiv1 dot_S6256x64_S64x128_S6256x128_1_0_0_1_n_n 64 rfl rfl).symm k) = ix2 i k := funext fun a => Fin.ext (by
    match a with
    | ⟨0, _⟩ => exact lhs_k1_0 _ _
    | ⟨1, _⟩ => exact (lhs_k1_1 _ _).trans hk)
  have er : dot_S6256x64_S64x128_S6256x128_1_0_0_1_n_n.rhsIdx (ix2 i j) ((ValueIdx.contrEquiv1 dot_S6256x64_S64x128_S6256x128_1_0_0_1_n_n 64 rfl rfl).symm k) = ix2 k j := funext fun a => Fin.ext (by
    match a with
    | ⟨0, _⟩ => exact (rhs_k1_0 _ _).trans hk
    | ⟨1, _⟩ => exact rhs_k1_1 _ _)
  rw [el, er]

/-- Region 1's body at an entry: the positive part of the row block times the weights. -/
theorem pay1_apply (x : FVec Ideal S6256x64 .f32) (w : FVec Ideal S64x128 .f32) (i : Fin 6256) (j : Fin 128) :
    k1_pay1 (F := Ideal) x w (ix2 i j) = ∑ k : Fin 64, max (x (ix2 i k)) 0 * w (ix2 k j) := by
  unfold k1_pay1
  refine (matmul1_apply _ _ i j).trans ?_
  refine Finset.sum_congr rfl fun k _ => ?_
  rw [truncf_apply, truncf_apply, maximumf_apply, broadcast_apply, shapeCast_self]
  show max (x (ix2 i k)) (Ideal.ofBits .f32 0x00000000#32) * _ = _
  rw [Ideal.ofBits_zero_f32]

/-- The same at an index of the block's shape. -/
theorem pay1_apply' (x : FVec Ideal S6256x64 .f32) (w : FVec Ideal S64x128 .f32) (y : S6256x128.Idx) :
    k1_pay1 (F := Ideal) x w y = ∑ k : Fin 64, max (x (ix2 (y 0) k)) 0 * w (ix2 k (y 1)) := by
  rw [eq_ix2 y]
  exact pay1_apply x w (y 0) (y 1)

/-- Region 1's whole output: the positive part of each row of the input times the weights. -/
def G1 (c : Dev nD) : FVec Ideal S50048x128 .f32 :=
  fun i => ∑ k : Fin 64, max (r1_in V c (ix2 (i 0) k)) 0 * r1_w V c (ix2 k (i 1))

/-- The block indices over the grid: the input's row block moves with the output's, the weights stay whole, and the
    output's row block at a point is the point's number. -/
theorem idx_facts1 : ∀ t : Fin cfg1.N, win1_0.index t (0 : Fin 2) = win1_2.index t (0 : Fin 2)
    ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of `G1`. -/
theorem flushed1_eq (c : Dev nD) (t : Fin cfg1.N) :
    (dat1 (F := Ideal) V c).flushed 2 t = ((cfg1.win 2).blk t).view.read (Elt Ideal) (G1 V c) := by
  obtain ⟨e0, e1, e2, e3, e4, e5⟩ := idx_facts1 t
  funext j
  show k1_pay1 (F := Ideal) (iblk1 V c 0 t) (iblk1 V c 1 t) (win1_2.xinj (grid1.coords t) j) = G1 V c (((cfg1.win 2).blk t).view.emb j)
  refine (pay1_apply' _ _ _).trans ?_
  unfold G1
  refine Finset.sum_congr rfl fun k _ => ?_
  have h0 : iblk1 V c 0 t (ix2 (win1_2.xinj (grid1.coords t) j 0) k) = r1_in V c (ix2 (((cfg1.win 2).blk t).view.emb j 0) k) := by
    show V c main_v54 (((cfg1.win 0).blk t).view.emb (ix2 (win1_2.xinj (grid1.coords t) j 0) k)) = V c main_v54 (ix2 (((cfg1.win 2).blk t).view.emb j 0) k)
    refine congrArg _ (funext fun a => Fin.ext ?_)
    match a with
    | ⟨0, _⟩ => show win1_0.index t (0 : Fin 2) * 6256 + 1 * (j 0).val = win1_2.index t (0 : Fin 2) * 6256 + 1 * (j 0).val; omega
    | ⟨1, _⟩ => show win1_0.index t (1 : Fin 2) * 64 + 1 * k.val = k.val; omega
  have h1 : iblk1 V c 1 t (ix2 k (win1_2.xinj (grid1.coords t) j 1)) = r1_w V c (ix2 k (((cfg1.win 2).blk t).view.emb j 1)) := by
    show V c main_arg5 (((cfg1.win 1).blk t).view.emb (ix2 k (win1_2.xinj (grid1.coords t) j 1))) = V c main_arg5 (ix2 k (((cfg1.win 2).blk t).view.emb j 1))
    refine congrArg _ (funext fun a => Fin.ext ?_)
    match a with
    | ⟨0, _⟩ => show win1_1.index t (0 : Fin 2) * 64 + 1 * k.val = k.val; omega
    | ⟨1, _⟩ => show win1_1.index t (1 : Fin 2) * 128 + 1 * (j 1).val = win1_2.index t (1 : Fin 2) * 128 + 1 * (j 1).val; omega
  rw [h0, h1]

/-- An index of the array is in point `t`'s block iff each coordinate is in the block's range on its axis. -/
theorem mem_blk1 (t : Fin cfg1.N) (i : S50048x128.Idx) :
    i ∈ ((cfg1.win 2).blk t).view.set ↔ ∀ a : Fin 2, win1_2.index t a * S6256x128.size a ≤ (i a).val ∧ (i a).val < win1_2.index t a * S6256x128.size a + S6256x128.size a := by
  show i ∈ ((View.whole main_v55).slice (win1_2.rect t)).set ↔ _
  rw [View.set_slice_whole, Rect.mem_set_unit]
  exact Iff.rfl

/-- Every row lies in the block of the point numbered by the row over the block height. -/
theorem cover1 (i : S50048x128.Idx) :
    ∃ t : Fin cfg1.N, (cfg1.win 2).flush t = true ∧ i ∈ ((cfg1.win 2).blk t).view.set := by
  have hi0 : (i 0).val < 50048 := (i 0).isLt
  have hi1 : (i 1).val < 128 := (i 1).isLt
  have hN : grid1.N = 8 := N_1
  have ht : (i 0).val / 6256 < grid1.N := by rw [hN]; omega
  obtain ⟨e0, e1, e2, e3, e4, e5⟩ := idx_facts1 ⟨(i 0).val / 6256, ht⟩
  have e4' : win1_2.index ⟨(i 0).val / 6256, ht⟩ (0 : Fin 2) = (i 0).val / 6256 := e4
  refine ⟨⟨(i 0).val / 6256, ht⟩, flush1_2 _, ?_⟩
  rw [mem_blk1]
  intro a
  match a with
  | ⟨0, _⟩ => show win1_2.index ⟨(i 0).val / 6256, ht⟩ (0 : Fin 2) * 6256 ≤ (i 0).val ∧ (i 0).val < win1_2.index ⟨(i 0).val / 6256, ht⟩ (0 : Fin 2) * 6256 + 6256; omega
  | ⟨1, _⟩ => show win1_2.index ⟨(i 0).val / 6256, ht⟩ (1 : Fin 2) * 128 ≤ (i 1).val ∧ (i 1).val < win1_2.index ⟨(i 0).val / 6256, ht⟩ (1 : Fin 2) * 128 + 128; omega

end Val01

open Val01

/-! ## The two arrays -/

/-- Region 0's output: the padded features times the first weight matrix. -/
theorem arr0_apply (c : Dev nD) (i : Fin 50048) (j : Fin 64) :
    r0_out V c (ix2 i j) = ∑ k : Fin 64, r0_in V c (ix2 i k) * r0_w V c (ix2 k j) := by
  have h := (dat0 (F := Ideal) V c).arrAt_eq_of_cover 2 (G0 V c) (fun t _ => flushed0_eq V c t) cover0
  exact congrFun h (ix2 i j)

/-- Region 1's output: the positive part of its input times the second weight matrix. -/
theorem arr1_apply (c : Dev nD) (i : Fin 50048) (j : Fin 128) :
    r1_out V c (ix2 i j) = ∑ k : Fin 64, max (r1_in V c (ix2 i k)) 0 * r1_w V c (ix2 k j) := by
  have h := (dat1 (F := Ideal) V c).arrAt_eq_of_cover 2 (G1 V c) (fun t _ => flushed1_eq V c t) cover1
  exact congrFun h (ix2 i j)

end Cert.KernelIdeal.Hand

end
-- ==== Proof.KI.Val23.lean ====
/-
  What the last two kernel regions leave in their output arrays, entry by entry, over the extended reals: the pooling
  region's sixteen row blocks add up to one sum over all rows, a row counted for graph g exactly when its graph id is g;
  the last region's one block is the pooled rows times the weights plus the bias row.
-/
import proofs.«411454_j24300924961028_1_alg».proof.Proof.KI.Data
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- Region 2's input rows. -/
abbrev r2_in (c : Dev nD) : FVec Ideal S50048x128 .f32 := V c main_v76
/-- Each row's graph id, as a column; the padding rows carry the id 512, which is no graph's. -/
abbrev r2_id (c : Dev nD) : IVec S50048x1 32 := V c main_v78
/-- Region 2's output array after its sixteen points. -/
abbrev r2_out (c : Dev nD) : FVec Ideal S512x128 .f32 := (dat2 (F := Ideal) V c).arrAt 2 cfg2.N
/-- Region 3's input: the pooled rows. -/
abbrev r3_in (c : Dev nD) : FVec Ideal S512x128 .f32 := V c main_v95
/-- The last weight matrix. -/
abbrev r3_w (c : Dev nD) : FVec Ideal S128x64 .f32 := V c main_arg7
/-- The bias, as a row. -/
abbrev r3_b (c : Dev nD) : FVec Ideal S1x64 .f32 := V c main_v96
/-- Region 3's output array after its one point. -/
abbrev r3_out (c : Dev nD) : FVec Ideal S512x64 .f32 := (dat3 (F := Ideal) V c).arrAt 3 cfg3.N

namespace Val23

/-! ## Region 3: one point, every block the whole array -/

theorem idx3_zero : ∀ t : Fin cfg3.N, (∀ a, win3_0.index t a = 0) ∧ (∀ a, win3_1.index t a = 0) ∧ (∀ a, win3_2.index t a = 0) ∧ (∀ a, win3_3.index t a = 0) :=
  (by decide +kernel : ∀ t : Fin grid3.N, _)

theorem iblk3_0 (c : Dev nD) (t : Fin cfg3.N) : iblk3 V c 0 t = (V c main_v95 : FVec Ideal S512x128 .f32) := by
  have hz' : (fun a => win3_0.index t a * main_v95.ty.shape.size a) = fun _ => 0 := funext fun a => by rw [(idx3_zero t).1 a, Nat.zero_mul]
  exact Memref.read_access_unit_zero (Elt Ideal) main_v95 hz' (fun a => by rw [congrFun hz' a]; simp) (V c main_v95)

theorem iblk3_1 (c : Dev nD) (t : Fin cfg3.N) : iblk3 V c 1 t = (V c main_arg7 : FVec Ideal S128x64 .f32) := by
  have hz' : (fun a => win3_1.index t a * main_arg7.ty.shape.size a) = fun _ => 0 := funext fun a => by rw [(idx3_zero t).2.1 a, Nat.zero_mul]
  exact Memref.read_access_unit_zero (Elt Ideal) main_arg7 hz' (fun a => by rw [congrFun hz' a]; simp) (V c main_arg7)

theorem iblk3_2 (c : Dev nD) (t : Fin cfg3.N) : iblk3 V c 2 t = (V c main_v96 : FVec Ideal S1x64 .f32) := by
  have hz' : (fun a => win3_2.index t a * main_v96.ty.shape.size a) = fun _ => 0 := funext fun a => by rw [(idx3_zero t).2.2.1 a, Nat.zero_mul]
  exact Memref.read_access_unit_zero (Elt Ideal) main_v96 hz' (fun a => by rw [congrFun hz' a]; simp) (V c main_v96)

/-- The one write-back writes the whole array: it ends at the body's value on the three input arrays. -/
theorem r3_out_eq (c : Dev nD) : r3_out V c = k3_pay1 (r3_in V c) (r3_w V c) (r3_b V c) := by
  refine (dat3 (F := Ideal) V c).arrAt_eq_of_cover 3 _ (fun t _ => ?_) (fun i => ?_)
  · show k3_pay1 (iblk3 V c 0 t) (iblk3 V c 1 t) (iblk3 V c 2 t) = _
    rw [iblk3_0, iblk3_1, iblk3_2]
    have hz' : (fun a => win3_3.index t a * main_v97.ty.shape.size a) = fun _ => 0 := funext fun a => by rw [(idx3_zero t).2.2.2 a, Nat.zero_mul]
    exact (Memref.read_access_unit_zero (Elt Ideal) main_v97 hz' (fun a => by rw [congrFun hz' a]; simp) _).symm
  · refine ⟨⟨0, by decide⟩, flush3_3 _, ?_⟩
    generalize (⟨0, by decide⟩ : Fin cfg3.N) = t
    show i ∈ ((View.whole main_v97).slice (win3_3.rect t)).set
    rw [View.set_slice_whole, Rect.mem_set_unit]
    intro a
    have h0 : (i 0 : Nat) < 512 := (i 0).isLt
    have h1 : (i 1 : Nat) < 64 := (i 1).isLt
    match a with
    | ⟨0, _⟩ =>
      show win3_3.index t 0 * 512 ≤ (i 0 : Nat) ∧ (i 0 : Nat) < win3_3.index t 0 * 512 + 512
      rw [(idx3_zero t).2.2.2 0]; omega
    | ⟨1, _⟩ =>
      show win3_3.index t 1 * 64 ≤ (i 1 : Nat) ∧ (i 1 : Nat) < win3_3.index t 1 * 64 + 64
      rw [(idx3_zero t).2.2.2 1]; omega

/-! the last product's operand indices -/
theorem lhs3_0 (i : S512x64.Idx) (q : dot_S512x128_S128x64_S512x64_1_0_0_1_n_n.contr.Idx) :
    (dot_S512x128_S128x64_S512x64_1_0_0_1_n_n.lhsIdx i q 0).val = (i 0).val := by
  unfold DotDims.lhsIdx
  rw [dif_neg (show ¬(0 : Fin S512x128.rank) ∈ dot_S512x128_S128x64_S512x64_1_0_0_1_n_n.lhsBatch by decide), dif_pos (show (0 : Fin S512x128.rank) ∈ dot_S512x128_S128x64_S512x64_1_0_0_1_n_n.lhsNonContracting by decide)]
  rfl
theorem lhs3_1 (i : S512x64.Idx) (q : dot_S512x128_S128x64_S512x64_1_0_0_1_n_n.contr.Idx) :
    (dot_S512x128_S128x64_S512x64_1_0_0_1_n_n.lhsIdx i q 1).val = (q ⟨0, by decide⟩).val :=
  dot_S512x128_S128x64_S512x64_1_0_0_1_n_n.lhsIdx_val_of_single rfl i q
theorem rhs3_0 (i : S512x64.Idx) (q : dot_S512x128_S128x64_S512x64_1_0_0_1_n_n.contr.Idx) :
    (dot_S512x128_S128x64_S512x64_1_0_0_1_n_n.rhsIdx i q 0).val = (q ⟨0, by decide⟩).val :=
  dot_S512x128_S128x64_S512x64_1_0_0_1_n_n.rhsIdx_val_of_single rfl i q
theorem rhs3_1 (i : S512x64.Idx) (q : dot_S512x128_S128x64_S512x64_1_0_0_1_n_n.contr.Idx) :
    (dot_S512x128_S128x64_S512x64_1_0_0_1_n_n.rhsIdx i q 1).val = (i 1).val := by
  unfold DotDims.rhsIdx
  rw [dif_neg (show ¬(1 : Fin S128x64.rank) ∈ dot_S512x128_S128x64_S512x64_1_0_0_1_n_n.rhsBatch by decide), dif_pos (show (1 : Fin S128x64.rank) ∈ dot_S512x128_S128x64_S512x64_1_0_0_1_n_n.rhsNonContracting by decide)]
  rfl

theorem mm3_apply {φ₁ φ₂ : FTy} (A : FVec Ideal S512x128 φ₁) (B : FVec Ideal S128x64 φ₂) (g : Fin 512) (j : Fin 64) :
    matmul dot_S512x128_S128x64_S512x64_1_0_0_1_n_n none A B (constant (F := Ideal) S512x64 .f32 0x00000000#32) (ix2 g j)
      = ∑ k : Fin 128, A (ix2 g k) * B (ix2 k j) := by
  refine (Ideal.matmul_constant_zero_apply _ none A B (ix2 g j)).trans ?_
  rw [← Equiv.sum_comp (contrEquiv1 dot_S512x128_S128x64_S512x64_1_0_0_1_n_n 128 rfl rfl).symm]
  refine Finset.sum_congr rfl fun k _ => ?_
  have hk := contrEquiv1_symm_val dot_S512x128_S128x64_S512x64_1_0_0_1_n_n 128 rfl rfl k
  have el : dot_S512x128_S128x64_S512x64_1_0_0_1_n_n.lhsIdx (ix2 g j) ((contrEquiv1 dot_S512x128_S128x64_S512x64_1_0_0_1_n_n 128 rfl rfl).symm k) = ix2 g k := funext fun a => Fin.ext (by
    match a with
    | ⟨0, _⟩ => exact lhs3_0 _ _
    | ⟨1, _⟩ => exact (lhs3_1 _ _).trans hk)
  have er : dot_S512x128_S128x64_S512x64_1_0_0_1_n_n.rhsIdx (ix2 g j) ((contrEquiv1 dot_S512x128_S128x64_S512x64_1_0_0_1_n_n 128 rfl rfl).symm k) = ix2 k j := funext fun a => Fin.ext (by
    match a with
    | ⟨0, _⟩ => exact (rhs3_0 _ _).trans hk
    | ⟨1, _⟩ => exact rhs3_1 _ _)
  rw [el, er]

theorem k3_pay1_apply (v0 : FVec Ideal S512x128 .f32) (v3 : FVec Ideal S128x64 .f32) (v6 : FVec Ideal S1x64 .f32) (g : Fin 512) (j : Fin 64) :
    k3_pay1 v0 v3 v6 (ix2 g j) = (∑ k : Fin 128, v0 (ix2 g k) * v3 (ix2 k j)) + v6 (ix2 0 j) := by
  unfold k3_pay1
  refine (addf_apply _ _ _).trans ?_
  congr 1
  · refine (mm3_apply _ _ g j).trans ?_
    refine Finset.sum_congr rfl fun k _ => ?_
    rw [truncf_apply, truncf_apply, shapeCast_self]
  · refine (broadcastTo_apply _ _ (ix2 g j) (ix2 0 j) ?_).trans ?_
    · intro a
      match a with
      | ⟨0, _⟩ => rfl
      | ⟨1, _⟩ => rfl
    · rw [shapeCast_self]

/-! ## Region 2: sixteen row blocks added into one running sum -/

/-! the pooling product's operand indices: both operands are contracted along their rows -/
theorem lhs2_0 (i : S512x128.Idx) (q : dot_S3128x512_S3128x128_S512x128_0_0_1_1_n_n.contr.Idx) :
    (dot_S3128x512_S3128x128_S512x128_0_0_1_1_n_n.lhsIdx i q 0).val = (q ⟨0, by decide⟩).val :=
  dot_S3128x512_S3128x128_S512x128_0_0_1_1_n_n.lhsIdx_val_of_single rfl i q
theorem lhs2_1 (i : S512x128.Idx) (q : dot_S3128x512_S3128x128_S512x128_0_0_1_1_n_n.contr.Idx) :
    (dot_S3128x512_S3128x128_S512x128_0_0_1_1_n_n.lhsIdx i q 1).val = (i 0).val := by
  unfold DotDims.lhsIdx
  rw [dif_neg (show ¬(1 : Fin S3128x512.rank) ∈ dot_S3128x512_S3128x128_S512x128_0_0_1_1_n_n.lhsBatch by decide), dif_pos (show (1 : Fin S3128x512.rank) ∈ dot_S3128x512_S3128x128_S512x128_0_0_1_1_n_n.lhsNonContracting by decide)]
  rfl
theorem rhs2_0 (i : S512x128.Idx) (q : dot_S3128x512_S3128x128_S512x128_0_0_1_1_n_n.contr.Idx) :
    (dot_S3128x512_S3128x128_S512x128_0_0_1_1_n_n.rhsIdx i q 0).val = (q ⟨0, by decide⟩).val :=
  dot_S3128x512_S3128x128_S512x128_0_0_1_1_n_n.rhsIdx_val_of_single rfl i q
theorem rhs2_1 (i : S512x128.Idx) (q : dot_S3128x512_S3128x128_S512x128_0_0_1_1_n_n.contr.Idx) :
    (dot_S3128x512_S3128x128_S512x128_0_0_1_1_n_n.rhsIdx i q 1).val = (i 1).val := by
  unfold DotDims.rhsIdx
  rw [dif_neg (show ¬(1 : Fin S3128x128.rank) ∈ dot_S3128x512_S3128x128_S512x128_0_0_1_1_n_n.rhsBatch by decide), dif_pos (show (1 : Fin S3128x128.rank) ∈ dot_S3128x512_S3128x128_S512x128_0_0_1_1_n_n.rhsNonContracting by decide)]
  rfl

theorem mm2_apply {φ₁ φ₂ : FTy} (A : FVec Ideal S3128x512 φ₁) (B : FVec Ideal S3128x128 φ₂) (g : Fin 512) (j : Fin 128) :
    matmul dot_S3128x512_S3128x128_S512x128_0_0_1_1_n_n none A B (constant (F := Ideal) S512x128 .f32 0x00000000#32) (ix2 g j)
      = ∑ k : Fin 3128, A (ix2 k g) * B (ix2 k j) := by
  refine (Ideal.matmul_constant_zero_apply _ none A B (ix2 g j)).trans ?_
  rw [← Equiv.sum_comp (contrEquiv1 dot_S3128x512_S3128x128_S512x128_0_0_1_1_n_n 3128 rfl rfl).symm]
  refine Finset.sum_congr rfl fun k _ => ?_
  have hk := contrEquiv1_symm_val dot_S3128x512_S3128x128_S512x128_0_0_1_1_n_n 3128 rfl rfl k
  have el : dot_S3128x512_S3128x128_S512x128_0_0_1_1_n_n.lhsIdx (ix2 g j) ((contrEquiv1 dot_S3128x512_S3128x128_S512x128_0_0_1_1_n_n 3128 rfl rfl).symm k) = ix2 k g := funext fun a => Fin.ext (by
    match a with
    | ⟨0, _⟩ => exact (lhs2_0 _ _).trans hk
    | ⟨1, _⟩ => exact lhs2_1 _ _)
  have er : dot_S3128x512_S3128x128_S512x128_0_0_1_1_n_n.rhsIdx (ix2 g j) ((contrEquiv1 dot_S3128x512_S3128x128_S512x128_0_0_1_1_n_n 3128 rfl rfl).symm k) = ix2 k j := funext fun a => Fin.ext (by
    match a with
    | ⟨0, _⟩ => exact (rhs2_0 _ _).trans hk
    | ⟨1, _⟩ => exact rhs2_1 _ _)
  rw [el, er]

/-- Comparing two words for equality, widening the bit and reading it as a number gives one or zero. -/
theorem onehot_entry (x y : BitVec 32) :
    (FloatOps.sitofp (F := Ideal) .f32 ((IntOp.cmpi .eq x y).setWidth 32) : EReal) = if x = y then 1 else 0 := by
  by_cases h : x = y
  · subst h
    rw [if_pos rfl]
    show (((((IntOp.cmpi .eq x x).setWidth 32).toInt : ℝ)) : EReal) = 1
    have : (IntOp.cmpi .eq x x).setWidth 32 = 1#32 := by
      unfold IntOp.cmpi; simp
    rw [this]; norm_num
  · rw [if_neg h]
    show (((((IntOp.cmpi .eq x y).setWidth 32).toInt : ℝ)) : EReal) = 0
    have : (IntOp.cmpi .eq x y).setWidth 32 = 0#32 := by
      unfold IntOp.cmpi
      rw [show (x == y) = false from beq_eq_false_iff_ne.mpr h]
      rfl
    rw [this]; norm_num

/-- A column broadcast along the rows reads the column's entry of the same row. -/
theorem bcast_col_apply (ids : IVec S3128x1 32) (h : S3128x1.Broadcasts S3128x512) (q : Fin 3128) (g : Fin 512) :
    broadcastTo S3128x512 ids h (ix2 q g) = ids (ix2 q 0) := by
  refine broadcastTo_apply _ _ (ix2 q g) (ix2 q 0) ?_
  intro a
  match a with
  | ⟨0, _⟩ => rfl
  | ⟨1, _⟩ => rfl

/-- The cleared scratch block is zero everywhere. -/
theorem k2_pay1_apply (i : S512x128.Idx) : k2_pay1 (F := Ideal) i = 0 := by
  unfold k2_pay1
  refine (congrFun (shapeCast_self _ _) i).trans ?_
  exact Ideal.ofBits_zero_f32

/-- One point of the pooling body, entry by entry: the running sum plus, over the block's rows, the row's entry where the
    row's graph id is the output row's number. -/
theorem k2_pay2_apply (ids : IVec S3128x1 32) (rows : FVec Ideal S3128x128 .f32) (acc : FVec Ideal S512x128 .f32)
    (g : Fin 512) (j : Fin 128) :
    k2_pay2 (F := Ideal) ids rows acc (ix2 g j)
      = acc (ix2 g j) + ∑ q : Fin 3128, (if ids (ix2 q 0) = BitVec.ofNat 32 g.val then (1 : EReal) else 0) * rows (ix2 q j) := by
  unfold k2_pay2
  refine (congrFun (shapeCast_self _ _) (ix2 g j)).trans ?_
  refine (addf_apply _ _ _).trans ?_
  congr 1
  refine (mm2_apply _ _ g j).trans ?_
  refine Finset.sum_congr rfl fun q _ => ?_
  congr 1
  · show FloatOps.sitofp (F := Ideal) .f32 ((IntOp.cmpi .eq (broadcastTo S3128x512 (shapeCast S3128x1 ids _) _ (ix2 q g)) (iota .tc S3128x512 32 [1] _ (ix2 q g))).setWidth 32) = _
    rw [bcast_col_apply, shapeCast_self, iota_single_apply, onehot_entry]
  · rw [truncf_apply, shapeCast_self]

/-- A sum over the indices below `K + B` is the sum over those below `K` plus the sum over the next `B`. -/
theorem sum_lt_add_block {M : Type*} [AddCommMonoid M] {N : ℕ} (K B : ℕ) (h : K + B ≤ N) (f : Fin N → M) :
    ∑ r ∈ Finset.univ.filter (fun r : Fin N => r.val < K + B), f r
      = (∑ r ∈ Finset.univ.filter (fun r : Fin N => r.val < K), f r)
        + ∑ q : Fin B, f ⟨K + q.val, by have := q.isLt; omega⟩ := by
  classical
  let e : Fin B ↪ Fin N := ⟨fun q => ⟨K + q.val, by have := q.isLt; omega⟩, fun a b hab => by
    have h1 : K + a.val = K + b.val := congrArg Fin.val hab
    exact Fin.ext (by omega)⟩
  have hsplit : Finset.univ.filter (fun r : Fin N => r.val < K + B)
      = Finset.univ.filter (fun r : Fin N => r.val < K) ∪ Finset.univ.map e := by
    ext r
    simp only [Finset.mem_filter, Finset.mem_univ, true_and, Finset.mem_union, Finset.mem_map]
    constructor
    · intro hr
      by_cases hk : r.val < K
      · exact Or.inl hk
      · exact Or.inr ⟨⟨r.val - K, by omega⟩, Fin.ext (by show K + (r.val - K) = r.val; omega)⟩
    · rintro (hr | ⟨q, rfl⟩)
      · omega
      · show K + q.val < K + B
        have := q.isLt; omega
  have hdisj : Disjoint (Finset.univ.filter (fun r : Fin N => r.val < K)) (Finset.univ.map e) := by
    rw [Finset.disjoint_left]
    intro r hr hr'
    simp only [Finset.mem_filter, Finset.mem_univ, true_and] at hr
    obtain ⟨q, -, rfl⟩ := Finset.mem_map.mp hr'
    have : K + q.val < K := hr
    omega
  rw [hsplit, Finset.sum_union hdisj, Finset.sum_map]
  rfl

theorem idx2_facts : ∀ t : Fin cfg2.N, win2_0.index t (0 : Fin 2) = t.val ∧ win2_0.index t (1 : Fin 2) = 0
    ∧ win2_1.index t (0 : Fin 2) = t.val ∧ win2_1.index t (1 : Fin 2) = 0 ∧ (∀ a, win2_2.index t a = 0) :=
  (by decide +kernel : ∀ t : Fin grid2.N, _)

theorem row_lt (t : Fin cfg2.N) (q : Fin 3128) : 3128 * t.val + q.val < 50048 := by
  have hN : cfg2.N = 16 := N_2
  have := t.isLt
  have := q.isLt
  omega

/-- Row `q` of the block of rows fetched at point `t` is row `3128 t + q` of the array. -/
theorem iblk2_0_apply (c : Dev nD) (t : Fin cfg2.N) (q : Fin 3128) (j : Fin 128) :
    iblk2 V c 0 t (ix2 q j) = (V c main_v76 : FVec Ideal S50048x128 .f32) (ix2 ⟨3128 * t.val + q.val, row_lt t q⟩ j) := by
  have hi := idx2_facts t
  unfold iblk2
  rw [View.read_apply]
  show V c main_v76 _ = V c main_v76 _
  congr 1
  funext a
  apply Fin.ext
  match a with
  | ⟨0, _⟩ => show win2_0.index t 0 * 3128 + 1 * q.val = 3128 * t.val + q.val; rw [hi.1]; omega
  | ⟨1, _⟩ => show win2_0.index t 1 * 128 + 1 * j.val = j.val; rw [hi.2.1]; omega

/-- and the same of the column of graph ids. -/
theorem iblk2_1_apply (c : Dev nD) (t : Fin cfg2.N) (q : Fin 3128) :
    iblk2 V c 1 t (ix2 q 0) = (V c main_v78 : IVec S50048x1 32) (ix2 ⟨3128 * t.val + q.val, row_lt t q⟩ 0) := by
  have hi := idx2_facts t
  unfold iblk2
  rw [View.read_apply]
  show V c main_v78 _ = V c main_v78 _
  congr 1
  funext a
  apply Fin.ext
  match a with
  | ⟨0, _⟩ => show win2_1.index t 0 * 3128 + 1 * q.val = 3128 * t.val + q.val; rw [hi.2.2.1]; omega
  | ⟨1, _⟩ => show win2_1.index t 1 * 1 + 1 * 0 = 0; rw [hi.2.2.2.1]

/-- Row `r`'s share of entry (g, j) of the pooled sums: the row's entry if the row's graph id is `g`, else nothing. -/
abbrev share (c : Dev nD) (g : Fin 512) (j : Fin 128) (r : Fin 50048) : EReal :=
  (if r2_id V c (ix2 r 0) = BitVec.ofNat 32 g.val then (1 : EReal) else 0) * r2_in V c (ix2 r j)

/-- One point of the pooling body on the blocks fetched at point `t`: the running sum plus the shares of the block's rows. -/
theorem point2_apply (c : Dev nD) (t : Fin cfg2.N) (acc : FVec Ideal S512x128 .f32) (g : Fin 512) (j : Fin 128) :
    k2_pay2 (F := Ideal) (iblk2 V c 1 t) (iblk2 V c 0 t) acc (ix2 g j)
      = acc (ix2 g j) + ∑ q : Fin 3128, share V c g j ⟨3128 * t.val + q.val, row_lt t q⟩ := by
  refine (k2_pay2_apply _ _ _ g j).trans ?_
  congr 1
  refine Finset.sum_congr rfl fun q _ => ?_
  rw [iblk2_1_apply, iblk2_0_apply]

/-- The shares of the rows below block `n` plus those of block `n`'s rows are the shares of the rows below block `n + 1`. -/
theorem acc_step (c : Dev nD) (g : Fin 512) (j : Fin 128) (n : ℕ) (hn : n < cfg2.N) :
    (∑ r ∈ Finset.univ.filter (fun r : Fin 50048 => r.val < 3128 * n), share V c g j r)
        + ∑ q : Fin 3128, share V c g j ⟨3128 * (⟨n, hn⟩ : Fin cfg2.N).val + q.val, row_lt ⟨n, hn⟩ q⟩
      = ∑ r ∈ Finset.univ.filter (fun r : Fin 50048 => r.val < 3128 * (n + 1)), share V c g j r := by
  have hN : cfg2.N = 16 := N_2
  have h := sum_lt_add_block (N := 50048) (3128 * n) 3128 (by omega) (share V c g j)
  rw [show 3128 * (n + 1) = 3128 * n + 3128 from Nat.mul_succ 3128 n]
  exact h.symm

/-- THE RUNNING SUM after point `n`: the shares of all rows of blocks 0 to `n`. By induction on the point. -/
theorem acc2_apply (c : Dev nD) (g : Fin 512) (j : Fin 128) : ∀ (n : ℕ) (hn : n < cfg2.N),
    acc2 (F := Ideal) V c n hn (ix2 g j)
      = ∑ r ∈ Finset.univ.filter (fun r : Fin 50048 => r.val < 3128 * (n + 1)), share V c g j r
  | 0, hn => by
    show k2_pay2 (F := Ideal) (iblk2 V c 1 ⟨0, hn⟩) (iblk2 V c 0 ⟨0, hn⟩) (k2_pay1 (F := Ideal)) (ix2 g j) = _
    rw [point2_apply, k2_pay1_apply, zero_add, ← acc_step V c g j 0 hn]
    have hempty : Finset.univ.filter (fun r : Fin 50048 => r.val < 3128 * 0) = ∅ := by
      ext r; simp
    rw [hempty, Finset.sum_empty, zero_add]
  | n + 1, hn => by
    show k2_pay2 (F := Ideal) (iblk2 V c 1 ⟨n + 1, hn⟩) (iblk2 V c 0 ⟨n + 1, hn⟩) (acc2 V c n _) (ix2 g j) = _
    rw [point2_apply, acc2_apply c g j n _, acc_step V c g j (n + 1) hn]

theorem last2 : 15 < cfg2.N := by rw [show cfg2.N = 16 from N_2]; decide

/-- The one write-back, at the last point, writes the whole array: it ends at the running sum after point 15. -/
theorem r2_out_eq (c : Dev nD) : r2_out V c = acc2 (F := Ideal) V c 15 last2 := by
  refine (dat2 (F := Ideal) V c).arrAt_eq_of_cover 2 _ (fun t hf => ?_) (fun i => ?_)
  · have hN : cfg2.N = 16 := N_2
    have h15 : t.val = 15 := by have := (flush2_2 t).mp hf; have := t.isLt; omega
    obtain rfl : t = ⟨15, last2⟩ := Fin.ext h15
    show acc2 (F := Ideal) V c 15 _ = _
    have hz' : (fun a => win2_2.index ⟨15, last2⟩ a * main_v79.ty.shape.size a) = fun _ => 0 :=
      funext fun a => by rw [(idx2_facts _).2.2.2.2 a, Nat.zero_mul]
    exact (Memref.read_access_unit_zero (Elt Ideal) main_v79 hz' (fun a => by rw [congrFun hz' a]; simp) _).symm
  · refine ⟨⟨15, last2⟩, (flush2_2 _).mpr rfl, ?_⟩
    generalize (⟨15, last2⟩ : Fin cfg2.N) = t
    show i ∈ ((View.whole main_v79).slice (win2_2.rect t)).set
    rw [View.set_slice_whole, Rect.mem_set_unit]
    intro a
    have h0 : (i 0 : Nat) < 512 := (i 0).isLt
    have h1 : (i 1 : Nat) < 128 := (i 1).isLt
    match a with
    | ⟨0, _⟩ =>
      show win2_2.index t 0 * 512 ≤ (i 0 : Nat) ∧ (i 0 : Nat) < win2_2.index t 0 * 512 + 512
      rw [(idx2_facts t).2.2.2.2 0]; omega
    | ⟨1, _⟩ =>
      show win2_2.index t 1 * 128 ≤ (i 1 : Nat) ∧ (i 1 : Nat) < win2_2.index t 1 * 128 + 128
      rw [(idx2_facts t).2.2.2.2 1]; omega

end Val23

/-- Region 2's output: per graph `g`, the sum of the rows whose graph id is `g`. -/
theorem arr2_apply (c : Dev nD) (g : Fin 512) (j : Fin 128) :
    r2_out V c (ix2 g j)
      = ∑ n : Fin 50048, (if r2_id V c (ix2 n 0) = BitVec.ofNat 32 g.val then (1 : EReal) else 0) * r2_in V c (ix2 n j) := by
  refine (congrFun (Val23.r2_out_eq V c) (ix2 g j)).trans ?_
  refine (Val23.acc2_apply V c g j 15 Val23.last2).trans ?_
  refine Finset.sum_congr ?_ fun _ _ => rfl
  exact Finset.filter_true_of_mem fun r _ => by have := r.isLt; omega

/-- Region 3's output: the pooled rows times the last weight matrix, plus the bias row. -/
theorem arr3_apply (c : Dev nD) (g : Fin 512) (j : Fin 64) :
    r3_out V c (ix2 g j) = (∑ k : Fin 128, r3_in V c (ix2 g k) * r3_w V c (ix2 k j)) + r3_b V c (ix2 0 j) :=
  (congrFun (Val23.r3_out_eq V c) (ix2 g j)).trans (Val23.k3_pay1_apply _ _ _ g j)

end Cert.KernelIdeal.Hand

end
-- ==== Proof.LibIndexing.lean ====
/-
  READING A GATHER AND A SCATTER-ADD AT AN INDEX, at any extents.

  A row gather `x[idx]` of a table `[N, D]` and a vector gather of `[N]`, both at a column of start indices `[E, 1]`:
  the result's element is the operand's at the start index read as a signed integer and clamped into `[0, N − 1]`
  (`gather_rows_apply`, `gather_vec_apply`). A row scatter-add into `[N, D]` and a vector scatter-add into `[N]`, at a
  column of scatter indices `[E, 1]`, over the extended reals: the result's element is the operand's plus the sum of
  the updates whose scatter index, read signed and not clamped, is that element's row
  (`scatterAdd_rows_apply`, `scatterAdd_vec_apply`); an update whose index is outside `[0, N)` lands nowhere.
-/
import Idealize.ShloMosaic.Lib.ValueIdx
import Idealize.ShloMosaic.Lib.ValueIdxRank1

noncomputable section

open scoped BigOperators

namespace Cert.LibIndexing

open Idealize.ShloMosaic Idealize.ShloMosaic.ValueIdx

/-! ## A row gather: `x[idx]` of a table `x : [N, D]` at a column of start indices `idx : [E, 1]`

Result element `(e, j)` is the table's row at the start index `idx[e, 0]`, read as a signed integer and clamped into
`[0, N − 1]`, at column `j`. -/

section Gather
variable {α : Type}

/-- The dimension numbers of a row gather: operand `[N, D]`, start indices `[E, 1]`, result `[E, D]`; the result's
    axis 1 is the offset axis, the operand's axis 0 is collapsed and is the one the start index names, whole rows
    `[1, D]` are sliced. -/
abbrev rowGatherDims (N D E : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- THE ROW GATHER READ AT `(e, j)`: the table at row `idx[e, 0]` (signed, clamped into `[0, N − 1]`) and column `j`. -/
theorem gather_rows_apply {N D E w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (j : Fin D) :
    Host.gather (rowGatherDims N D E wf) x idx (ix2 e j)
      = x (ix2 ⟨min (idx (ix2 e 0)).toInt.toNat (N - 1), by omega⟩ j) := by
  unfold Host.gather
  congr 1
  funext a
  refine Fin.ext ?_
  match a with
  | ⟨0, _⟩ =>
    show (rowGatherDims N D E wf).start (ix2 e j) idx 0 + (rowGatherDims N D E wf).batchCoord (ix2 e j) 0
        + (rowGatherDims N D E wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N D E wf).startIndexMap from List.mem_singleton.mpr rfl)]
    have hsi : (rowGatherDims N D E wf).siIdx (ix2 e j) ⟨List.idxOf (0 : Fin 2) (rowGatherDims N D E wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGatherDims N D E wf).start (ix2 e j) idx 1 + (rowGatherDims N D E wf).batchCoord (ix2 e j) 1
        + (rowGatherDims N D E wf).offCoord (ix2 e j) 1 = _
    rw [GatherDims.batchCoord_eq_zero _ _ _ List.not_mem_nil]
    unfold GatherDims.start
    rw [dif_neg (show (1 : Fin 2) ∉ (rowGatherDims N D E wf).startIndexMap from
      fun h => absurd (congrArg Fin.val (List.mem_singleton.mp h)) Nat.one_ne_zero)]
    simp only [Nat.add_zero, Nat.zero_add]
    rfl

/-! ## A vector gather: `x[idx]` of a vector `x : [N]` at a column of start indices `idx : [E, 1]` -/

/-- The dimension numbers of a vector gather: operand `[N]`, start indices `[E, 1]`, result `[E]`; no offset axis, the
    operand's one axis is collapsed and is the one the start index names, single elements `[1]` are sliced. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE VECTOR GATHER READ AT `e`: the vector at `idx[e, 0]` (signed, clamped into `[0, N − 1]`). -/
theorem gather_vec_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e)
      = x (ix1 ⟨min (idx (ix2 e 0)).toInt.toNat (N - 1), by omega⟩) := by
  unfold Host.gather
  congr 1
  funext a
  obtain rfl : a = 0 := Subsingleton.elim _ _
  refine Fin.ext ?_
  show (vecGatherDims N E wf).start (ix1 e) idx 0 + (vecGatherDims N E wf).batchCoord (ix1 e) 0
      + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

end Gather

/-! ## A row scatter-add: `x.at[idx].add(upd)` of a table `x : [N, D]`, a column of scatter indices `idx : [E, 1]` and
update rows `upd : [E, D]`, at the exact instance

Update element `(e, j)` lands at row `idx[e, 0]` (read signed, not clamped) and column `j`, and is dropped when that row is
outside `[0, N)`. So element `(n, j)` of the result is `x (n, j)` plus the sum of `upd (e, j)` over the `e` whose index is `n`. -/

section ScatterRows
variable {N D E w : Nat}

/-- The dimension numbers of a row scatter: operand `[N, D]`, scatter indices `[E, 1]`, updates `[E, D]`; the updates'
    axis 1 is the window axis, the operand's axis 0 is inserted and is the one the scatter index names. -/
abbrev rowScatterDims (N D E : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

variable (wf : ScatterDims.WF ⟨2, ![N, D]⟩ ⟨2, ![E, 1]⟩ ⟨2, ![E, D]⟩ [1] [0] [0] 1) (idx : IVec ⟨2, ![E, 1]⟩ w)

/-- On the operand's row axis the window starts at the scatter index, read signed. -/
theorem rowScatter_start0 (e : Fin E) (j : Fin D) :
    (rowScatterDims N D E wf).start (ix2 e j) idx 0 = (idx (ix2 e 0)).toInt := by
  unfold ScatterDims.start
  rw [dif_pos (show (0 : Fin 2) ∈ (rowScatterDims N D E wf).scatterDimsToOperandDims from List.mem_singleton.mpr rfl)]
  have hsi : (rowScatterDims N D E wf).siIdx (ix2 e j)
      ⟨List.idxOf (0 : Fin 2) (rowScatterDims N D E wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- On the operand's column axis the window starts at `0`. -/
theorem rowScatter_start1 (e : Fin E) (j : Fin D) : (rowScatterDims N D E wf).start (ix2 e j) idx 1 = 0 := by
  unfold ScatterDims.start
  rw [dif_neg (show (1 : Fin 2) ∉ (rowScatterDims N D E wf).scatterDimsToOperandDims from
    fun h => absurd (congrArg Fin.val (List.mem_singleton.mp h)) Nat.one_ne_zero)]

/-- The operand's axes that are not inserted: the column axis alone. -/
theorem rowScatter_sKept : (rowScatterDims N D E wf).sKept = [1] := rfl

/-- The row axis is inserted: no window coordinate there. -/
theorem rowScatter_window0 (e : Fin E) (j : Fin D) : (rowScatterDims N D E wf).window (ix2 e j) 0 = 0 := by
  unfold ScatterDims.window
  rw [dif_neg (show (0 : Fin 2) ∉ (rowScatterDims N D E wf).sKept from by
    rw [rowScatter_sKept]; exact fun h => absurd (congrArg Fin.val (List.mem_singleton.mp h)) Nat.zero_ne_one)]

/-- On the column axis the window coordinate is the update's column. -/
theorem rowScatter_window1 (e : Fin E) (j : Fin D) : (rowScatterDims N D E wf).window (ix2 e j) 1 = j.val := by
  unfold ScatterDims.window
  rw [dif_pos (show (1 : Fin 2) ∈ (rowScatterDims N D E wf).sKept from by
    rw [rowScatter_sKept]; exact List.mem_singleton.mpr rfl)]
  rfl

/-- WHERE AN UPDATE LANDS: update element `(e, j')` lands on operand element `(n, j)` exactly when the scatter index
    `idx[e, 0]`, read signed, is `n` and the columns agree. -/
theorem rowScatter_resultIdx?_eq_some (e : Fin E) (j' : Fin D) (n : Fin N) (j : Fin D) :
    (rowScatterDims N D E wf).resultIdx? (ix2 e j') idx = some (ix2 n j)
      ↔ (idx (ix2 e 0)).toInt = (n.val : Int) ∧ j' = j := by
  have hs0 := rowScatter_start0 wf idx e j'
  have hs1 := rowScatter_start1 wf idx e j'
  have hw0 := rowScatter_window0 wf e j'
  have hw1 := rowScatter_window1 wf e j'
  unfold ScatterDims.resultIdx?
  split
  · rename_i h
    rw [Option.some.injEq]
    constructor
    · intro heq
      have h0 : ((rowScatterDims N D E wf).start (ix2 e j') idx 0 + ((rowScatterDims N D E wf).window (ix2 e j') 0 : Nat)).toNat
          = n.val := congrArg (fun i : (⟨2, ![N, D]⟩ : Shape).Idx => (i 0).val) heq
      have h1 : ((rowScatterDims N D E wf).start (ix2 e j') idx 1 + ((rowScatterDims N D E wf).window (ix2 e j') 1 : Nat)).toNat
          = j.val := congrArg (fun i : (⟨2, ![N, D]⟩ : Shape).Idx => (i 1).val) heq
      have hh := (h 0).1
      rw [hs0, hw0] at h0 hh
      rw [hs1, hw1] at h1
      refine ⟨by omega, Fin.ext (by omega)⟩
    · rintro ⟨ht, rfl⟩
      funext a; refine Fin.ext ?_
      match a with
      | ⟨0, _⟩ =>
        show ((rowScatterDims N D E wf).start (ix2 e j') idx 0 + ((rowScatterDims N D E wf).window (ix2 e j') 0 : Nat)).toNat = n.val
        rw [hs0, hw0]; omega
      | ⟨1, _⟩ =>
        show ((rowScatterDims N D E wf).start (ix2 e j') idx 1 + ((rowScatterDims N D E wf).window (ix2 e j') 1 : Nat)).toNat = j'.val
        rw [hs1, hw1]; omega
  · rename_i h
    refine iff_of_false (fun hc => Option.some_ne_none _ hc.symm) ?_
    rintro ⟨ht, rfl⟩
    refine h fun a => ?_
    match a with
    | ⟨0, _⟩ =>
      show 0 ≤ (rowScatterDims N D E wf).start (ix2 e j') idx 0 + ((rowScatterDims N D E wf).window (ix2 e j') 0 : Nat)
        ∧ (rowScatterDims N D E wf).start (ix2 e j') idx 0 + ((rowScatterDims N D E wf).window (ix2 e j') 0 : Nat) < (N : Int)
      rw [hs0, hw0]; have := n.isLt; omega
    | ⟨1, _⟩ =>
      show 0 ≤ (rowScatterDims N D E wf).start (ix2 e j') idx 1 + ((rowScatterDims N D E wf).window (ix2 e j') 1 : Nat)
        ∧ (rowScatterDims N D E wf).start (ix2 e j') idx 1 + ((rowScatterDims N D E wf).window (ix2 e j') 1 : Nat) < (D : Int)
      rw [hs1, hw1]; have := j'.isLt; omega

/-- THE ROW SCATTER-ADD READ AT `(n, j)`: the operand's element plus the sum of the updates `upd (e, j)` over the `e`
    whose scatter index `idx[e, 0]`, read signed, is `n`. -/
theorem scatterAdd_rows_apply {φ : FTy} (x : FVec Ideal ⟨2, ![N, D]⟩ φ) (upd : FVec Ideal ⟨2, ![E, D]⟩ φ)
    (n : Fin N) (j : Fin D) :
    Host.scatterAdd (rowScatterDims N D E wf) x idx upd (ix2 n j)
      = x (ix2 n j) + ∑ e ∈ Finset.univ.filter (fun e : Fin E => (idx (ix2 e 0)).toInt = (n.val : Int)), upd (ix2 e j) := by
  show x (ix2 n j) + ∑ i ∈ Finset.univ.filter
      (fun i => (rowScatterDims N D E wf).resultIdx? i idx = some (ix2 n j)), upd i = _
  congr 1
  rw [Finset.sum_filter, sum_idx2, Finset.sum_filter]
  refine Finset.sum_congr rfl fun e _ => ?_
  simp only [rowScatter_resultIdx?_eq_some]
  by_cases ht : (idx (ix2 e 0)).toInt = (n.val : Int)
  · simp only [ht, true_and, if_true]
    rw [Finset.sum_ite_eq' Finset.univ j (fun b => upd (ix2 e b))]
    simp
  · simp only [ht, false_and, if_false, Finset.sum_const_zero]

end ScatterRows

/-! ## A vector scatter-add: `x.at[idx].add(upd)` of a vector `x : [N]`, a column of scatter indices `idx : [E, 1]` and
updates `upd : [E]`, at the exact instance -/

section ScatterVec
variable {N E w : Nat}

/-- A sum over a rank-1 shape's indices is the sum over the coordinate. -/
theorem sum_idx1 {M : Type*} [AddCommMonoid M] {n : Nat} (f : (⟨1, ![n]⟩ : Shape).Idx → M) :
    ∑ i, f i = ∑ a : Fin n, f (ix1 a) :=
  (Equiv.sum_comp (idxEquiv1 (n := n)).symm f).symm

/-- The dimension numbers of a vector scatter: operand `[N]`, scatter indices `[E, 1]`, updates `[E]`; no window axis,
    the operand's one axis is inserted and is the one the scatter index names. -/
abbrev vecScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable (wf : ScatterDims.WF ⟨1, ![N]⟩ ⟨2, ![E, 1]⟩ ⟨1, ![E]⟩ [] [0] [0] 1) (idx : IVec ⟨2, ![E, 1]⟩ w)

/-- On the operand's one axis the window starts at the scatter index, read signed. -/
theorem vecScatter_start0 (e : Fin E) :
    (vecScatterDims N E wf).start (ix1 e) idx 0 = (idx (ix2 e 0)).toInt := by
  unfold ScatterDims.start
  rw [dif_pos (show (0 : Fin 1) ∈ (vecScatterDims N E wf).scatterDimsToOperandDims from List.mem_singleton.mpr rfl)]
  have hsi : (vecScatterDims N E wf).siIdx (ix1 e)
      ⟨List.idxOf (0 : Fin 1) (vecScatterDims N E wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- The operand's one axis is inserted: none is kept. -/
theorem vecScatter_sKept : (vecScatterDims N E wf).sKept = [] := rfl

/-- No window coordinate on the inserted axis. -/
theorem vecScatter_window0 (e : Fin E) : (vecScatterDims N E wf).window (ix1 e) 0 = 0 := by
  unfold ScatterDims.window
  rw [dif_neg (show (0 : Fin 1) ∉ (vecScatterDims N E wf).sKept from by
    rw [vecScatter_sKept]; exact List.not_mem_nil)]

/-- WHERE AN UPDATE LANDS: update element `e` lands on operand element `n` exactly when the scatter index `idx[e, 0]`,
    read signed, is `n`. -/
theorem vecScatter_resultIdx?_eq_some (e : Fin E) (n : Fin N) :
    (vecScatterDims N E wf).resultIdx? (ix1 e) idx = some (ix1 n) ↔ (idx (ix2 e 0)).toInt = (n.val : Int) := by
  have hs0 := vecScatter_start0 wf idx e
  have hw0 := vecScatter_window0 wf e
  unfold ScatterDims.resultIdx?
  split
  · rename_i h
    rw [Option.some.injEq]
    constructor
    · intro heq
      have h0 : ((vecScatterDims N E wf).start (ix1 e) idx 0 + ((vecScatterDims N E wf).window (ix1 e) 0 : Nat)).toNat
          = n.val := congrArg (fun i : (⟨1, ![N]⟩ : Shape).Idx => (i 0).val) heq
      have hh := (h 0).1
      rw [hs0, hw0] at h0 hh
      omega
    · intro ht
      funext a; refine Fin.ext ?_
      match a with
      | ⟨0, _⟩ =>
        show ((vecScatterDims N E wf).start (ix1 e) idx 0 + ((vecScatterDims N E wf).window (ix1 e) 0 : Nat)).toNat = n.val
        rw [hs0, hw0]; omega
  · rename_i h
    refine iff_of_false (fun hc => Option.some_ne_none _ hc.symm) ?_
    intro ht
    refine h fun a => ?_
    match a with
    | ⟨0, _⟩ =>
      show 0 ≤ (vecScatterDims N E wf).start (ix1 e) idx 0 + ((vecScatterDims N E wf).window (ix1 e) 0 : Nat)
        ∧ (vecScatterDims N E wf).start (ix1 e) idx 0 + ((vecScatterDims N E wf).window (ix1 e) 0 : Nat) < (N : Int)
      rw [hs0, hw0]; have := n.isLt; omega

/-- THE VECTOR SCATTER-ADD READ AT `n`: the operand's element plus the sum of the updates `upd e` over the `e` whose
    scatter index `idx[e, 0]`, read signed, is `n`. -/
theorem scatterAdd_vec_apply {φ : FTy} (x : FVec Ideal ⟨1, ![N]⟩ φ) (upd : FVec Ideal ⟨1, ![E]⟩ φ) (n : Fin N) :
    Host.scatterAdd (vecScatterDims N E wf) x idx upd (ix1 n)
      = x (ix1 n) + ∑ e ∈ Finset.univ.filter (fun e : Fin E => (idx (ix2 e 0)).toInt = (n.val : Int)), upd (ix1 e) := by
  show x (ix1 n) + ∑ i ∈ Finset.univ.filter
      (fun i => (vecScatterDims N E wf).resultIdx? i idx = some (ix1 n)), upd i = _
  congr 1
  rw [Finset.sum_filter, sum_idx1, Finset.sum_filter]
  refine Finset.sum_congr rfl fun e _ => ?_
  simp only [vecScatter_resultIdx?_eq_some]

end ScatterVec

end Cert.LibIndexing

end
-- ==== Proof.LibConv.lean ====
/-
  ROWS BELOW N OF A GATHER-SCALE-SCATTER DO NOT DEPEND ON ROW PADDING.

  A table with NP ≥ N rows that agrees with an N-row table on the rows below N; the same start indices, all inside
  [0, N), gathered from both; the gathered rows scaled entry by entry by the same weights; the results scatter-added, at
  the same scatter indices, into two tables that agree on the rows below N. Then the two results agree on the rows below N:
  a gathered row never comes from the padding, and a row below N receives the same updates on both sides. Over the
  extended reals, at any extents.
-/
import proofs.«411454_j24300924961028_1_alg».proof.Proof.LibIndexing
import Idealize.ShloMosaic.PureOps.Ideal.Laws

noncomputable section

open scoped BigOperators

namespace Cert.LibConv

open Idealize.ShloMosaic Idealize.ShloMosaic.ValueIdx Cert.LibIndexing

/-- A row of the padded table below `N` is the same row of the unpadded one, whatever the proofs of the bounds. -/
theorem rows_agree {N NP D : Nat} (hNP : N ≤ NP)
    (hK : FVec Ideal ⟨2, ![NP, D]⟩ .f32) (hR : FVec Ideal ⟨2, ![N, D]⟩ .f32)
    (hag : ∀ (i : Fin N) (j : Fin D), hK (ix2 ⟨i.val, lt_of_lt_of_le i.isLt hNP⟩ j) = hR (ix2 i j))
    (a : Fin NP) (b : Fin N) (hab : a.val = b.val) (j : Fin D) : hK (ix2 a j) = hR (ix2 b j) := by
  have ha : a = ⟨b.val, lt_of_lt_of_le b.isLt hNP⟩ := Fin.ext hab
  rw [ha]
  exact hag b j

/-- THE GATHERED ROWS AGREE: a start index inside `[0, N)` is clamped by neither `NP − 1` nor `N − 1`, so both gathers
    read the row it names, and that row is below `N`. -/
theorem gather_agree {N NP D E : Nat} (hN : 0 < N) (hNP : N ≤ NP)
    (wfgK : GatherDims.WF ⟨2, ![NP, D]⟩ ⟨2, ![E, 1]⟩ ⟨2, ![E, D]⟩ [1] [0] [] [0] [] 1 ![1, D])
    (wfgR : GatherDims.WF ⟨2, ![N, D]⟩ ⟨2, ![E, 1]⟩ ⟨2, ![E, D]⟩ [1] [0] [] [0] [] 1 ![1, D])
    (hK : FVec Ideal ⟨2, ![NP, D]⟩ .f32) (hR : FVec Ideal ⟨2, ![N, D]⟩ .f32)
    (hag : ∀ (i : Fin N) (j : Fin D), hK (ix2 ⟨i.val, lt_of_lt_of_le i.isLt hNP⟩ j) = hR (ix2 i j))
    (sK sR : IVec ⟨2, ![E, 1]⟩ 32)
    (hs : ∀ e : Fin E, sK (ix2 e 0) = sR (ix2 e 0))
    (hsr : ∀ e : Fin E, 0 ≤ (sR (ix2 e 0)).toInt ∧ (sR (ix2 e 0)).toInt < (N : Int))
    (e : Fin E) (j : Fin D) :
    Host.gather (rowGatherDims NP D E wfgK) hK sK (ix2 e j) = Host.gather (rowGatherDims N D E wfgR) hR sR (ix2 e j) := by
  rw [gather_rows_apply (lt_of_lt_of_le hN hNP) wfgK hK sK e j, gather_rows_apply hN wfgR hR sR e j]
  obtain ⟨h0, h1⟩ := hsr e
  refine rows_agree hNP hK hR hag _ _ ?_ j
  show min (sK (ix2 e 0)).toInt.toNat (NP - 1) = min (sR (ix2 e 0)).toInt.toNat (N - 1)
  rw [hs e]
  omega

/-- THE AGREEMENT ON THE ROWS BELOW `N`. -/
theorem conv_agree {N NP D E : Nat} (hN : 0 < N) (hNP : N ≤ NP)
    (wfgK : GatherDims.WF ⟨2, ![NP, D]⟩ ⟨2, ![E, 1]⟩ ⟨2, ![E, D]⟩ [1] [0] [] [0] [] 1 ![1, D])
    (wfgR : GatherDims.WF ⟨2, ![N, D]⟩ ⟨2, ![E, 1]⟩ ⟨2, ![E, D]⟩ [1] [0] [] [0] [] 1 ![1, D])
    (wfsK : ScatterDims.WF ⟨2, ![NP, D]⟩ ⟨2, ![E, 1]⟩ ⟨2, ![E, D]⟩ [1] [0] [0] 1)
    (wfsR : ScatterDims.WF ⟨2, ![N, D]⟩ ⟨2, ![E, 1]⟩ ⟨2, ![E, D]⟩ [1] [0] [0] 1)
    (hK : FVec Ideal ⟨2, ![NP, D]⟩ .f32) (hR : FVec Ideal ⟨2, ![N, D]⟩ .f32)
    (hag : ∀ (i : Fin N) (j : Fin D), hK (ix2 ⟨i.val, lt_of_lt_of_le i.isLt hNP⟩ j) = hR (ix2 i j))
    (sK sR dK dR : IVec ⟨2, ![E, 1]⟩ 32)
    (hs : ∀ e : Fin E, sK (ix2 e 0) = sR (ix2 e 0))
    (hsr : ∀ e : Fin E, 0 ≤ (sR (ix2 e 0)).toInt ∧ (sR (ix2 e 0)).toInt < (N : Int))
    (hd : ∀ e : Fin E, dK (ix2 e 0) = dR (ix2 e 0))
    (wK wR : FVec Ideal ⟨2, ![E, D]⟩ .f32) (hw : ∀ (e : Fin E) (j : Fin D), wK (ix2 e j) = wR (ix2 e j))
    (zK : FVec Ideal ⟨2, ![NP, D]⟩ .f32) (zR : FVec Ideal ⟨2, ![N, D]⟩ .f32)
    (hz : ∀ (i : Fin N) (j : Fin D), zK (ix2 ⟨i.val, lt_of_lt_of_le i.isLt hNP⟩ j) = zR (ix2 i j))
    (n : Fin N) (j : Fin D) :
    Host.scatterAdd (rowScatterDims NP D E wfsK) zK dK (mulf (Host.gather (rowGatherDims NP D E wfgK) hK sK) wK)
        (ix2 ⟨n.val, lt_of_lt_of_le n.isLt hNP⟩ j)
      = Host.scatterAdd (rowScatterDims N D E wfsR) zR dR (mulf (Host.gather (rowGatherDims N D E wfgR) hR sR) wR) (ix2 n j) := by
  rw [scatterAdd_rows_apply wfsK dK zK _ ⟨n.val, lt_of_lt_of_le n.isLt hNP⟩ j,
    scatterAdd_rows_apply wfsR dR zR _ n j]
  -- the same rows receive an update: the scatter indices agree entry by entry
  have hfilt : (Finset.univ.filter
        (fun e : Fin E => (dK (ix2 e 0)).toInt = (((⟨n.val, lt_of_lt_of_le n.isLt hNP⟩ : Fin NP).val : Nat) : Int)))
      = Finset.univ.filter (fun e : Fin E => (dR (ix2 e 0)).toInt = (n.val : Int)) := by
    refine Finset.filter_congr fun e _ => ?_
    rw [hd e]
  rw [hfilt, hz n j]
  congr 1
  refine Finset.sum_congr rfl fun e _ => ?_
  rw [mulf_apply, mulf_apply, hw e j]
  congr 1
  exact gather_agree hN hNP wfgK wfgR hK hR hag sK sR hs hsr e j

end Cert.LibConv

end
-- ==== Proof.Br.Common.lean ====
/-
  What the three comparison modules share: the arguments and the compared arrays named at their literal types; the index
  ranges the precondition grants (every edge endpoint a node, every graph id non-negative); and the edge columns — the
  sources and destinations with the self-loops appended, and the symmetric normalisation weight of each edge — which the two
  programs compute by the same operations from the edge list alone.
-/
import proofs.«411454_j24300924961028_1_alg».proof.Proof.KI.Run
import proofs.«411454_j24300924961028_1_alg».proof.Proof.KI.Val01
import proofs.«411454_j24300924961028_1_alg».proof.Proof.KI.Val23
import proofs.«411454_j24300924961028_1_alg».proof.Proof.LibConv
import proofs.«411454_j24300924961028_1_alg».proof.Proof.RefSide
import proofs.«411454_j24300924961028_1_alg».proof.Defs
import Idealize.ShloMosaic.Lib.Pipeline.Value
import Idealize.ShloMosaic.Lib.ValueIdx
import Idealize.ShloMosaic.Lib.ValueIdxRank1
import Idealize.ShloMosaic.Lib.ValueLayout
import Idealize.ShloMosaic.Lib.ReduceAll
import Idealize.ShloMosaic.Lib.StableHlo.Run
import Idealize.ShloMosaic.Lib.StableHlo.Predicate
import Idealize.ShloMosaic.PureOps.Ideal.Laws

set_option maxRecDepth 16384

noncomputable section

open scoped BigOperators

namespace Cert.Bridge

open Idealize.ShloMosaic Idealize.ShloMosaic.TcCoe Idealize.ShloMosaic.ValueIdx Idealize.SL.Sem
open Cert.KernelIdeal.Hand

variable [hPre : Cert.Pre_finite_inputs.Facts]
variable (m : (ℓ : Loc Cert.KernelIdeal.nD Cert.KernelIdeal.τ Cert.KernelIdeal.sig) → Buf (Elt Ideal) ℓ)

/-- Core `c`'s argument 0 at launch: the node features. -/
abbrev X0 (c : Dev Cert.KernelIdeal.nD) : FVec Ideal Cert.ReferenceIdeal.S50000x64 .f32 := m ((c.tc : Thread Cert.KernelIdeal.nD Cert.KernelIdeal.τ).loc Cert.KernelIdeal.main_arg0)
/-- Core `c`'s argument 1 at launch: the edge list: row 0 the sources, row 1 the destinations. -/
abbrev X1 (c : Dev Cert.KernelIdeal.nD) : IVec Cert.ReferenceIdeal.S2x800000 32 := m ((c.tc : Thread Cert.KernelIdeal.nD Cert.KernelIdeal.τ).loc Cert.KernelIdeal.main_arg1)
/-- Core `c`'s argument 2 at launch: each node's graph id. -/
abbrev X2 (c : Dev Cert.KernelIdeal.nD) : IVec Cert.ReferenceIdeal.S50000 32 := m ((c.tc : Thread Cert.KernelIdeal.nD Cert.KernelIdeal.τ).loc Cert.KernelIdeal.main_arg2)
/-- Core `c`'s argument 3 at launch: the first layer's weights. -/
abbrev X3 (c : Dev Cert.KernelIdeal.nD) : FVec Ideal Cert.ReferenceIdeal.S64x64 .f32 := m ((c.tc : Thread Cert.KernelIdeal.nD Cert.KernelIdeal.τ).loc Cert.KernelIdeal.main_arg3)
/-- Core `c`'s argument 4 at launch: the first layer's bias. -/
abbrev X4 (c : Dev Cert.KernelIdeal.nD) : FVec Ideal Cert.ReferenceIdeal.S64 .f32 := m ((c.tc : Thread Cert.KernelIdeal.nD Cert.KernelIdeal.τ).loc Cert.KernelIdeal.main_arg4)
/-- Core `c`'s argument 5 at launch: the second layer's weights. -/
abbrev X5 (c : Dev Cert.KernelIdeal.nD) : FVec Ideal Cert.ReferenceIdeal.S64x128 .f32 := m ((c.tc : Thread Cert.KernelIdeal.nD Cert.KernelIdeal.τ).loc Cert.KernelIdeal.main_arg5)
/-- Core `c`'s argument 6 at launch: the second layer's bias. -/
abbrev X6 (c : Dev Cert.KernelIdeal.nD) : FVec Ideal Cert.ReferenceIdeal.S128 .f32 := m ((c.tc : Thread Cert.KernelIdeal.nD Cert.KernelIdeal.τ).loc Cert.KernelIdeal.main_arg6)
/-- Core `c`'s argument 7 at launch: the last layer's weights. -/
abbrev X7 (c : Dev Cert.KernelIdeal.nD) : FVec Ideal Cert.ReferenceIdeal.S128x64 .f32 := m ((c.tc : Thread Cert.KernelIdeal.nD Cert.KernelIdeal.τ).loc Cert.KernelIdeal.main_arg7)
/-- Core `c`'s argument 8 at launch: the last layer's bias. -/
abbrev X8 (c : Dev Cert.KernelIdeal.nD) : FVec Ideal Cert.ReferenceIdeal.S64 .f32 := m ((c.tc : Thread Cert.KernelIdeal.nD Cert.KernelIdeal.τ).loc Cert.KernelIdeal.main_arg8)

/-- Lift a node index into the padded range. -/
abbrev up (i : Fin 50000) : Fin 50048 := Fin.castLE (by decide) i

/-! ## The compared arrays -/

/-- The kernel program's first-layer output (before the positive part), padded to 50048 rows. -/
abbrev kH1 (c : Dev Cert.KernelIdeal.nD) : FVec Ideal Cert.KernelIdeal.S50048x64 .f32 := W4 m c (Proc.devRef .tc Cert.KernelIdeal.main_v54)
/-- The reference's first-layer output (before the positive part). -/
abbrev rH1 (c : Dev Cert.KernelIdeal.nD) : FVec Ideal Cert.ReferenceIdeal.S50000x64 .f32 := Cert.ReferenceIdeal.Read.val_main_v53 (F := Ideal) (X0 m c) (X1 m c) (X3 m c) (X4 m c)
/-- The kernel program's second-layer output, padded to 50048 rows. -/
abbrev kH2 (c : Dev Cert.KernelIdeal.nD) : FVec Ideal Cert.KernelIdeal.S50048x128 .f32 := W8 m c (Proc.devRef .tc Cert.KernelIdeal.main_v76)
/-- The reference's second-layer output. -/
abbrev rH2 (c : Dev Cert.KernelIdeal.nD) : FVec Ideal Cert.ReferenceIdeal.S50000x128 .f32 := Cert.ReferenceIdeal.Read.val_main_v76 (F := Ideal) (X0 m c) (X1 m c) (X3 m c) (X4 m c) (X5 m c) (X6 m c)
/-- The kernel program's per-graph means, as its last region is entered with them. -/
abbrev kPooled (c : Dev Cert.KernelIdeal.nD) : FVec Ideal Cert.KernelIdeal.S512x128 .f32 := W12 m c (Proc.devRef .tc Cert.KernelIdeal.main_v95)
/-- The reference's per-graph means. -/
abbrev rPooled (c : Dev Cert.KernelIdeal.nD) : FVec Ideal Cert.ReferenceIdeal.S512x128 .f32 := Cert.ReferenceIdeal.Read.val_main_v88 (F := Ideal) (X0 m c) (X1 m c) (X2 m c) (X3 m c) (X4 m c) (X5 m c) (X6 m c)
/-- The kernel program's result. -/
abbrev kOut (c : Dev Cert.KernelIdeal.nD) : FVec Ideal Cert.KernelIdeal.S512x64 .f32 := W13 m c (Proc.devRef .tc Cert.KernelIdeal.main_v97)
/-- The reference's result. -/
abbrev rOut (c : Dev Cert.KernelIdeal.nD) : FVec Ideal Cert.ReferenceIdeal.S512x64 .f32 := Cert.ReferenceIdeal.Read.val_main_v92 (F := Ideal) (X0 m c) (X1 m c) (X2 m c) (X3 m c) (X4 m c) (X5 m c) (X6 m c) (X7 m c) (X8 m c)

/-! ## The edge columns -/

/-- Every edge's source, the self-loops appended. -/
abbrev rSrc (c : Dev Cert.KernelIdeal.nD) : IVec Cert.ReferenceIdeal.S850000 32 := Cert.ReferenceIdeal.Read.val_main_v3 (F := Ideal) (X1 m c)
/-- Every edge's destination, the self-loops appended. -/
abbrev rDst (c : Dev Cert.KernelIdeal.nD) : IVec Cert.ReferenceIdeal.S850000 32 := Cert.ReferenceIdeal.Read.val_main_v6 (F := Ideal) (X1 m c)
/-- Every edge's normalisation weight. -/
abbrev rNorm (c : Dev Cert.KernelIdeal.nD) : FVec Ideal Cert.ReferenceIdeal.S850000 .f32 := Cert.ReferenceIdeal.Read.val_main_v31 (F := Ideal) (X1 m c)
/-- The kernel program's source column, as its first host stretch leaves it. -/
abbrev kSrc (c : Dev Cert.KernelIdeal.nD) : IVec Cert.KernelIdeal.S850000 32 := W1 m c (Proc.devRef .tc Cert.KernelIdeal.main_v3)
abbrev kDst (c : Dev Cert.KernelIdeal.nD) : IVec Cert.KernelIdeal.S850000 32 := W1 m c (Proc.devRef .tc Cert.KernelIdeal.main_v6)
abbrev kNorm (c : Dev Cert.KernelIdeal.nD) : FVec Ideal Cert.KernelIdeal.S850000 .f32 := W1 m c (Proc.devRef .tc Cert.KernelIdeal.main_v31)

/-- The two programs build the source column by the same operations. -/
theorem k_src (c : Dev Cert.KernelIdeal.nD) : kSrc m c = rSrc m c := by
  show StableHlo.after Cert.KernelIdeal.Gen.hostOps0 _ (Proc.devRef .tc Cert.KernelIdeal.main_v3) = _
  simp only [Cert.KernelIdeal.Gen.hostOps0]
  after_results
  rfl
theorem k_dst (c : Dev Cert.KernelIdeal.nD) : kDst m c = rDst m c := by
  show StableHlo.after Cert.KernelIdeal.Gen.hostOps0 _ (Proc.devRef .tc Cert.KernelIdeal.main_v6) = _
  simp only [Cert.KernelIdeal.Gen.hostOps0]
  after_results
  rfl
set_option maxHeartbeats 2000000 in
theorem k_norm (c : Dev Cert.KernelIdeal.nD) : kNorm m c = rNorm m c := by
  show StableHlo.after Cert.KernelIdeal.Gen.hostOps0 _ (Proc.devRef .tc Cert.KernelIdeal.main_v31) = _
  simp only [Cert.KernelIdeal.Gen.hostOps0]
  after_results
  rfl

/-! ## What the precondition grants -/

/-- A word that compares signed not below zero has a non-negative value. -/
theorem toInt_nonneg_of_sge {w : BitVec 32} (h : IntOp.cmpi .sge w 0#32 = 1#1) : 0 ≤ w.toInt := by
  simp only [IntOp.cmpi, StableHlo.Predicate.ofBool_eq_one_iff, BitVec.sle, decide_eq_true_eq] at h
  have z : (0#32 : BitVec 32).toInt = 0 := by decide
  rw [z] at h; exact h

/-- A word that compares signed below 50000 has a value below 50000. -/
theorem toInt_lt_of_slt {w : BitVec 32} (h : IntOp.cmpi .slt w 50000#32 = 1#1) : w.toInt < 50000 := by
  simp only [IntOp.cmpi, StableHlo.Predicate.ofBool_eq_one_iff, BitVec.slt, decide_eq_true_eq] at h
  have z : (50000#32 : BitVec 32).toInt = 50000 := by decide
  rw [z] at h; exact h

/-- The precondition's result has one index. -/
instance subsingleton_S_ : Subsingleton Cert.Pre_finite_inputs.S_.Idx := ⟨fun a b => funext fun d => d.elim0⟩

/-- The last three conjuncts of the printed precondition, read back: each is a conjunction over every entry of a
    compare of the entry with a constant, so where the whole is one every entry of the edge list lies in [0, 50000) and
    every graph id is non-negative. -/
theorem part2_grants (a1 : IVec Cert.Pre_finite_inputs.S2x800000 32) (a2 : IVec Cert.Pre_finite_inputs.S50000 32)
    (v : IVec Cert.Pre_finite_inputs.S_ 1)
    (h : Cert.Pre_finite_inputs.fn_part2 (F := Ideal) a1 a2 v = fun _ => 1#1) :
    (∀ e, 0 ≤ (a1 e).toInt ∧ (a1 e).toInt < 50000) ∧ ∀ n, 0 ≤ (a2 n).toInt := by
  have e := congrFun h ix0
  unfold Cert.Pre_finite_inputs.fn_part2 at e
  simp only [andi, IntOp.andi_eq_one] at e
  obtain ⟨⟨⟨-, h36⟩, h40⟩, h44⟩ := e
  refine ⟨fun i => ⟨?_, ?_⟩, fun n => ?_⟩
  · have := Host.reduce_andi_all _ _ _ _ _ h36 i
    simp only [cmpi, broadcastInDim, constantI] at this
    exact toInt_nonneg_of_sge this
  · have := Host.reduce_andi_all _ _ _ _ _ h40 i
    simp only [cmpi, broadcastInDim, constantI] at this
    exact toInt_lt_of_slt this
  · have := Host.reduce_andi_all _ _ _ _ _ h44 n
    simp only [cmpi, broadcastInDim, constantI] at this
    exact toInt_nonneg_of_sge this

/-- The precondition at core `c`, as its last part applied to the edge list and the graph ids. -/
theorem pre_part2 (hpre : Cert.Pre_KernelIdeal m) (c : Dev Cert.KernelIdeal.nD) :
    ∃ v, Cert.Pre_finite_inputs.fn_part2 (F := Ideal) (X1 m c) (X2 m c) v = fun _ => 1#1 :=
  ⟨_, hpre c⟩

/-- Every entry of the edge list is a node. -/
theorem edge_range (hpre : Cert.Pre_KernelIdeal m) (c : Dev Cert.KernelIdeal.nD) (e : Cert.ReferenceIdeal.S2x800000.Idx) :
    0 ≤ (X1 m c e).toInt ∧ (X1 m c e).toInt < 50000 := by
  obtain ⟨v, h⟩ := pre_part2 m hpre c
  exact (part2_grants _ _ v h).1 e
/-- Every graph id is non-negative. -/
theorem batch_nonneg (hpre : Cert.Pre_KernelIdeal m) (c : Dev Cert.KernelIdeal.nD) (n : Cert.ReferenceIdeal.S50000.Idx) : 0 ≤ (X2 m c n).toInt := by
  obtain ⟨v, h⟩ := pre_part2 m hpre c
  exact (part2_grants _ _ v h).2 n

/-- A column of 850000 words made of 800000 entries of the edge list followed by the node numbers 0 … 49999 holds a
    node at every position: below 800000 an entry of the edge list, from there on the position less 800000. -/
theorem cat_range (x1 : IVec Cert.ReferenceIdeal.S2x800000 32) (hx : ∀ e, 0 ≤ (x1 e).toInt ∧ (x1 e).toInt < 50000)
    (col : IVec Cert.ReferenceIdeal.S800000 32) (hcol : ∀ i, ∃ e, col i = x1 e)
    (h : Shape.Concatenates [Cert.ReferenceIdeal.S800000, Cert.ReferenceIdeal.S50000] Cert.ReferenceIdeal.S850000 0)
    (e : Fin 850000) :
    0 ≤ (concatenate Cert.ReferenceIdeal.S850000 0 [⟨Cert.ReferenceIdeal.S800000, col⟩,
          ⟨Cert.ReferenceIdeal.S50000, Cert.ReferenceIdeal.Read.val_main_v0 (F := Ideal)⟩] h (ix1 e)).toInt
      ∧ (concatenate Cert.ReferenceIdeal.S850000 0 [⟨Cert.ReferenceIdeal.S800000, col⟩,
          ⟨Cert.ReferenceIdeal.S50000, Cert.ReferenceIdeal.Read.val_main_v0 (F := Ideal)⟩] h (ix1 e)).toInt < 50000 := by
  by_cases he : e.val < 800000
  · rw [concatenate_pair_apply_left 0 col _ h (ix1 e) rfl (ix1 ⟨e.val, he⟩)
      (fun b => match b with | ⟨0, _⟩ => rfl)]
    obtain ⟨e', h'⟩ := hcol (ix1 ⟨e.val, he⟩)
    rw [h']; exact hx e'
  · have he' : e.val - 800000 < 50000 := by have := e.isLt; omega
    rw [concatenate_pair_apply_right 0 col _ h (ix1 e) rfl rfl (ix1 ⟨e.val - 800000, he'⟩)
      (fun b hb => absurd (Subsingleton.elim (α := Fin 1) _ _) hb)
      (by show e.val - 800000 + 800000 = e.val; omega)]
    rw [Cert.ReferenceIdeal.Read.val_main_v0_apply]
    show 0 ≤ (BitVec.ofNat 32 (e.val - 800000)).toInt ∧ (BitVec.ofNat 32 (e.val - 800000)).toInt < 50000
    rw [StableHlo.Predicate.toInt_ofNat_small _ (by omega)]
    omega

/-- Every source, a self-loop's included, is a node. -/
theorem src_range (hpre : Cert.Pre_KernelIdeal m) (c : Dev Cert.KernelIdeal.nD) (e : Fin 850000) :
    0 ≤ (rSrc m c (ix1 e)).toInt ∧ (rSrc m c (ix1 e)).toInt < 50000 := by
  refine cat_range (X1 m c) (edge_range m hpre c) _ (fun i => ?_) _ e
  exact ⟨Cert.ReferenceIdeal.Read.idx_main_v1 (Cert.ReferenceIdeal.Read.idx_main_v2 i), by
    rw [Cert.ReferenceIdeal.Read.val_main_v2_apply, Cert.ReferenceIdeal.Read.val_main_v1_apply]⟩
/-- Every destination, a self-loop's included, is a node. -/
theorem dst_range (hpre : Cert.Pre_KernelIdeal m) (c : Dev Cert.KernelIdeal.nD) (e : Fin 850000) :
    0 ≤ (rDst m c (ix1 e)).toInt ∧ (rDst m c (ix1 e)).toInt < 50000 := by
  refine cat_range (X1 m c) (edge_range m hpre c) _ (fun i => ?_) _ e
  exact ⟨Cert.ReferenceIdeal.Read.idx_main_v4 (Cert.ReferenceIdeal.Read.idx_main_v5 i), by
    rw [Cert.ReferenceIdeal.Read.val_main_v5_apply, Cert.ReferenceIdeal.Read.val_main_v4_apply]⟩

end Cert.Bridge

end
-- ==== Proof.Br.Layer1.lean ====
/-
  The first graph-convolution layer: on the rows below 50000 the kernel program's padded output is the reference's.
-/
import proofs.«411454_j24300924961028_1_alg».proof.Proof.Br.Common
import proofs.«411454_j24300924961028_1_alg».proof.Defs
import Idealize.ShloMosaic.Lib.Pipeline.Value
import Idealize.ShloMosaic.Lib.ValueIdx
import Idealize.ShloMosaic.Lib.ValueIdxRank1
import Idealize.ShloMosaic.Lib.ValueLayout
import Idealize.ShloMosaic.Lib.ReduceAll
import Idealize.ShloMosaic.Lib.StableHlo.Run
import Idealize.ShloMosaic.Lib.StableHlo.Predicate
import Idealize.ShloMosaic.PureOps.Ideal.Laws
import Idealize.ShloMosaic.Lib.KernelVsHost

set_option maxRecDepth 16384

noncomputable section

open scoped BigOperators

namespace Cert.Bridge

open Idealize.ShloMosaic Idealize.ShloMosaic.TcCoe Idealize.ShloMosaic.ValueIdx Idealize.SL.Sem
open Cert.KernelIdeal.Hand

variable [hPre : Cert.Pre_finite_inputs.Facts]
variable (m : (ℓ : Loc Cert.KernelIdeal.nD Cert.KernelIdeal.τ Cert.KernelIdeal.sig) → Buf (Elt Ideal) ℓ)

/-! ## Words and layouts at an index -/

/-- A select on "the word is negative" takes its second branch at a word that is not. -/
private theorem select_slt_zero_of_nonneg {α : Type} (a : BitVec 32) (h : 0 ≤ a.toInt) (x y : α) :
    Scalar.select (IntOp.cmpi .slt a 0#32) x y = y := by
  have hs : a.slt 0#32 = false := by
    unfold BitVec.slt
    rw [decide_eq_false_iff_not]
    have : (0#32 : BitVec 32).toInt = 0 := by decide
    omega
  unfold Scalar.select IntOp.cmpi
  simp only [hs]
  rfl

/-- A column of indices normalised against a table height `n` (a negative entry is raised by `n`), read at an entry that
    is not negative, is the entry: whatever `n` is. -/
private theorem normCol_apply {E : Nat} (s : IVec ⟨1, ![E]⟩ 32) (n : BitVec 32)
    (h0 h0' : (⟨0, ![]⟩ : Shape).BroadcastsInDim ⟨1, ![E]⟩ ![])
    (h1 : (⟨1, ![E]⟩ : Shape).BroadcastsInDim ⟨2, ![E, 1]⟩ ![0])
    (e : Fin E) (h : 0 ≤ (s (ix1 e)).toInt) :
    broadcastInDim ⟨2, ![E, 1]⟩ ![0] h1
      (select (cmpi .slt s (broadcastInDim ⟨1, ![E]⟩ ![] h0 (constantI ⟨0, ![]⟩ 32 0#32)))
        (addi s (broadcastInDim ⟨1, ![E]⟩ ![] h0' (constantI ⟨0, ![]⟩ 32 n))) s) (ix2 e 0) = s (ix1 e) := by
  have he := e.isLt
  rw [broadcastInDim_apply _ h1 _ (ix2 e 0) (ix1 e) (fun a => match a with
    | ⟨0, _⟩ => by show e.val = if E = 1 then 0 else e.val; split <;> omega)]
  rw [select_apply]
  show Scalar.select (IntOp.cmpi .slt (s (ix1 e)) (broadcastInDim ⟨1, ![E]⟩ ![] h0 (constantI ⟨0, ![]⟩ 32 0#32) (ix1 e))) _ _ = _
  rw [broadcastInDim_apply _ h0 _ (ix1 e) ix0 (fun a => a.elim0)]
  exact select_slt_zero_of_nonneg _ h _ _

/-- A vector of per-edge values spread along the columns of an `[E, D]` table reads, at `(e, j)`, its entry `e`. -/
private theorem spreadCols_apply {α : Type} {E D : Nat} (w : (⟨1, ![E]⟩ : Shape).Idx → α)
    (h1 : (⟨1, ![E]⟩ : Shape).BroadcastsInDim ⟨2, ![E, 1]⟩ ![0])
    (h2 : (⟨2, ![E, 1]⟩ : Shape).BroadcastsInDim ⟨2, ![E, D]⟩ ![0, 1]) (e : Fin E) (j : Fin D) :
    broadcastInDim ⟨2, ![E, D]⟩ ![0, 1] h2 (broadcastInDim ⟨2, ![E, 1]⟩ ![0] h1 w) (ix2 e j) = w (ix1 e) := by
  have he := e.isLt
  rw [broadcastInDim_apply _ h2 _ (ix2 e j) (ix2 e 0) (fun a => match a with
    | ⟨0, _⟩ => by show e.val = if E = 1 then 0 else e.val; split <;> omega
    | ⟨1, _⟩ => by show 0 = if (1 : Nat) = 1 then 0 else j.val; rw [if_pos rfl])]
  exact broadcastInDim_apply _ h1 _ (ix2 e 0) (ix1 e) (fun a => match a with
    | ⟨0, _⟩ => by show e.val = if E = 1 then 0 else e.val; split <;> omega)

/-- A row vector spread along the rows of an `[N, D]` table reads, at `(i, j)`, its entry `j`. -/
private theorem spreadRows_apply {α : Type} {N D : Nat} (x : (⟨1, ![D]⟩ : Shape).Idx → α)
    (h1 : (⟨1, ![D]⟩ : Shape).BroadcastsInDim ⟨2, ![1, D]⟩ ![1])
    (h2 : (⟨2, ![1, D]⟩ : Shape).BroadcastsInDim ⟨2, ![N, D]⟩ ![0, 1]) (i : Fin N) (j : Fin D) :
    broadcastInDim ⟨2, ![N, D]⟩ ![0, 1] h2 (broadcastInDim ⟨2, ![1, D]⟩ ![1] h1 x) (ix2 i j) = x (ix1 j) := by
  have hj := j.isLt
  rw [broadcastInDim_apply _ h2 _ (ix2 i j) (ix2 0 j) (fun a => match a with
    | ⟨0, _⟩ => by show 0 = if (1 : Nat) = 1 then 0 else i.val; rw [if_pos rfl]
    | ⟨1, _⟩ => by show j.val = if D = 1 then 0 else j.val; split <;> omega)]
  exact broadcastInDim_apply _ h1 _ (ix2 0 j) (ix1 j) (fun a => match a with
    | ⟨0, _⟩ => by show j.val = if D = 1 then 0 else j.val; split <;> omega)

/-- A table filled with one constant reads the constant everywhere. -/
private theorem constTab_apply {N D : Nat} (b : BitVec 32)
    (h : (⟨0, ![]⟩ : Shape).BroadcastsInDim ⟨2, ![N, D]⟩ ![]) (i : Fin N) (j : Fin D) :
    broadcastInDim ⟨2, ![N, D]⟩ ![] h (constant (F := Ideal) ⟨0, ![]⟩ .f32 b) (ix2 i j) = FloatOps.ofBits (F := Ideal) .f32 b :=
  broadcastInDim_apply _ h _ (ix2 i j) ix0 (fun a => a.elim0)

/-- A sum of two tables at an entry is the sum of the entries. -/
private theorem addf_at {s : Shape} (a b : FVec Ideal s .f32) (i : s.Idx) :
    addf a b i = FloatOps.addf (F := Ideal) (φ := .f32) (a i) (b i) := rfl

/-! ## The buffers the second host stretch reads -/

section Buffers
open Cert.KernelIdeal Cert.KernelIdeal.Gen

/-- Region 0's input array. -/
private abbrev kIn (c : Dev nD) : FVec Ideal S50048x64 .f32 := W2 m c (Proc.devRef .tc main_v32)
/-- What region 0 leaves in its output array. -/
private abbrev kTab (c : Dev nD) : FVec Ideal S50048x64 .f32 := W3 m c (Proc.devRef .tc main_v33)
/-- The source column, the destination column, the edge weights and the bias as the second host stretch finds them. -/
private abbrev kSrc3 (c : Dev nD) : IVec S850000 32 := W3 m c (Proc.devRef .tc main_v3)
private abbrev kDst3 (c : Dev nD) : IVec S850000 32 := W3 m c (Proc.devRef .tc main_v6)
private abbrev kNorm3 (c : Dev nD) : FVec Ideal S850000 .f32 := W3 m c (Proc.devRef .tc main_v31)
private abbrev kBias3 (c : Dev nD) : FVec Ideal S64 .f32 := W3 m c (Proc.devRef .tc main_arg4)

/-- The source column reaches the second host stretch as the first one built it: the reference's. -/
private theorem kSrc3_eq (c : Dev nD) : kSrc3 m c = rSrc m c :=
  (W3_of_ne m c main_v3 (by decide)).trans <|
    (StableHlo.after_of_writes_sub hostOps0_1 _ hostOps0_1_writes (by decide)).trans (k_src m c)

/-- So does the destination column. -/
private theorem kDst3_eq (c : Dev nD) : kDst3 m c = rDst m c :=
  (W3_of_ne m c main_v6 (by decide)).trans <|
    (StableHlo.after_of_writes_sub hostOps0_1 _ hostOps0_1_writes (by decide)).trans (k_dst m c)

/-- So do the edge weights. -/
private theorem kNorm3_eq (c : Dev nD) : kNorm3 m c = rNorm m c :=
  (W3_of_ne m c main_v31 (by decide)).trans <|
    (StableHlo.after_of_writes_sub hostOps0_1 _ hostOps0_1_writes (by decide)).trans (k_norm m c)

/-- The bias is the launch's. -/
private theorem kBias3_eq (c : Dev nD) : kBias3 m c = X4 m c :=
  (W3_of_ne m c main_arg4 (by decide)).trans <|
    (StableHlo.after_of_writes_sub hostOps0_1 _ hostOps0_1_writes (by decide)).trans <|
      (StableHlo.after_of_writes_sub hostOps0 _ hostOps0_writes (by decide)).trans rfl

/-- Region 0 is entered with the launch's first weight matrix. -/
private theorem r0_w_eq (c : Dev nD) : r0_w (E2 m) c = X3 m c :=
  (StableHlo.after_of_writes_sub hostOps0_1 _ hostOps0_1_writes (by decide)).trans <|
    (StableHlo.after_of_writes_sub hostOps0 _ hostOps0_writes (by decide)).trans rfl

set_option maxHeartbeats 1000000 in
/-- Region 0 is entered with the features padded by forty-eight rows of one value. -/
private theorem kIn_eq (c : Dev nD) : kIn m c
    = pad S50048x64 ![0, 0] ![48, 0] ![0, 0] (X0 m c) (sitofp (F := Ideal) .f32 (constantI S_ 32 0#32))
        pads_S50000x64_S50048x64_0480_000 h_S_ := by
  show StableHlo.after hostOps0_1 _ (Proc.devRef .tc main_v32) = _
  simp only [hostOps0_1]
  after_results
  simp only [StableHlo.TRef.ofBuf, StableHlo.TRef.toBuf, cast_eq]

/-- A row below 50000 of region 0's input is the features' row. -/
private theorem kIn_apply (c : Dev nD) (i : Fin 50000) (k : Fin 64) : kIn m c (ix2 (up i) k) = X0 m c (ix2 i k) := by
  rw [kIn_eq]
  exact pad_apply_of_inside _ _ _ (X0 m c) _ pads_S50000x64_S50048x64_0480_000 h_S_ (ix2 (up i) k) (ix2 i k) (fun a => by
    match a with
    | ⟨0, _⟩ => show i.val = 0 + i.val * (0 + 1); omega
    | ⟨1, _⟩ => show k.val = 0 + k.val * (0 + 1); omega)

/-- On the rows below 50000, what region 0 leaves is the reference's product of the features with the weights. -/
private theorem tab_agree (c : Dev nD) (i : Fin 50000) (j : Fin 64) :
    kTab m c (ix2 (up i) j) = Cert.ReferenceIdeal.Read.val_main_v32 (F := Ideal) (X0 m c) (X3 m c) (ix2 i j) := by
  have h33 : kTab m c = r0_out (E2 m) c := W3_arr m c 2
  rw [h33, arr0_apply (E2 m) c (up i) j, Cert.ReferenceIdeal.Read.val_main_v32_apply]
  refine Finset.sum_congr rfl fun k _ => ?_
  have e0 : r0_in (E2 m) c (ix2 (up i) k) = X0 m c (ix2 i k) := kIn_apply m c i k
  have el : Cert.ReferenceIdeal.Read.lidx_main_v32 (ix2 i j) k = ix2 i k :=
    funext fun a => Fin.ext (by match a with | ⟨0, _⟩ => rfl | ⟨1, _⟩ => rfl)
  have er : Cert.ReferenceIdeal.Read.ridx_main_v32 (ix2 i j) k = ix2 k j :=
    funext fun a => Fin.ext (by match a with | ⟨0, _⟩ => rfl | ⟨1, _⟩ => rfl)
  rw [e0, r0_w_eq, el, er]

end Buffers

/-! ## The second host stretch, and the comparison -/

section Assembly
open Cert.KernelIdeal Cert.KernelIdeal.Gen

/-- The kernel program's source column normalised against its 50048-row table, as a column of start indices. -/
private abbrev kSrcN (c : Dev nD) : IVec S850000x1 32 :=
  broadcastInDim S850000x1 ![0] bcast_S850000_S850000x1_0
    (select (cmpi .slt (kSrc3 m c) (broadcastInDim S850000 ![] bcast_S_S850000 (constantI S_ 32 0#32)))
      (addi (kSrc3 m c) (broadcastInDim S850000 ![] bcast_S_S850000 (constantI S_ 32 50048#32))) (kSrc3 m c))
/-- Its destination column, likewise. -/
private abbrev kDstN (c : Dev nD) : IVec S850000x1 32 :=
  broadcastInDim S850000x1 ![0] bcast_S850000_S850000x1_0
    (select (cmpi .slt (kDst3 m c) (broadcastInDim S850000 ![] bcast_S_S850000 (constantI S_ 32 0#32)))
      (addi (kDst3 m c) (broadcastInDim S850000 ![] bcast_S_S850000 (constantI S_ 32 50048#32))) (kDst3 m c))
/-- The edge weights spread along the 64 columns. -/
private abbrev kWt (c : Dev nD) : FVec Ideal S850000x64 .f32 :=
  broadcastInDim S850000x64 ![0, 1] bcast_S850000x1_S850000x64_0_1
    (broadcastInDim S850000x1 ![0] bcast_S850000_S850000x1_0 (kNorm3 m c))
/-- The zero table the updates are added into. -/
private abbrev kZero : FVec Ideal S50048x64 .f32 :=
  broadcastInDim S50048x64 ![] bcast_S_S50048x64 (constant S_ .f32 0x00000000#32)
/-- The bias spread along the 50048 rows. -/
private abbrev kBiasT (c : Dev nD) : FVec Ideal S50048x64 .f32 :=
  broadcastInDim S50048x64 ![0, 1] bcast_S1x64_S50048x64_0_1 (broadcastInDim S1x64 ![1] bcast_S64_S1x64_1 (kBias3 m c))

set_option maxHeartbeats 1000000 in
/-- The second host stretch: gather the rows of region 0's output at the sources, scale them by the edge weights,
    scatter-add them at the destinations into a zero table, add the bias. -/
private theorem kH1_eq (c : Dev nD) : kH1 m c
    = addf (Host.scatterAdd scatter_S50048x64_S850000x1_S850000x64_1_0_0_1 kZero (kDstN m c)
        (mulf (Host.gather gather_S50048x64_S850000x1_S850000x64_1_0_n_n_0_1_164 (kTab m c) (kSrcN m c)) (kWt m c)))
      (kBiasT m c) := by
  show StableHlo.after hostOps1 _ (Proc.devRef .tc main_v54) = _
  simp only [hostOps1]
  after_results_simp

end Assembly

section Compare
open Cert.KernelIdeal Cert.KernelIdeal.Gen

/-- Every source being a node, the kernel program's normalised source column is the source column itself, -/
private theorem kSrcN_apply (hpre : Cert.Pre_KernelIdeal m) (c : Dev nD) (e : Fin 850000) :
    kSrcN m c (ix2 e 0) = rSrc m c (ix1 e) := by
  have h := (src_range m hpre c e).1
  rw [← kSrc3_eq] at h
  exact (normCol_apply (E := 850000) (kSrc3 m c) 50048#32 _ _ _ e h).trans (congrFun (kSrc3_eq m c) (ix1 e))
/-- and so is the reference's. -/
private theorem rSrcN_apply (hpre : Cert.Pre_KernelIdeal m) (c : Dev nD) (e : Fin 850000) :
    Cert.ReferenceIdeal.Read.val_main_v38 (F := Ideal) (X1 m c) (ix2 e 0) = rSrc m c (ix1 e) :=
  normCol_apply (E := 850000) (rSrc m c) 50000#32 _ _ _ e (src_range m hpre c e).1

/-- Every destination being a node, the two normalised destination columns are the destination column itself. -/
private theorem kDstN_apply (hpre : Cert.Pre_KernelIdeal m) (c : Dev nD) (e : Fin 850000) :
    kDstN m c (ix2 e 0) = rDst m c (ix1 e) := by
  have h := (dst_range m hpre c e).1
  rw [← kDst3_eq] at h
  exact (normCol_apply (E := 850000) (kDst3 m c) 50048#32 _ _ _ e h).trans (congrFun (kDst3_eq m c) (ix1 e))
private theorem rDstN_apply (hpre : Cert.Pre_KernelIdeal m) (c : Dev nD) (e : Fin 850000) :
    Cert.ReferenceIdeal.Read.val_main_v49 (F := Ideal) (X1 m c) (ix2 e 0) = rDst m c (ix1 e) :=
  normCol_apply (E := 850000) (rDst m c) 50000#32 _ _ _ e (dst_range m hpre c e).1

/-- The two weight tables hold, at `(e, j)`, edge `e`'s weight. -/
private theorem kWt_apply (c : Dev nD) (e : Fin 850000) (j : Fin 64) : kWt m c (ix2 e j) = rNorm m c (ix1 e) :=
  (spreadCols_apply (kNorm3 m c) _ _ e j).trans (congrFun (kNorm3_eq m c) (ix1 e))
private theorem rWt_apply (c : Dev nD) (e : Fin 850000) (j : Fin 64) :
    Cert.ReferenceIdeal.Read.val_main_v41 (F := Ideal) (X1 m c) (ix2 e j) = rNorm m c (ix1 e) :=
  spreadCols_apply (rNorm m c) _ _ e j

/-- The two tables the updates are added into hold the same constant. -/
private theorem zero_agree (i : Fin 50000) (j : Fin 64) :
    (kZero : FVec Ideal S50048x64 .f32) (ix2 (up i) j) = Cert.ReferenceIdeal.Read.val_main_v43 (F := Ideal) (ix2 i j) :=
  (constTab_apply _ _ (up i) j).trans (constTab_apply _ _ i j).symm

/-- The two bias tables hold, at `(i, j)`, the bias' entry `j`. -/
private theorem bias_agree (c : Dev nD) (i : Fin 50000) (j : Fin 64) :
    kBiasT m c (ix2 (up i) j) = Cert.ReferenceIdeal.Read.val_main_v52 (F := Ideal) (X4 m c) (ix2 i j) :=
  ((spreadRows_apply (kBias3 m c) _ _ (up i) j).trans (congrFun (kBias3_eq m c) (ix1 j))).trans
    (spreadRows_apply (X4 m c) _ _ i j).symm
/-- The reference's gather, scale and scatter-add, its dimension numbers written as a row gather's and a row scatter's. -/
private abbrev rMid (c : Dev nD) : FVec Ideal Cert.ReferenceIdeal.S50000x64 .f32 :=
  Host.scatterAdd (F := Ideal) (φ := .f32)
    (Cert.LibIndexing.rowScatterDims 50000 64 850000 Cert.ReferenceIdeal.scatter_S50000x64_S850000x1_S850000x64_1_0_0_1.wf)
    (Cert.ReferenceIdeal.Read.val_main_v43 (F := Ideal)) (Cert.ReferenceIdeal.Read.val_main_v49 (F := Ideal) (X1 m c))
    (mulf (F := Ideal) (φ := .f32)
      (Host.gather (Cert.LibIndexing.rowGatherDims 50000 64 850000 Cert.ReferenceIdeal.gather_S50000x64_S850000x1_S850000x64_1_0_n_n_0_1_164.wf)
        (Cert.ReferenceIdeal.Read.val_main_v32 (F := Ideal) (X0 m c) (X3 m c)) (Cert.ReferenceIdeal.Read.val_main_v38 (F := Ideal) (X1 m c)))
      (Cert.ReferenceIdeal.Read.val_main_v41 (F := Ideal) (X1 m c)))

/-- The middle of the layer: gather, scale, scatter-add. On the rows below 50000 the two programs' tables agree. -/
private theorem conv_rows (hpre : Cert.Pre_KernelIdeal m) (c : Dev nD) (i : Fin 50000) (j : Fin 64) :
    Host.scatterAdd scatter_S50048x64_S850000x1_S850000x64_1_0_0_1 kZero (kDstN m c)
        (mulf (Host.gather gather_S50048x64_S850000x1_S850000x64_1_0_n_n_0_1_164 (kTab m c) (kSrcN m c)) (kWt m c))
        (ix2 (up i) j)
      = rMid m c (ix2 i j) := by
  have h := Cert.LibConv.conv_agree (N := 50000) (NP := 50048) (D := 64) (E := 850000) (by omega) (by omega)
      gather_S50048x64_S850000x1_S850000x64_1_0_n_n_0_1_164.wf
      Cert.ReferenceIdeal.gather_S50000x64_S850000x1_S850000x64_1_0_n_n_0_1_164.wf
      scatter_S50048x64_S850000x1_S850000x64_1_0_0_1.wf
      Cert.ReferenceIdeal.scatter_S50000x64_S850000x1_S850000x64_1_0_0_1.wf
      (kTab m c) (Cert.ReferenceIdeal.Read.val_main_v32 (F := Ideal) (X0 m c) (X3 m c)) (fun i j => tab_agree m c i j)
      (kSrcN m c) (Cert.ReferenceIdeal.Read.val_main_v38 (F := Ideal) (X1 m c))
      (kDstN m c) (Cert.ReferenceIdeal.Read.val_main_v49 (F := Ideal) (X1 m c))
      (fun e => (kSrcN_apply m hpre c e).trans (rSrcN_apply m hpre c e).symm)
      (fun e => by rw [rSrcN_apply m hpre c e]; have := src_range m hpre c e; constructor <;> omega)
      (fun e => (kDstN_apply m hpre c e).trans (rDstN_apply m hpre c e).symm)
      (kWt m c) (Cert.ReferenceIdeal.Read.val_main_v41 (F := Ideal) (X1 m c)) (fun e j => (kWt_apply m c e j).trans (rWt_apply m c e j).symm)
      kZero (Cert.ReferenceIdeal.Read.val_main_v43 (F := Ideal))
      (fun i j => zero_agree i j)
      i j
  exact h
/-- The reference's table before the bias is that. -/
private theorem r50_eq (c : Dev nD) :
    Cert.ReferenceIdeal.Read.val_main_v50 (F := Ideal) (X0 m c) (X1 m c) (X3 m c) = rMid m c := by
  unfold Cert.ReferenceIdeal.Read.val_main_v50 Cert.ReferenceIdeal.Read.val_main_v42 Cert.ReferenceIdeal.Read.val_main_v39
  rfl

end Compare

/-- The kernel program multiplies the zero-padded features by the weights in a kernel region, gathers, scales and
    scatter-adds 50048-row tables; the reference does the same on 50000-row tables. Every edge endpoint being a node, no
    gathered row comes from the padding and every row below 50000 receives the same updates. -/
theorem layer1 (hpre : Cert.Pre_KernelIdeal m) (c : Dev Cert.KernelIdeal.nD) (i : Fin 50000) (j : Fin 64) :
    kH1 m c (ix2 (up i) j) = rH1 m c (ix2 i j) := by
  have hk := congrFun (kH1_eq m c) (ix2 (up i) j)
  have hr := Cert.ReferenceIdeal.Read.val_main_v53_apply (F := Ideal) (X0 m c) (X1 m c) (X3 m c) (X4 m c) (ix2 i j)
  refine hk.trans (Eq.trans ?_ hr.symm)
  rewrite [r50_eq, addf_at]
  exact congrArg₂ (FloatOps.addf (F := Ideal) (φ := .f32)) (conv_rows m hpre c i j) (bias_agree m c i j)

end Cert.Bridge

end
-- ==== Proof.Br.Layer2.lean ====
/-
  The second graph-convolution layer: given the first layer's agreement on the rows below 50000, the kernel program's
  padded second-layer output is the reference's on those rows.

  Both programs multiply the positive part of the first layer's output by the second weight matrix, gather the rows of
  that product at every edge's source, scale each by the edge's weight, scatter-add them at the edge's destination into a
  zero table and add the bias; the kernel program does so on tables padded to 50048 rows, the reference on 50000 rows.
  Every source and destination is a node, so the wrap-around of negative indices (by 50048 on one side, by 50000 on the
  other) changes nothing, no gathered row comes from the padding, and a row below 50000 receives the same updates on both
  sides.
-/
import proofs.«411454_j24300924961028_1_alg».proof.Proof.Br.Common
import proofs.«411454_j24300924961028_1_alg».proof.Defs
import Idealize.ShloMosaic.Lib.Pipeline.Value
import Idealize.ShloMosaic.Lib.ValueIdx
import Idealize.ShloMosaic.Lib.ValueIdxRank1
import Idealize.ShloMosaic.Lib.ValueLayout
import Idealize.ShloMosaic.Lib.ReduceAll
import Idealize.ShloMosaic.Lib.StableHlo.Run
import Idealize.ShloMosaic.Lib.StableHlo.Predicate
import Idealize.ShloMosaic.PureOps.Ideal.Laws

set_option maxRecDepth 16384

noncomputable section

open scoped BigOperators

namespace Cert.Bridge

open Idealize.ShloMosaic Idealize.ShloMosaic.TcCoe Idealize.ShloMosaic.ValueIdx Idealize.SL.Sem
open Cert.KernelIdeal.Hand

variable [hPre : Cert.Pre_finite_inputs.Facts]
variable (m : (ℓ : Loc Cert.KernelIdeal.nD Cert.KernelIdeal.τ Cert.KernelIdeal.sig) → Buf (Elt Ideal) ℓ)

/-! The lemmas this module needs on the way live in their own namespace. -/
namespace L2

/-! ## Index columns and broadcasts read at an index -/

/-- A non-negative index is left alone by the wrap-around that adds `n` to a negative one. -/
theorem wrap_of_nonneg (x n : BitVec 32) (h : 0 ≤ x.toInt) :
    Scalar.select (IntOp.cmpi .slt x 0#32) (IntOp.addi x n) x = x := by
  have hs : x.slt 0#32 = false := by
    rw [BitVec.slt, decide_eq_false_iff_not]
    have : (0#32 : BitVec 32).toInt = 0 := by decide
    rw [this]; omega
  unfold Scalar.select IntOp.cmpi
  simp only [hs]
  rw [if_neg (by decide)]

/-- THE WRAPPED INDEX COLUMN READ AT `(e, 0)`: where the entry is non-negative it is the entry itself, whatever the
    constant `n` that would have been added. -/
theorem wrapCol_apply {E : Nat} (hE : E ≠ 1)
    (hb1 : (⟨1, ![E]⟩ : Shape).BroadcastsInDim ⟨2, ![E, 1]⟩ (![0] : Fin 1 → Fin 2))
    (hb0 : (⟨0, ![]⟩ : Shape).BroadcastsInDim ⟨1, ![E]⟩ (![] : Fin 0 → Fin 1))
    (s : IVec ⟨1, ![E]⟩ 32) (n : BitVec 32) (e : Fin E) (h : 0 ≤ (s (ix1 e)).toInt) :
    broadcastInDim (⟨2, ![E, 1]⟩ : Shape) (![0] : Fin 1 → Fin 2) hb1
      (select (cmpi .slt s (broadcastInDim (⟨1, ![E]⟩ : Shape) (![] : Fin 0 → Fin 1) hb0 (constantI ⟨0, ![]⟩ 32 0#32)))
        (addi s (broadcastInDim (⟨1, ![E]⟩ : Shape) (![] : Fin 0 → Fin 1) hb0 (constantI ⟨0, ![]⟩ 32 n))) s) (ix2 e 0)
      = s (ix1 e) := by
  rw [broadcastInDim_apply _ hb1 _ (ix2 e 0) (ix1 e) (fun a => match a with
    | ⟨0, _⟩ => by show e.val = if E = 1 then 0 else e.val; rw [if_neg hE])]
  exact wrap_of_nonneg _ _ h

/-- A column broadcast along the rows' entries, read at `(e, j)`: the column's entry `e`. -/
theorem bcastCol_apply {α : Type} {E D : Nat} (hE : E ≠ 1)
    (hb2 : (⟨2, ![E, 1]⟩ : Shape).BroadcastsInDim ⟨2, ![E, D]⟩ (![0, 1] : Fin 2 → Fin 2))
    (hb1 : (⟨1, ![E]⟩ : Shape).BroadcastsInDim ⟨2, ![E, 1]⟩ (![0] : Fin 1 → Fin 2))
    (x : (⟨1, ![E]⟩ : Shape).Idx → α) (e : Fin E) (j : Fin D) :
    broadcastInDim (⟨2, ![E, D]⟩ : Shape) (![0, 1] : Fin 2 → Fin 2) hb2
      (broadcastInDim (⟨2, ![E, 1]⟩ : Shape) (![0] : Fin 1 → Fin 2) hb1 x) (ix2 e j) = x (ix1 e) := by
  rw [broadcastInDim_apply _ hb2 _ (ix2 e j) (ix2 e 0) (fun a => match a with
    | ⟨0, _⟩ => by show e.val = if E = 1 then 0 else e.val; rw [if_neg hE]
    | ⟨1, _⟩ => by show 0 = if (1 : Nat) = 1 then 0 else j.val; rw [if_pos rfl])]
  exact broadcastInDim_apply _ hb1 _ (ix2 e 0) (ix1 e) (fun a => match a with
    | ⟨0, _⟩ => by show e.val = if E = 1 then 0 else e.val; rw [if_neg hE])

/-- A row vector broadcast down the rows, read at `(a, j)`: the vector's entry `j`. -/
theorem bcastRow_apply {α : Type} {N D : Nat} (hD : D ≠ 1)
    (hb2 : (⟨2, ![1, D]⟩ : Shape).BroadcastsInDim ⟨2, ![N, D]⟩ (![0, 1] : Fin 2 → Fin 2))
    (hb1 : (⟨1, ![D]⟩ : Shape).BroadcastsInDim ⟨2, ![1, D]⟩ (![1] : Fin 1 → Fin 2))
    (x : (⟨1, ![D]⟩ : Shape).Idx → α) (a : Fin N) (j : Fin D) :
    broadcastInDim (⟨2, ![N, D]⟩ : Shape) (![0, 1] : Fin 2 → Fin 2) hb2
      (broadcastInDim (⟨2, ![1, D]⟩ : Shape) (![1] : Fin 1 → Fin 2) hb1 x) (ix2 a j) = x (ix1 j) := by
  rw [broadcastInDim_apply _ hb2 _ (ix2 a j) (ix2 0 j) (fun b => match b with
    | ⟨0, _⟩ => by show 0 = if (1 : Nat) = 1 then 0 else a.val; rw [if_pos rfl]
    | ⟨1, _⟩ => by show j.val = if D = 1 then 0 else j.val; rw [if_neg hD])]
  exact broadcastInDim_apply _ hb1 _ (ix2 0 j) (ix1 j) (fun b => match b with
    | ⟨0, _⟩ => by show j.val = if D = 1 then 0 else j.val; rw [if_neg hD])

open Cert.KernelIdeal Cert.KernelIdeal.Gen

/-! ## The kernel program's side -/

/-- Region 1's output array, as the host stretch after it finds it. -/
abbrev kP (c : Dev Cert.KernelIdeal.nD) : FVec Ideal Cert.KernelIdeal.S50048x128 .f32 := W5 m c (Proc.devRef .tc main_v55)
/-- The source column, the destination column and the edge weights as that stretch finds them. -/
abbrev kSrc5 (c : Dev Cert.KernelIdeal.nD) : IVec Cert.KernelIdeal.S850000 32 := W5 m c (Proc.devRef .tc main_v3)
abbrev kDst5 (c : Dev Cert.KernelIdeal.nD) : IVec Cert.KernelIdeal.S850000 32 := W5 m c (Proc.devRef .tc main_v6)
abbrev kNorm5 (c : Dev Cert.KernelIdeal.nD) : FVec Ideal Cert.KernelIdeal.S850000 .f32 := W5 m c (Proc.devRef .tc main_v31)
/-- The second layer's bias as that stretch finds it. -/
abbrev kBias5 (c : Dev Cert.KernelIdeal.nD) : FVec Ideal Cert.KernelIdeal.S128 .f32 := W5 m c (Proc.devRef .tc main_arg6)
/-- The second layer's weights as region 1 is entered. -/
abbrev kW4 (c : Dev Cert.KernelIdeal.nD) : FVec Ideal Cert.KernelIdeal.S64x128 .f32 := W4 m c (Proc.devRef .tc main_arg5)

/-- The source column is untouched between the first host stretch and the one after region 1. -/
theorem kSrc5_eq (c : Dev Cert.KernelIdeal.nD) : kSrc5 m c = kSrc m c :=
  calc W5 m c (Proc.devRef .tc main_v3)
    _ = W4 m c (Proc.devRef .tc main_v3) := W5_of_ne m c main_v3 (by decide)
    _ = W3 m c (Proc.devRef .tc main_v3) := StableHlo.after_of_writes_sub hostOps1 _ hostOps1_writes (by decide)
    _ = W2 m c (Proc.devRef .tc main_v3) := W3_of_ne m c main_v3 (by decide)
    _ = W1 m c (Proc.devRef .tc main_v3) := StableHlo.after_of_writes_sub hostOps0_1 _ hostOps0_1_writes (by decide)

theorem kDst5_eq (c : Dev Cert.KernelIdeal.nD) : kDst5 m c = kDst m c :=
  calc W5 m c (Proc.devRef .tc main_v6)
    _ = W4 m c (Proc.devRef .tc main_v6) := W5_of_ne m c main_v6 (by decide)
    _ = W3 m c (Proc.devRef .tc main_v6) := StableHlo.after_of_writes_sub hostOps1 _ hostOps1_writes (by decide)
    _ = W2 m c (Proc.devRef .tc main_v6) := W3_of_ne m c main_v6 (by decide)
    _ = W1 m c (Proc.devRef .tc main_v6) := StableHlo.after_of_writes_sub hostOps0_1 _ hostOps0_1_writes (by decide)

theorem kNorm5_eq (c : Dev Cert.KernelIdeal.nD) : kNorm5 m c = kNorm m c :=
  calc W5 m c (Proc.devRef .tc main_v31)
    _ = W4 m c (Proc.devRef .tc main_v31) := W5_of_ne m c main_v31 (by decide)
    _ = W3 m c (Proc.devRef .tc main_v31) := StableHlo.after_of_writes_sub hostOps1 _ hostOps1_writes (by decide)
    _ = W2 m c (Proc.devRef .tc main_v31) := W3_of_ne m c main_v31 (by decide)
    _ = W1 m c (Proc.devRef .tc main_v31) := StableHlo.after_of_writes_sub hostOps0_1 _ hostOps0_1_writes (by decide)

/-- The second layer's weights are the launch's when region 1 is entered. -/
theorem kW4_eq (c : Dev Cert.KernelIdeal.nD) : kW4 m c = X5 m c :=
  calc W4 m c (Proc.devRef .tc main_arg5)
    _ = W3 m c (Proc.devRef .tc main_arg5) := StableHlo.after_of_writes_sub hostOps1 _ hostOps1_writes (by decide)
    _ = W2 m c (Proc.devRef .tc main_arg5) := W3_of_ne m c main_arg5 (by decide)
    _ = W1 m c (Proc.devRef .tc main_arg5) := StableHlo.after_of_writes_sub hostOps0_1 _ hostOps0_1_writes (by decide)
    _ = W0 m c (Proc.devRef .tc main_arg5) := StableHlo.after_of_writes_sub hostOps0 _ hostOps0_writes (by decide)
    _ = m ((c : Thread nD τ).loc main_arg5) := rfl

/-- The second layer's bias is the launch's after region 1. -/
theorem kBias5_eq (c : Dev Cert.KernelIdeal.nD) : kBias5 m c = X6 m c :=
  calc W5 m c (Proc.devRef .tc main_arg6)
    _ = W4 m c (Proc.devRef .tc main_arg6) := W5_of_ne m c main_arg6 (by decide)
    _ = W3 m c (Proc.devRef .tc main_arg6) := StableHlo.after_of_writes_sub hostOps1 _ hostOps1_writes (by decide)
    _ = W2 m c (Proc.devRef .tc main_arg6) := W3_of_ne m c main_arg6 (by decide)
    _ = W1 m c (Proc.devRef .tc main_arg6) := StableHlo.after_of_writes_sub hostOps0_1 _ hostOps0_1_writes (by decide)
    _ = W0 m c (Proc.devRef .tc main_arg6) := StableHlo.after_of_writes_sub hostOps0 _ hostOps0_writes (by decide)
    _ = m ((c : Thread nD τ).loc main_arg6) := rfl

/-- REGION 1'S OUTPUT, ENTRY BY ENTRY: the positive part of the first layer's padded output times the second weights. -/
theorem kP_apply (c : Dev Cert.KernelIdeal.nD) (i : Fin 50048) (j : Fin 128) :
    kP m c (ix2 i j) = ∑ k : Fin 64, max (kH1 m c (ix2 i k)) 0 * X5 m c (ix2 k j) := by
  have hout : kP m c = r1_out (E4 m) c := W5_arr m c 2
  rw [hout, arr1_apply (E4 m) c i j]
  have hw : r1_w (E4 m) c = X5 m c := kW4_eq m c
  rw [hw]

/-- The kernel program's wrapped source column, wrapped destination column, broadcast edge weights, zero table and
    broadcast bias: the operands of its gather, product, scatter-add and final sum. -/
abbrev kSrcCol (c : Dev Cert.KernelIdeal.nD) : IVec Cert.KernelIdeal.S850000x1 32 :=
  broadcastInDim S850000x1 ![0] bcast_S850000_S850000x1_0
    (select (cmpi .slt (kSrc5 m c) (broadcastInDim S850000 ![] bcast_S_S850000 (constantI S_ 32 0#32)))
      (addi (kSrc5 m c) (broadcastInDim S850000 ![] bcast_S_S850000 (constantI S_ 32 50048#32))) (kSrc5 m c))
abbrev kDstCol (c : Dev Cert.KernelIdeal.nD) : IVec Cert.KernelIdeal.S850000x1 32 :=
  broadcastInDim S850000x1 ![0] bcast_S850000_S850000x1_0
    (select (cmpi .slt (kDst5 m c) (broadcastInDim S850000 ![] bcast_S_S850000 (constantI S_ 32 0#32)))
      (addi (kDst5 m c) (broadcastInDim S850000 ![] bcast_S_S850000 (constantI S_ 32 50048#32))) (kDst5 m c))
abbrev kWts (c : Dev Cert.KernelIdeal.nD) : FVec Ideal Cert.KernelIdeal.S850000x128 .f32 :=
  broadcastInDim S850000x128 ![0, 1] bcast_S850000x1_S850000x128_0_1
    (broadcastInDim S850000x1 ![0] bcast_S850000_S850000x1_0 (kNorm5 m c))
abbrev kZero : FVec Ideal Cert.KernelIdeal.S50048x128 .f32 :=
  broadcastInDim S50048x128 ![] bcast_S_S50048x128 (constant (F := Ideal) S_ .f32 0x00000000#32)
abbrev kBiasT (c : Dev Cert.KernelIdeal.nD) : FVec Ideal Cert.KernelIdeal.S50048x128 .f32 :=
  broadcastInDim S50048x128 ![0, 1] bcast_S1x128_S50048x128_0_1 (broadcastInDim S1x128 ![1] bcast_S128_S1x128_1 (kBias5 m c))

/-- THE HOST STRETCH AFTER REGION 1, READ: the second layer's padded output is the scatter-add, at the wrapped
    destinations and into a zero table, of the rows of region 1's output gathered at the wrapped sources and scaled by
    the edge weights, plus the bias. The two short stretches that follow do not write it. -/
theorem kH2_eq (c : Dev Cert.KernelIdeal.nD) :
    kH2 m c = addf (Host.scatterAdd scatter_S50048x128_S850000x1_S850000x128_1_0_0_1 kZero (kDstCol m c)
        (mulf (Host.gather gather_S50048x128_S850000x1_S850000x128_1_0_n_n_0_1_1128 (kP m c) (kSrcCol m c)) (kWts m c)))
      (kBiasT m c) := by
  have h6 : kH2 m c = W6 m c (Proc.devRef .tc main_v76) :=
    calc W8 m c (Proc.devRef .tc main_v76)
      _ = W7 m c (Proc.devRef .tc main_v76) := StableHlo.after_of_writes_sub hostOps2_2 _ hostOps2_2_writes (by decide)
      _ = W6 m c (Proc.devRef .tc main_v76) := StableHlo.after_of_writes_sub hostOps2_1 _ hostOps2_1_writes (by decide)
  rw [h6]
  show StableHlo.after hostOps2 _ (Proc.devRef .tc main_v76) = _
  simp only [Cert.KernelIdeal.Gen.hostOps2]
  after_results_simp

/-! ## The operands agree -/

section Operands
open Cert.ReferenceIdeal.Read

/-- The kernel program's wrapped source column is the source column: every source is a node, so none is negative. -/
theorem kSrcCol_apply (hpre : Cert.Pre_KernelIdeal m) (c : Dev Cert.KernelIdeal.nD) (e : Fin 850000) :
    kSrcCol m c (ix2 e 0) = rSrc m c (ix1 e) := by
  have hk : kSrc5 m c = rSrc m c := (kSrc5_eq m c).trans (k_src m c)
  have h0 : 0 ≤ (kSrc5 m c (ix1 e)).toInt := by rw [hk]; exact (src_range m hpre c e).1
  exact (wrapCol_apply (by decide) bcast_S850000_S850000x1_0 bcast_S_S850000 (kSrc5 m c) 50048#32 e h0).trans
    (congrFun hk (ix1 e))

theorem kDstCol_apply (hpre : Cert.Pre_KernelIdeal m) (c : Dev Cert.KernelIdeal.nD) (e : Fin 850000) :
    kDstCol m c (ix2 e 0) = rDst m c (ix1 e) := by
  have hk : kDst5 m c = rDst m c := (kDst5_eq m c).trans (k_dst m c)
  have h0 : 0 ≤ (kDst5 m c (ix1 e)).toInt := by rw [hk]; exact (dst_range m hpre c e).1
  exact (wrapCol_apply (by decide) bcast_S850000_S850000x1_0 bcast_S_S850000 (kDst5 m c) 50048#32 e h0).trans
    (congrFun hk (ix1 e))

/-- The reference's wrapped source column is the source column, for the same reason. -/
theorem rSrcCol_apply (hpre : Cert.Pre_KernelIdeal m) (c : Dev Cert.KernelIdeal.nD) (e : Fin 850000) :
    val_main_v61 (F := Ideal) (X1 m c) (ix2 e 0) = rSrc m c (ix1 e) :=
  wrapCol_apply (by decide) Cert.ReferenceIdeal.Facts₀.bcast_S850000_S850000x1_0 Cert.ReferenceIdeal.Facts₀.bcast_S_S850000
    (rSrc m c) 50000#32 e (src_range m hpre c e).1

theorem rDstCol_apply (hpre : Cert.Pre_KernelIdeal m) (c : Dev Cert.KernelIdeal.nD) (e : Fin 850000) :
    val_main_v72 (F := Ideal) (X1 m c) (ix2 e 0) = rDst m c (ix1 e) :=
  wrapCol_apply (by decide) Cert.ReferenceIdeal.Facts₀.bcast_S850000_S850000x1_0 Cert.ReferenceIdeal.Facts₀.bcast_S_S850000
    (rDst m c) 50000#32 e (dst_range m hpre c e).1

/-- The broadcast edge weights, on both sides: entry `(e, j)` is edge `e`'s weight. -/
theorem kWts_apply (c : Dev Cert.KernelIdeal.nD) (e : Fin 850000) (j : Fin 128) :
    kWts m c (ix2 e j) = rNorm m c (ix1 e) := by
  have hk : kNorm5 m c = rNorm m c := (kNorm5_eq m c).trans (k_norm m c)
  exact (bcastCol_apply (by decide) bcast_S850000x1_S850000x128_0_1 bcast_S850000_S850000x1_0 (kNorm5 m c) e j).trans
    (congrFun hk (ix1 e))

theorem rWts_apply (c : Dev Cert.KernelIdeal.nD) (e : Fin 850000) (j : Fin 128) :
    val_main_v64 (F := Ideal) (X1 m c) (ix2 e j) = rNorm m c (ix1 e) :=
  bcastCol_apply (by decide) Cert.ReferenceIdeal.Facts₀.bcast_S850000x1_S850000x128_0_1
    Cert.ReferenceIdeal.Facts₀.bcast_S850000_S850000x1_0 (rNorm m c) e j

/-- The broadcast bias, on both sides: entry `(a, j)` is the bias's entry `j`. -/
theorem kBiasT_apply (c : Dev Cert.KernelIdeal.nD) (a : Fin 50048) (j : Fin 128) :
    kBiasT m c (ix2 a j) = X6 m c (ix1 j) :=
  (bcastRow_apply (by decide) bcast_S1x128_S50048x128_0_1 bcast_S128_S1x128_1 (kBias5 m c) a j).trans
    (congrFun (kBias5_eq m c) (ix1 j))

theorem rBias_apply (c : Dev Cert.KernelIdeal.nD) (a : Fin 50000) (j : Fin 128) :
    val_main_v75 (F := Ideal) (X6 m c) (ix2 a j) = X6 m c (ix1 j) :=
  bcastRow_apply (by decide) Cert.ReferenceIdeal.Facts₀.bcast_S1x128_S50000x128_0_1 Cert.ReferenceIdeal.Facts₀.bcast_S128_S1x128_1
    (X6 m c) a j

/-- THE REFERENCE'S PRODUCT TABLE, ENTRY BY ENTRY: the positive part of its first layer's output times the second weights. -/
theorem rP_apply (c : Dev Cert.KernelIdeal.nD) (i : Fin 50000) (j : Fin 128) :
    val_main_v55 (F := Ideal) (X0 m c) (X1 m c) (X3 m c) (X4 m c) (X5 m c) (ix2 i j)
      = ∑ k : Fin 64, max (rH1 m c (ix2 i k)) 0 * X5 m c (ix2 k j) := by
  rw [val_main_v55_apply]
  refine Finset.sum_congr rfl fun k _ => ?_
  have hl : lidx_main_v55 (ix2 i j) k = ix2 i k :=
    funext fun a => Fin.ext (by match a with | ⟨0, _⟩ => rfl | ⟨1, _⟩ => rfl)
  have hr : ridx_main_v55 (ix2 i j) k = ix2 k j :=
    funext fun a => Fin.ext (by match a with | ⟨0, _⟩ => rfl | ⟨1, _⟩ => rfl)
  rw [hl, hr, val_main_v54_apply, Ideal.maximumf_def, val_main_call0_v0_apply, val_main_call0_cst_apply]
  show max _ (Ideal.ofBits .f32 0x00000000#32) * _ = _
  rw [Ideal.ofBits_zero_f32]

end Operands

end L2

/-! ## The second layer -/

open L2 Cert.ReferenceIdeal.Read in
theorem layer2 (hpre : Cert.Pre_KernelIdeal m) (c : Dev Cert.KernelIdeal.nD)
    (h1 : ∀ (i : Fin 50000) (j : Fin 64), kH1 m c (ix2 (up i) j) = rH1 m c (ix2 i j))
    (i : Fin 50000) (j : Fin 128) :
    kH2 m c (ix2 (up i) j) = rH2 m c (ix2 i j) := by
  -- the product tables agree on the rows below 50000: the first layer's outputs do, and the weights are the same
  have hag : ∀ (a : Fin 50000) (b : Fin 128),
      kP m c (ix2 ⟨a.val, lt_of_lt_of_le a.isLt (by decide : 50000 ≤ 50048)⟩ b)
        = val_main_v55 (F := Ideal) (X0 m c) (X1 m c) (X3 m c) (X4 m c) (X5 m c) (ix2 a b) := by
    intro a b
    rw [kP_apply, rP_apply]
    refine Finset.sum_congr rfl fun k _ => ?_
    rw [← h1 a k]
    rfl
  -- the gather, the scaling and the scatter-add agree on the rows below 50000 whatever the padding holds
  have hconv := Cert.LibConv.conv_agree (N := 50000) (NP := 50048) (D := 128) (E := 850000) (by decide) (by decide)
    Cert.KernelIdeal.Facts₀.gather_S50048x128_S850000x1_S850000x128_1_0_n_n_0_1_1128_wf
    Cert.ReferenceIdeal.Facts₀.gather_S50000x128_S850000x1_S850000x128_1_0_n_n_0_1_1128_wf
    Cert.KernelIdeal.Facts₀.scatter_S50048x128_S850000x1_S850000x128_1_0_0_1_wf
    Cert.ReferenceIdeal.Facts₀.scatter_S50000x128_S850000x1_S850000x128_1_0_0_1_wf
    (kP m c) (val_main_v55 (F := Ideal) (X0 m c) (X1 m c) (X3 m c) (X4 m c) (X5 m c)) hag
    (kSrcCol m c) (val_main_v61 (F := Ideal) (X1 m c)) (kDstCol m c) (val_main_v72 (F := Ideal) (X1 m c))
    (fun e => (kSrcCol_apply m hpre c e).trans (rSrcCol_apply m hpre c e).symm)
    (fun e => by rw [rSrcCol_apply m hpre c e]; exact src_range m hpre c e)
    (fun e => (kDstCol_apply m hpre c e).trans (rDstCol_apply m hpre c e).symm)
    (kWts m c) (val_main_v64 (F := Ideal) (X1 m c))
    (fun e b => (kWts_apply m c e b).trans (rWts_apply m c e b).symm)
    kZero (val_main_v66 (F := Ideal)) (fun _ _ => rfl) i j
  rw [kH2_eq m c, addf_apply, kBiasT_apply]
  show _ = val_main_v76 (F := Ideal) (X0 m c) (X1 m c) (X3 m c) (X4 m c) (X5 m c) (X6 m c) (ix2 i j)
  rw [val_main_v76_apply, Ideal.addf_def, rBias_apply]
  exact congrArg (· + X6 m c (ix1 j)) hconv

end Cert.Bridge

end
-- ==== Proof.LibCount.lean ====
/-
  COUNTING BY AN INTEGER SCATTER OF ONES.

  Scatter-adding the 32-bit integer one, once per row of a column of scatter indices, into a vector of zeros leaves at
  entry g the number of rows whose index, read signed, is g — as a 32-bit word, exact as long as the column has fewer than
  2^31 rows. Beside it, the same count as the exact scatter-add of the real one over the extended reals.
-/
import proofs.«411454_j24300924961028_1_alg».proof.Proof.LibIndexing
import Idealize.ShloMosaic.PureOps.Ideal.Laws

noncomputable section

open scoped BigOperators

namespace Cert.LibCount

open Idealize.ShloMosaic Idealize.ShloMosaic.ValueIdx Cert.LibIndexing

/-- The rows of the column whose scatter index, read signed, is `g`. -/
abbrev hits {N G : Nat} (idx : IVec ⟨2, ![N, 1]⟩ 32) (g : Fin G) : Finset (Fin N) :=
  Finset.univ.filter (fun n : Fin N => (idx (ix2 n 0)).toInt = (g.val : Int))

/-- The sum of ones over a finite set is its number of elements. -/
theorem sum_ones {ι : Type} (s : Finset ι) : ∑ _e ∈ s, (1 : EReal) = (s.card : EReal) := by
  rw [Finset.sum_const, nsmul_one]

/-- Counting the positions of a duplicate-free, exhaustive list that satisfy a predicate counts the set's elements
    that satisfy it. -/
theorem countP_eq_card {ι : Type} [Fintype ι] [DecidableEq ι] (l : List ι) (hnd : l.Nodup) (hall : ∀ x, x ∈ l)
    (p : ι → Prop) [DecidablePred p] :
    l.countP (fun x => decide (p x)) = (Finset.univ.filter p).card := by
  rw [List.countP_eq_length_filter, ← List.toFinset_card_of_nodup (hnd.filter _)]
  congr 1
  ext x
  simp [hall x]

section Fold
variable {s si u : Shape} {w : Nat}

/-- THE FOLD COUNTS. Folding, over any list of update positions, "add the word one to the entry the position lands on"
    leaves at an entry its starting word plus the number of the list's positions that land on it. -/
theorem fold_ones_count (d : ScatterDims s si u) (idx : IVec si w) (i₀ : s.Idx) (l : List (Fin u.numel))
    (r₀ : s.Idx → BitVec 32) :
    (l.foldl (fun r n =>
        match d.resultIdx? (u.rowMajor.symm n) idx with
        | some i => fun i' => if i' = i then IntOp.addi (r i) ((fun _ => (1#32 : BitVec 32)) (u.rowMajor.symm n)) else r i'
        | none => r) r₀) i₀
      = r₀ i₀ + BitVec.ofNat 32 (l.countP (fun n => decide (d.resultIdx? (u.rowMajor.symm n) idx = some i₀))) := by
  induction l generalizing r₀ with
  | nil => simp
  | cons n l ih =>
    rw [List.foldl_cons, ih, List.countP_cons]
    cases h : d.resultIdx? (u.rowMajor.symm n) idx with
    | none => simp
    | some i =>
      by_cases hi : i₀ = i
      · subst hi
        simp only [if_true, decide_true]
        show r₀ i₀ + 1#32 + _ = _
        rw [BitVec.ofNat_add, BitVec.add_assoc, BitVec.add_comm (1#32)]
      · have hne : ¬ (some i = some i₀) := fun hc => hi (Option.some.inj hc).symm
        simp [hi, hne]

end Fold

/-- THE INTEGER SCATTER OF ONES COUNTS: entry `g` is the number of rows whose index is `g`, as a word. -/
theorem scatter_ones_count {N G : Nat} (wf : ScatterDims.WF ⟨1, ![G]⟩ ⟨2, ![N, 1]⟩ ⟨1, ![N]⟩ [] [0] [0] 1)
    (idx : IVec ⟨2, ![N, 1]⟩ 32) (g : Fin G) :
    Host.scatter (vecScatterDims G N wf) IntOp.addi (fun _ => (0#32 : BitVec 32)) idx (fun _ => (1#32 : BitVec 32)) (ix1 g)
      = BitVec.ofNat 32 (hits idx g).card := by
  unfold Host.scatter
  refine (fold_ones_count (vecScatterDims G N wf) idx (ix1 g) _ _).trans ?_
  rw [BitVec.zero_add]
  congr 1
  rw [countP_eq_card _ (List.nodup_finRange _) List.mem_finRange
    (fun n => (vecScatterDims G N wf).resultIdx? ((⟨1, ![N]⟩ : Shape).rowMajor.symm n) idx = some (ix1 g))]
  refine Finset.card_equiv ((⟨1, ![N]⟩ : Shape).rowMajor.symm.trans idxEquiv1) fun n => ?_
  simp only [Finset.mem_filter, Finset.mem_univ, true_and]
  have hn : (⟨1, ![N]⟩ : Shape).rowMajor.symm n
      = ix1 (((⟨1, ![N]⟩ : Shape).rowMajor.symm.trans idxEquiv1) n) := eq_ix1 _
  rw [hn, vecScatter_resultIdx?_eq_some]

/-- The exact scatter-add of the real one counts the same rows. -/
theorem scatterAdd_ones_count {N G : Nat} (wf : ScatterDims.WF ⟨1, ![G]⟩ ⟨2, ![N, 1]⟩ ⟨1, ![N]⟩ [] [0] [0] 1)
    (idx : IVec ⟨2, ![N, 1]⟩ 32) (z : FVec Ideal ⟨1, ![G]⟩ .f32) (o : FVec Ideal ⟨1, ![N]⟩ .f32)
    (hz : ∀ g, z g = 0) (ho : ∀ n, o n = 1) (g : Fin G) :
    Host.scatterAdd (vecScatterDims G N wf) z idx o (ix1 g) = ((hits idx g).card : EReal) := by
  rw [scatterAdd_vec_apply wf idx z o g, hz, zero_add, Finset.sum_congr rfl (fun e _ => ho (ix1 e))]
  exact sum_ones _

end Cert.LibCount

end
-- ==== Proof.Br.Pool.lean ====
/-
  Pooling and the mean: given the second layer's agreement on the rows below 50000, the two programs' per-graph means
  are equal. The kernel program sums, per graph, the rows whose id equals the graph's (the padding rows carry the id 512,
  no graph's) and counts ids by an integer scatter of ones after clipping at zero; the reference scatter-adds the rows and
  ones at the ids. With every id non-negative the clip does nothing, and the sums and the counts agree.
-/
import proofs.«411454_j24300924961028_1_alg».proof.Proof.Br.Common
import proofs.«411454_j24300924961028_1_alg».proof.Proof.LibCount
import proofs.«411454_j24300924961028_1_alg».proof.Defs
import Idealize.ShloMosaic.Lib.Pipeline.Value
import Idealize.ShloMosaic.Lib.ValueIdx
import Idealize.ShloMosaic.Lib.ValueIdxRank1
import Idealize.ShloMosaic.Lib.ValueLayout
import Idealize.ShloMosaic.Lib.ReduceAll
import Idealize.ShloMosaic.Lib.StableHlo.Run
import Idealize.ShloMosaic.Lib.StableHlo.Predicate
import Idealize.ShloMosaic.PureOps.Ideal.Laws
import Idealize.ShloMosaic.Lib.KernelVsHost

set_option maxRecDepth 16384

noncomputable section

open scoped BigOperators

namespace Cert.Bridge

open Idealize.ShloMosaic Idealize.ShloMosaic.TcCoe Idealize.ShloMosaic.ValueIdx Idealize.SL.Sem
open Cert.KernelIdeal.Hand

variable [hPre : Cert.Pre_finite_inputs.Facts]
variable (m : (ℓ : Loc Cert.KernelIdeal.nD Cert.KernelIdeal.τ Cert.KernelIdeal.sig) → Buf (Elt Ideal) ℓ)

/-! ## Words and their signed readings -/

/-- A count below 2^31, as a word, reads back signed as itself. -/
private theorem toInt_ofNat_small (k : Nat) (hk : k < 2147483648) : (BitVec.ofNat 32 k).toInt = (k : Int) := by
  have hn : (BitVec.ofNat 32 k).toNat = k := by rw [BitVec.toNat_ofNat]; exact Nat.mod_eq_of_lt (by omega)
  rw [BitVec.toInt_eq_toNat_of_lt (by rw [hn]; omega), hn]

/-- A word is graph `g`'s id exactly when its signed reading is `g`. -/
private theorem eq_ofNat_iff (w : BitVec 32) (g : Fin 512) : w = BitVec.ofNat 32 g.val ↔ w.toInt = (g.val : Int) := by
  rw [← toInt_ofNat_small g.val (by have := g.isLt; omega)]
  exact BitVec.toInt_inj.symm

/-- The padding id 512 is no graph's. -/
private theorem pad_id_ne (g : Fin 512) : (512#32 : BitVec 32) ≠ BitVec.ofNat 32 g.val := by
  intro h
  have h' := (eq_ofNat_iff _ g).mp h
  have : (512#32 : BitVec 32).toInt = 512 := by decide
  have := g.isLt
  omega

/-- The f32 word of one is the extended real one. -/
private theorem ofBits_one_f32 : Ideal.ofBits .f32 0x3F800000#32 = (1 : EReal) := by
  simp [Ideal.ofBits, Ideal.ieee]
  rw [← EReal.coe_mul, ← EReal.coe_one]; congr 1; norm_num

/-! ## The padded id column -/

open Cert.KernelIdeal Cert.KernelIdeal.Facts₀ in
/-- The ids padded by 48 entries and reshaped to a column: a row below 50000 carries its id, -/
private theorem padcol_low (x : IVec S50000 32) (v : IVec S_ 32) (i : Fin 50000) :
    shapeCast S50048x1 (pad S50048 ![0] ![48] ![0] x v pads_S50000_S50048_0480 h_S_) shapeCasts_S50048_S50048x1 (ix2 (up i) 0)
      = x (ix1 i) := by
  rw [shapeCast_apply _ shapeCasts_S50048_S50048x1 (ix2 (up i) 0) (ix1 (up i)) (by
    rw [Shape.rowMajor_val_one, Shape.rowMajor_val_two]; show (up i).val = (up i).val * 1 + 0; omega)]
  exact pad_apply_of_inside _ _ _ x v pads_S50000_S50048_0480 h_S_ (ix1 (up i)) (ix1 i) (fun a => by
    obtain rfl : a = 0 := Subsingleton.elim _ _
    show i.val = 0 + i.val * (0 + 1); omega)

open Cert.KernelIdeal Cert.KernelIdeal.Facts₀ in
/-- and a padding row the padding value. -/
private theorem padcol_high (x : IVec S50000 32) (v : IVec S_ 32) (n : Fin 50048) (hn : 50000 ≤ n.val) :
    shapeCast S50048x1 (pad S50048 ![0] ![48] ![0] x v pads_S50000_S50048_0480 h_S_) shapeCasts_S50048_S50048x1 (ix2 n 0)
      = v (Shape.Idx.first h_S_) := by
  rw [shapeCast_apply _ shapeCasts_S50048_S50048x1 (ix2 n 0) (ix1 n) (by
    rw [Shape.rowMajor_val_one, Shape.rowMajor_val_two]; show n.val = n.val * 1 + 0; omega)]
  exact pad_apply_of_not_inside _ _ _ x v pads_S50000_S50048_0480 h_S_ (ix1 n) 0 (by
    intro h
    have h3 : (n.val - 0) / (0 + 1) < 50000 := h.2.2
    omega)

/-! ## Clipping a non-negative id at zero and wrapping a negative one do nothing -/

open Cert.KernelIdeal Cert.KernelIdeal.Facts₀ in
private theorem clip_wrap_id (x : IVec S50000 32) (hx : ∀ n, 0 ≤ (x n).toInt) :
    select (cmpi .slt (maxsi (broadcastInDim S50000 ![] bcast_S_S50000 (constantI S_ 32 0#32)) x)
        (broadcastInDim S50000 ![] bcast_S_S50000 (constantI S_ 32 0#32)))
      (addi (maxsi (broadcastInDim S50000 ![] bcast_S_S50000 (constantI S_ 32 0#32)) x)
        (broadcastInDim S50000 ![] bcast_S_S50000 (constantI S_ 32 512#32)))
      (maxsi (broadcastInDim S50000 ![] bcast_S_S50000 (constantI S_ 32 0#32)) x) = x := by
  funext n
  have h0 : (x n).slt 0#32 = false := by
    have := hx n
    rw [BitVec.slt]; simp only [decide_eq_false_iff_not, not_lt]
    show (0#32 : BitVec 32).toInt ≤ (x n).toInt
    rw [show (0#32 : BitVec 32).toInt = 0 from by decide]; exact this
  have hm : maxsi (broadcastInDim S50000 ![] bcast_S_S50000 (constantI S_ 32 0#32)) x n = x n := by
    show IntOp.maxsi (0#32) (x n) = x n
    unfold IntOp.maxsi; rw [h0]; rfl
  show Scalar.select (IntOp.cmpi .slt (maxsi _ x n) (0#32)) (IntOp.addi (maxsi _ x n) (512#32)) (maxsi _ x n) = x n
  rw [hm]
  unfold Scalar.select IntOp.cmpi
  simp only [h0]
  rfl

/-! ## The two broadcasts of the counts -/

open Cert.KernelIdeal Cert.KernelIdeal.Facts₀ in
private theorem bcast2_apply (y : FVec Ideal S512 .f32) (g : Fin 512) (j : Fin 128) :
    broadcastInDim S512x128 ![0, 1] bcast_S512x1_S512x128_0_1 (broadcastInDim S512x1 ![0] bcast_S512_S512x1_0 y) (ix2 g j)
      = y (ix1 g) := by
  rw [broadcastInDim_apply _ bcast_S512x1_S512x128_0_1 _ (ix2 g j) (ix2 g 0) (fun a => match a with
    | ⟨0, _⟩ => by show g.val = if (512 : Nat) = 1 then 0 else g.val; rw [if_neg (by decide)]
    | ⟨1, _⟩ => by show 0 = if (1 : Nat) = 1 then 0 else j.val; rw [if_pos rfl])]
  exact broadcastInDim_apply _ bcast_S512_S512x1_0 y (ix2 g 0) (ix1 g) (fun a => match a with
    | ⟨0, _⟩ => by show g.val = if (512 : Nat) = 1 then 0 else g.val; rw [if_neg (by decide)])

/-! ## A sum over the padded rows -/

private theorem sum_padded (f : Fin 50048 → EReal) :
    ∑ n : Fin 50048, f n = ∑ i : Fin 50000, f (up i) + ∑ k : Fin 48, f ⟨50000 + k.val, by have := k.isLt; omega⟩ :=
  Fin.sum_univ_add (M := EReal) (a := 50000) (b := 48) f

/-! ## The kernel program's side -/

open Cert.KernelIdeal Cert.KernelIdeal.Gen in
/-- The graph ids are an argument: no host stretch and no region before the pooling writes them. -/
private theorem W5_arg2 (c : Dev Cert.KernelIdeal.nD) : W5 m c (Proc.devRef .tc main_arg2) = X2 m c :=
  calc W5 m c (Proc.devRef .tc main_arg2)
    _ = W4 m c (Proc.devRef .tc main_arg2) := W5_of_ne m c main_arg2 (by decide)
    _ = W3 m c (Proc.devRef .tc main_arg2) := StableHlo.after_of_writes_sub hostOps1 _ hostOps1_writes (by decide)
    _ = W2 m c (Proc.devRef .tc main_arg2) := W3_of_ne m c main_arg2 (by decide)
    _ = W1 m c (Proc.devRef .tc main_arg2) := StableHlo.after_of_writes_sub hostOps0_1 _ hostOps0_1_writes (by decide)
    _ = W0 m c (Proc.devRef .tc main_arg2) := StableHlo.after_of_writes_sub hostOps0 _ hostOps0_writes (by decide)
    _ = X2 m c := rfl

open Cert.KernelIdeal Cert.KernelIdeal.Gen in
/-- Nor does the pooling region or the stretch before it. -/
private theorem W9_arg2 (c : Dev Cert.KernelIdeal.nD) : W9 m c (Proc.devRef .tc main_arg2) = X2 m c :=
  calc W9 m c (Proc.devRef .tc main_arg2)
    _ = W8 m c (Proc.devRef .tc main_arg2) := W9_of_ne m c main_arg2 (by decide)
    _ = W7 m c (Proc.devRef .tc main_arg2) := StableHlo.after_of_writes_sub hostOps2_2 _ hostOps2_2_writes (by decide)
    _ = W6 m c (Proc.devRef .tc main_arg2) := StableHlo.after_of_writes_sub hostOps2_1 _ hostOps2_1_writes (by decide)
    _ = W5 m c (Proc.devRef .tc main_arg2) := StableHlo.after_of_writes_sub hostOps2 _ hostOps2_writes (by decide)
    _ = X2 m c := W5_arg2 m c

open Cert.KernelIdeal Cert.KernelIdeal.Facts₀ in
set_option maxHeartbeats 1000000 in
/-- The pooling region's id column: the graph ids padded with 48 entries equal to 512, as a column. -/
private theorem kId_eq (c : Dev Cert.KernelIdeal.nD) :
    r2_id (E8 m) c = shapeCast S50048x1 (pad S50048 ![0] ![48] ![0] (X2 m c) (constantI S_ 32 512#32)
      pads_S50000_S50048_0480 h_S_) shapeCasts_S50048_S50048x1 := by
  show StableHlo.after Gen.hostOps2_2 _ (Proc.devRef .tc main_v78) = _
  simp only [Gen.hostOps2_2]; after_results
  rw [W5_arg2 m c]
  rfl

/-- A node's row carries the node's graph id, -/
private theorem kId_low (c : Dev Cert.KernelIdeal.nD) (i : Fin 50000) : r2_id (E8 m) c (ix2 (up i) 0) = X2 m c (ix1 i) := by
  rw [kId_eq m c]; exact padcol_low _ _ i

/-- a padding row the id 512. -/
private theorem kId_high (c : Dev Cert.KernelIdeal.nD) (n : Fin 50048) (hn : 50000 ≤ n.val) :
    r2_id (E8 m) c (ix2 n 0) = 512#32 := by
  rw [kId_eq m c, padcol_high _ _ n hn]; rfl

/-- The nodes of graph `g`: the rows whose id, read signed, is `g`. -/
private abbrev nodesOf (x : IVec ⟨1, ![50000]⟩ 32) (g : Fin 512) : Finset (Fin 50000) :=
  Finset.univ.filter fun n : Fin 50000 => (x (ix1 n)).toInt = (g.val : Int)

/-- A vector laid out as a column reads the vector. -/
private theorem bcol_apply (h : (⟨1, ![50000]⟩ : Shape).BroadcastsInDim ⟨2, ![50000, 1]⟩ ![0]) (x : IVec ⟨1, ![50000]⟩ 32)
    (n : Fin 50000) : broadcastInDim ⟨2, ![50000, 1]⟩ ![0] h x (ix2 n 0) = x (ix1 n) :=
  broadcastInDim_apply _ h x (ix2 n 0) (ix1 n) (fun a => match a with
    | ⟨0, _⟩ => by show n.val = if (50000 : Nat) = 1 then 0 else n.val; rw [if_neg (by decide)])

private theorem card_nodes_lt (x : IVec ⟨1, ![50000]⟩ 32) (g : Fin 512) : (nodesOf x g).card < 2147483648 :=
  lt_of_le_of_lt (Finset.card_filter_le _ _) (by rw [Finset.card_univ, Fintype.card_fin]; norm_num)

open Cert.KernelIdeal Cert.KernelIdeal.Facts₀ in
/-- The kernel program's scatter indices, from the ids: clipped at zero, a negative one wrapped, as a column. -/
private def kIdx (x : IVec S50000 32) : IVec S50000x1 32 :=
  broadcastInDim S50000x1 ![0] bcast_S50000_S50000x1_0
    (select (cmpi .slt (maxsi (broadcastInDim S50000 ![] bcast_S_S50000 (constantI S_ 32 0#32)) x)
        (broadcastInDim S50000 ![] bcast_S_S50000 (constantI S_ 32 0#32)))
      (addi (maxsi (broadcastInDim S50000 ![] bcast_S_S50000 (constantI S_ 32 0#32)) x)
        (broadcastInDim S50000 ![] bcast_S_S50000 (constantI S_ 32 512#32)))
      (maxsi (broadcastInDim S50000 ![] bcast_S_S50000 (constantI S_ 32 0#32)) x))

open Cert.KernelIdeal Cert.KernelIdeal.Facts₀ in
/-- Its per-graph counts: integer ones scattered into zeros at those indices. -/
private def kCnt (x : IVec S50000 32) : IVec S512 32 :=
  Host.scatter scatter_S512_S50000x1_S50000_n_0_0_1 IntOp.addi
    (broadcastInDim S512 ![] bcast_S_S512 (constantI S_ 32 0#32)) (kIdx x)
    (broadcastInDim S50000 ![] bcast_S_S50000 (constantI S_ 32 1#32))

open Cert.KernelIdeal Cert.KernelIdeal.Facts₀ in
/-- Its per-graph divisor: the larger of a count, converted, and one. -/
private def kDen (x : IVec S50000 32) : FVec Ideal S512 .f32 :=
  maximumf (sitofp .f32 (kCnt x)) (broadcastInDim S512 ![] bcast_S_S512 (constant S_ .f32 0x3F800000#32))

open Cert.KernelIdeal Cert.KernelIdeal.Facts₀ in
/-- With every id non-negative the scatter indices are the ids. -/
private theorem kIdx_eq (x : IVec S50000 32) (hx : ∀ n, 0 ≤ (x n).toInt) :
    kIdx x = broadcastInDim S50000x1 ![0] bcast_S50000_S50000x1_0 x := by
  unfold kIdx; rw [clip_wrap_id x hx]

open Cert.KernelIdeal Cert.KernelIdeal.Facts₀ in
set_option maxHeartbeats 1000000 in
/-- So graph `g`'s count is its number of nodes, as a word. -/
private theorem kCnt_apply (x : IVec S50000 32) (hx : ∀ n, 0 ≤ (x n).toInt) (g : Fin 512) :
    kCnt x (ix1 g) = BitVec.ofNat 32 (nodesOf x g).card := by
  have hz : broadcastInDim S512 ![] bcast_S_S512 (constantI S_ 32 0#32) = fun _ => (0#32 : BitVec 32) := rfl
  have ho : broadcastInDim S50000 ![] bcast_S_S50000 (constantI S_ 32 1#32) = fun _ => (1#32 : BitVec 32) := rfl
  have hd : scatter_S512_S50000x1_S50000_n_0_0_1
      = Cert.LibIndexing.vecScatterDims 512 50000 scatter_S512_S50000x1_S50000_n_0_0_1_wf := rfl
  unfold kCnt
  rw [kIdx_eq x hx, hz, ho, hd]
  rw [Cert.LibCount.scatter_ones_count (N := 50000) (G := 512) scatter_S512_S50000x1_S50000_n_0_0_1_wf
    (broadcastInDim S50000x1 ![0] bcast_S50000_S50000x1_0 x) g]
  exact congrArg (fun s : Finset (Fin 50000) => BitVec.ofNat 32 s.card)
    (Finset.filter_congr fun n _ => by rw [bcol_apply])

open Cert.KernelIdeal Cert.KernelIdeal.Facts₀ in
/-- and its divisor the larger of its number of nodes and one. -/
private theorem kDen_apply (x : IVec S50000 32) (hx : ∀ n, 0 ≤ (x n).toInt) (g : Fin 512) :
    kDen x (ix1 g) = max (((nodesOf x g).card : ℕ) : EReal) (Ideal.ofBits .f32 0x3F800000#32) := by
  show max ((((kCnt x (ix1 g)).toInt : ℝ)) : EReal) (Ideal.ofBits .f32 0x3F800000#32) = _
  rw [kCnt_apply x hx g, toInt_ofNat_small _ (card_nodes_lt x g), Int.cast_natCast, EReal.coe_natCast]

open Cert.KernelIdeal Cert.KernelIdeal.Facts₀ in
set_option maxHeartbeats 4000000 in
/-- The kernel program's per-graph means, opened: the pooling region's sums over the broadcast divisors. -/
private theorem kPooled_open (c : Dev Cert.KernelIdeal.nD) :
    kPooled m c = Host.divf (r2_out (E8 m) c)
      (broadcastInDim S512x128 ![0, 1] bcast_S512x1_S512x128_0_1
        (broadcastInDim S512x1 ![0] bcast_S512_S512x1_0 (kDen (X2 m c)))) := by
  show StableHlo.after Gen.hostOps3_2 _ (Proc.devRef .tc main_v95) = _
  simp only [Gen.hostOps3_2]; after_results
  rw [W9_arg2 m c, show W9 m c (Proc.devRef .tc main_v79) = r2_out (E8 m) c from W9_arr m c 2]
  rfl

/-- The pooling region's sum for graph `g`: the second layer's rows of the graph's nodes. -/
private theorem kSum_apply (c : Dev Cert.KernelIdeal.nD)
    (h2 : ∀ (i : Fin 50000) (j : Fin 128), kH2 m c (ix2 (up i) j) = rH2 m c (ix2 i j)) (g : Fin 512) (j : Fin 128) :
    r2_out (E8 m) c (ix2 g j) = ∑ n ∈ nodesOf (X2 m c) g, rH2 m c (ix2 n j) := by
  rw [arr2_apply (E8 m) c g j, sum_padded]
  have hlow : ∀ i : Fin 50000,
      (if r2_id (E8 m) c (ix2 (up i) 0) = BitVec.ofNat 32 g.val then (1 : EReal) else 0) * r2_in (E8 m) c (ix2 (up i) j)
        = if (X2 m c (ix1 i)).toInt = (g.val : Int) then rH2 m c (ix2 i j) else 0 := by
    intro i
    rw [kId_low m c i]
    by_cases hi : (X2 m c (ix1 i)).toInt = (g.val : Int)
    · rw [if_pos ((eq_ofNat_iff _ g).mpr hi), if_pos hi, one_mul]; exact h2 i j
    · rw [if_neg (fun h => hi ((eq_ofNat_iff _ g).mp h)), if_neg hi, zero_mul]
  have hhigh : ∀ k : Fin 48,
      (if r2_id (E8 m) c (ix2 (⟨50000 + k.val, by have := k.isLt; omega⟩ : Fin 50048) 0) = BitVec.ofNat 32 g.val then (1 : EReal) else 0)
        * r2_in (E8 m) c (ix2 (⟨50000 + k.val, by have := k.isLt; omega⟩ : Fin 50048) j) = 0 := by
    intro k
    rw [kId_high m c _ (by show 50000 ≤ 50000 + k.val; omega), if_neg (pad_id_ne g), zero_mul]
  rw [Finset.sum_congr rfl (fun i _ => hlow i), Finset.sum_congr rfl (fun k _ => hhigh k), Finset.sum_const_zero, add_zero,
    Finset.sum_filter]

/-! ## The reference's side -/

open Cert.ReferenceIdeal Cert.ReferenceIdeal.Read in
/-- The reference's sum for graph `g`: the same rows, scatter-added into zeros. -/
private theorem rSum_apply (c : Dev Cert.KernelIdeal.nD) (g : Fin 512) (j : Fin 128) :
    val_main_v79 (F := Ideal) (X0 m c) (X1 m c) (X2 m c) (X3 m c) (X4 m c) (X5 m c) (X6 m c) (ix2 g j)
      = ∑ n ∈ nodesOf (X2 m c) g, rH2 m c (ix2 n j) := by
  refine (Cert.LibIndexing.scatterAdd_rows_apply (N := 512) (D := 128) (E := 50000)
    Facts₀.scatter_S512x128_S50000x1_S50000x128_1_0_0_1_wf (val_main_v78 (F := Ideal) (X2 m c))
    (val_main_v77 (F := Ideal)) (rH2 m c) g j).trans ?_
  rw [val_main_v77_apply, val_main_cst_16_apply]
  show Ideal.ofBits .f32 0x00000000#32 + _ = _
  rw [Ideal.ofBits_zero_f32, zero_add]
  exact Finset.sum_congr (Finset.filter_congr fun n _ => by
    rw [show val_main_v78 (F := Ideal) (X2 m c) (ix2 n 0) = X2 m c (ix1 n) from bcol_apply _ (X2 m c) n]) (fun _ _ => rfl)

open Cert.ReferenceIdeal Cert.ReferenceIdeal.Read in
/-- The reference's divisor of graph `g`: the larger of its number of nodes and one. -/
private theorem rDen_apply (x : IVec S50000 32) (g : Fin 512) :
    val_main_v85 (F := Ideal) x (ix1 g) = max (((nodesOf x g).card : ℕ) : EReal) (Ideal.ofBits .f32 0x3F800000#32) := by
  have hd : scatter_S512_S50000x1_S50000_n_0_0_1
      = Cert.LibIndexing.vecScatterDims 512 50000 Facts₀.scatter_S512_S50000x1_S50000_n_0_0_1_wf := rfl
  have h83 : val_main_v83 (F := Ideal) x (ix1 g) = (((nodesOf x g).card : ℕ) : EReal) := by
    unfold val_main_v83
    rw [hd, Cert.LibCount.scatterAdd_ones_count (N := 50000) (G := 512) Facts₀.scatter_S512_S50000x1_S50000_n_0_0_1_wf
      (val_main_v82 (F := Ideal) x) (val_main_v81 (F := Ideal)) (val_main_v80 (F := Ideal))
      (fun g => by rw [val_main_v81_apply, val_main_cst_18_apply]; exact Ideal.ofBits_zero_f32)
      (fun n => by rw [val_main_v80_apply, val_main_cst_17_apply]; exact ofBits_one_f32) g]
    exact congrArg (fun s : Finset (Fin 50000) => ((s.card : ℕ) : EReal)) (Finset.filter_congr fun n _ => by
      rw [show val_main_v82 (F := Ideal) x (ix2 n 0) = x (ix1 n) from bcol_apply _ x n])
  have h84 : val_main_v84 (F := Ideal) (ix1 g) = Ideal.ofBits .f32 0x3F800000#32 := by
    rw [val_main_v84_apply, val_main_cst_19_apply]; rfl
  rw [val_main_v85_apply, h83, h84]
  rfl

/-! ## The means, entry by entry -/

open Cert.KernelIdeal Cert.KernelIdeal.Facts₀ in
/-- The kernel program's mean of graph `g` at column `j`: the sum of its nodes' rows over the larger of its number of
    nodes and one. -/
private theorem kPooled_apply (hpre : Cert.Pre_KernelIdeal m) (c : Dev Cert.KernelIdeal.nD)
    (h2 : ∀ (i : Fin 50000) (j : Fin 128), kH2 m c (ix2 (up i) j) = rH2 m c (ix2 i j)) (g : Fin 512) (j : Fin 128) :
    kPooled m c (ix2 g j)
      = Ideal.div (∑ n ∈ nodesOf (X2 m c) g, rH2 m c (ix2 n j))
          (max (((nodesOf (X2 m c) g).card : ℕ) : EReal) (Ideal.ofBits .f32 0x3F800000#32)) := by
  rw [kPooled_open m c]
  show Ideal.div (r2_out (E8 m) c (ix2 g j))
    (broadcastInDim S512x128 ![0, 1] bcast_S512x1_S512x128_0_1
      (broadcastInDim S512x1 ![0] bcast_S512_S512x1_0 (kDen (X2 m c))) (ix2 g j)) = _
  rw [bcast2_apply, kDen_apply (X2 m c) (batch_nonneg m hpre c) g, kSum_apply m c h2 g j]

open Cert.ReferenceIdeal Cert.ReferenceIdeal.Read in
/-- The reference's: the same quotient. -/
private theorem rPooled_apply (c : Dev Cert.KernelIdeal.nD) (g : Fin 512) (j : Fin 128) :
    rPooled m c (ix2 g j)
      = Ideal.div (∑ n ∈ nodesOf (X2 m c) g, rH2 m c (ix2 n j))
          (max (((nodesOf (X2 m c) g).card : ℕ) : EReal) (Ideal.ofBits .f32 0x3F800000#32)) := by
  show val_main_v88 (F := Ideal) (X0 m c) (X1 m c) (X2 m c) (X3 m c) (X4 m c) (X5 m c) (X6 m c) (ix2 g j) = _
  rw [val_main_v88_apply, rSum_apply m c g j, val_main_v87_apply, val_main_v86_apply,
    show idx_main_v86 (idx_main_v87 (ix2 g j)) = ix1 g from funext fun a => match a with | ⟨0, _⟩ => rfl,
    rDen_apply (X2 m c) g]
  rfl

theorem pooled (hpre : Cert.Pre_KernelIdeal m) (c : Dev Cert.KernelIdeal.nD)
    (h2 : ∀ (i : Fin 50000) (j : Fin 128), kH2 m c (ix2 (up i) j) = rH2 m c (ix2 i j)) :
    kPooled m c = rPooled m c := by
  funext i
  obtain ⟨g, j, rfl⟩ : ∃ (g : Fin 512) (j : Fin 128), i = ix2 g j := ⟨i 0, i 1, eq_ix2 i⟩
  rw [kPooled_apply m hpre c h2 g j, rPooled_apply m c g j]

end Cert.Bridge

end
-- ==== Proof.Br.Tail.lean ====
/-
  The last layer: given equal per-graph means, the two programs' results are equal — the kernel region's product with the
  weights plus the bias row against the reference's matrix product plus the broadcast bias.
-/
import proofs.«411454_j24300924961028_1_alg».proof.Proof.Br.Common
import proofs.«411454_j24300924961028_1_alg».proof.Defs
import Idealize.ShloMosaic.Lib.Pipeline.Value
import Idealize.ShloMosaic.Lib.ValueIdx
import Idealize.ShloMosaic.Lib.ValueIdxRank1
import Idealize.ShloMosaic.Lib.ValueLayout
import Idealize.ShloMosaic.Lib.ReduceAll
import Idealize.ShloMosaic.Lib.StableHlo.Run
import Idealize.ShloMosaic.Lib.StableHlo.Predicate
import Idealize.ShloMosaic.PureOps.Ideal.Laws

set_option maxRecDepth 16384

noncomputable section

open scoped BigOperators

namespace Cert.Bridge

open Idealize.ShloMosaic Idealize.ShloMosaic.TcCoe Idealize.ShloMosaic.ValueIdx Idealize.SL.Sem
open Cert.KernelIdeal.Hand

variable [hPre : Cert.Pre_finite_inputs.Facts]
variable (m : (ℓ : Loc Cert.KernelIdeal.nD Cert.KernelIdeal.τ Cert.KernelIdeal.sig) → Buf (Elt Ideal) ℓ)

section Args
open Cert.KernelIdeal Cert.KernelIdeal.Gen

/-- The last weight matrix enters the last region as launched: no host stretch and no earlier region writes it. -/
private theorem w12_arg7 (c : Dev nD) : W12 m c (Proc.devRef .tc main_arg7) = X7 m c :=
  calc W12 m c (Proc.devRef .tc main_arg7)
    _ = W11 m c (Proc.devRef .tc main_arg7) := StableHlo.after_of_writes_sub hostOps3_2 _ hostOps3_2_writes (by decide)
    _ = W10 m c (Proc.devRef .tc main_arg7) := StableHlo.after_of_writes_sub hostOps3_1 _ hostOps3_1_writes (by decide)
    _ = W9 m c (Proc.devRef .tc main_arg7) := StableHlo.after_of_writes_sub hostOps3 _ hostOps3_writes (by decide)
    _ = W8 m c (Proc.devRef .tc main_arg7) := W9_of_ne m c main_arg7 (by decide)
    _ = W7 m c (Proc.devRef .tc main_arg7) := StableHlo.after_of_writes_sub hostOps2_2 _ hostOps2_2_writes (by decide)
    _ = W6 m c (Proc.devRef .tc main_arg7) := StableHlo.after_of_writes_sub hostOps2_1 _ hostOps2_1_writes (by decide)
    _ = W5 m c (Proc.devRef .tc main_arg7) := StableHlo.after_of_writes_sub hostOps2 _ hostOps2_writes (by decide)
    _ = W4 m c (Proc.devRef .tc main_arg7) := W5_of_ne m c main_arg7 (by decide)
    _ = W3 m c (Proc.devRef .tc main_arg7) := StableHlo.after_of_writes_sub hostOps1 _ hostOps1_writes (by decide)
    _ = W2 m c (Proc.devRef .tc main_arg7) := W3_of_ne m c main_arg7 (by decide)
    _ = W1 m c (Proc.devRef .tc main_arg7) := StableHlo.after_of_writes_sub hostOps0_1 _ hostOps0_1_writes (by decide)
    _ = W0 m c (Proc.devRef .tc main_arg7) := StableHlo.after_of_writes_sub hostOps0 _ hostOps0_writes (by decide)
    _ = X7 m c := rfl

/-- The last bias is still as launched when the pooling region is left. -/
private theorem w9_arg8 (c : Dev nD) : W9 m c (Proc.devRef .tc main_arg8) = X8 m c :=
  calc W9 m c (Proc.devRef .tc main_arg8)
    _ = W8 m c (Proc.devRef .tc main_arg8) := W9_of_ne m c main_arg8 (by decide)
    _ = W7 m c (Proc.devRef .tc main_arg8) := StableHlo.after_of_writes_sub hostOps2_2 _ hostOps2_2_writes (by decide)
    _ = W6 m c (Proc.devRef .tc main_arg8) := StableHlo.after_of_writes_sub hostOps2_1 _ hostOps2_1_writes (by decide)
    _ = W5 m c (Proc.devRef .tc main_arg8) := StableHlo.after_of_writes_sub hostOps2 _ hostOps2_writes (by decide)
    _ = W4 m c (Proc.devRef .tc main_arg8) := W5_of_ne m c main_arg8 (by decide)
    _ = W3 m c (Proc.devRef .tc main_arg8) := StableHlo.after_of_writes_sub hostOps1 _ hostOps1_writes (by decide)
    _ = W2 m c (Proc.devRef .tc main_arg8) := W3_of_ne m c main_arg8 (by decide)
    _ = W1 m c (Proc.devRef .tc main_arg8) := StableHlo.after_of_writes_sub hostOps0_1 _ hostOps0_1_writes (by decide)
    _ = W0 m c (Proc.devRef .tc main_arg8) := StableHlo.after_of_writes_sub hostOps0 _ hostOps0_writes (by decide)
    _ = X8 m c := rfl

/-- The bias row the last region is entered with. -/
private abbrev kBias (c : Dev nD) : FVec Ideal S1x64 .f32 := W12 m c (Proc.devRef .tc main_v96)

/-- The bias row is the bias vector with a unit axis in front. -/
private theorem kBias_eq (c : Dev nD) :
    kBias m c = shapeCast S1x64 (X8 m c) shapeCasts_S64_S1x64 := by
  show StableHlo.after hostOps3_2 _ (Proc.devRef .tc main_v96) = _
  simp only [hostOps3_2]
  after_results
  rw [w9_arg8]
  rfl

end Args

/-- The bias row read at column `j` is the bias at `j`. -/
private theorem kBias_apply (c : Dev Cert.KernelIdeal.nD) (j : Fin 64) : kBias m c (ix2 0 j) = X8 m c (ix1 j) := by
  rw [kBias_eq]
  exact shapeCast_a_1a_apply (X8 m c) _ 0 j

/-- Entry `(g, j)` of the two results: on both sides the pooled row `g` against column `j` of the weights, plus the
    bias at `j`. -/
private theorem tail_apply (c : Dev Cert.KernelIdeal.nD) (hp : kPooled m c = rPooled m c) (g : Fin 512) (j : Fin 64) :
    kOut m c (ix2 g j) = rOut m c (ix2 g j) := by
  have e_out : kOut m c = r3_out (E12 m) c := W13_arr m c 3
  have e_in : r3_in (E12 m) c = rPooled m c := hp
  have e_w : r3_w (E12 m) c = X7 m c := w12_arg7 m c
  have e_b : r3_b (E12 m) c (ix2 0 j) = X8 m c (ix1 j) := kBias_apply m c j
  rw [e_out, arr3_apply, e_in, e_w, e_b]
  show _ = Cert.ReferenceIdeal.Read.val_main_v92 (F := Ideal) (X0 m c) (X1 m c) (X2 m c) (X3 m c) (X4 m c) (X5 m c) (X6 m c) (X7 m c) (X8 m c) (ix2 g j)
  rw [Cert.ReferenceIdeal.Read.val_main_v92_apply, Cert.ReferenceIdeal.Read.val_main_v89_apply,
    Cert.ReferenceIdeal.Read.val_main_v91_apply, Cert.ReferenceIdeal.Read.val_main_v90_apply, Ideal.addf_def]
  have el : ∀ k : Fin 128, Cert.ReferenceIdeal.Read.lidx_main_v89 (ix2 g j) k = ix2 g k := fun k =>
    funext fun a => Fin.ext (by match a with | ⟨0, _⟩ => rfl | ⟨1, _⟩ => rfl)
  have er : ∀ k : Fin 128, Cert.ReferenceIdeal.Read.ridx_main_v89 (ix2 g j) k = ix2 k j := fun k =>
    funext fun a => Fin.ext (by match a with | ⟨0, _⟩ => rfl | ⟨1, _⟩ => rfl)
  have eb : Cert.ReferenceIdeal.Read.idx_main_v90 (Cert.ReferenceIdeal.Read.idx_main_v91 (ix2 g j)) = ix1 j :=
    funext fun a => Fin.ext (by match a with | ⟨0, _⟩ => rfl)
  simp only [el, er, eb]

theorem tail (c : Dev Cert.KernelIdeal.nD) (hp : kPooled m c = rPooled m c) : kOut m c = rOut m c := by
  funext i
  rw [ValueIdx.eq_ix2 i]
  exact tail_apply m c hp (i 0) (i 1)

end Cert.Bridge

end
-- ==== Proof.lean ====
/-
  A two-layer graph convolution with symmetric normalisation and self-loops, global mean pooling per graph and a dense
  layer, computed by a program of four kernel regions among host operations on node tables padded from 50000 to 50048
  rows, against the same computation written on the host on 50000 rows.

  The two kernel programs' frames: @main is thirteen segments — nine host stretches and four pipelined regions —, each
  region's body certified at every grid point (the pooling region carries its running per-graph sums in a scratch buffer
  between grid points), the buffer contents folded from the launch memory through every segment; no segment writes an
  argument. The reference's frame is its run with the result dropped.

  Equality of the results over the extended reals, given that every edge endpoint is a node and every graph id is
  non-negative: the first kernel region multiplies the zero-padded features by the weights, so below row 50000 its output
  is the reference's product; gathering rows at in-range sources never reads the padding and scatter-adding at in-range
  destinations gives every row below 50000 the same updates, so each convolution layer agrees below row 50000; the
  pooling region counts a row for graph g exactly when its id is g, which is the reference's scatter-add of the rows at
  their ids (the padding rows carry the id 512, no graph's), and counting ids by an integer scatter of ones after clipping
  at zero is the reference's scatter-add of ones when no id is negative; the last region's product plus bias row is the
  reference's matrix product plus broadcast bias.
-/
import proofs.«411454_j24300924961028_1_alg».proof.Defs
import proofs.«411454_j24300924961028_1_alg».proof.Proof.Gen.Kernel
import proofs.«411454_j24300924961028_1_alg».proof.Proof.Gen.KernelIdeal
import proofs.«411454_j24300924961028_1_alg».proof.Proof.Gen.ReferenceIdeal
import proofs.«411454_j24300924961028_1_alg».proof.Proof.Gen.Pre_finite_inputs
import proofs.«411454_j24300924961028_1_alg».proof.Proof.KB.Run
import proofs.«411454_j24300924961028_1_alg».proof.Proof.KI.Run
import proofs.«411454_j24300924961028_1_alg».proof.Proof.RefSide
import proofs.«411454_j24300924961028_1_alg».proof.Proof.Br.Layer1
import proofs.«411454_j24300924961028_1_alg».proof.Proof.Br.Layer2
import proofs.«411454_j24300924961028_1_alg».proof.Proof.Br.Pool
import proofs.«411454_j24300924961028_1_alg».proof.Proof.Br.Tail
import Idealize.ShloMosaic.Adequacy
import Idealize.ShloMosaic.Init

noncomputable section

namespace Cert.Proof

open Idealize.ShloMosaic Idealize.ShloMosaic.TcCoe Idealize.SL.Sem

/-- The word-level program runs and leaves its arguments unchanged. -/
theorem frame_kernel : Cert.frame_Kernel := fun m ρ _ => Cert.Kernel.Hand.frame m ρ

/-- The idealized program runs and leaves its arguments unchanged. -/
theorem frame_kernelIdeal : Cert.frame_KernelIdeal := fun m ρ _ => Cert.KernelIdeal.Hand.frame m ρ

/-- The reference runs and leaves its arguments unchanged: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs run, from memories agreeing on the arguments, to equal results: the kernel program's result buffer
    at the last boundary's contents, the reference's at its composed term, and the two equal layer by layer. -/
theorem algebraic : Cert.algebraic_KernelIdeal_ReferenceIdeal := by
  intro m ρ m' ρ' hpre hagree
  refine ⟨fun c => Cert.KernelIdeal.Hand.W13 m c (Proc.devRef .tc Cert.KernelIdeal.main_v97),
    Cert.KernelIdeal.Hand.run_named m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v92_eq, (hagree c).1, (hagree c).2.1, (hagree c).2.2.1, (hagree c).2.2.2.1,
    (hagree c).2.2.2.2.1, (hagree c).2.2.2.2.2.1, (hagree c).2.2.2.2.2.2.1, (hagree c).2.2.2.2.2.2.2.1,
    (hagree c).2.2.2.2.2.2.2.2]
  exact (Cert.Bridge.tail m c (Cert.Bridge.pooled m hpre c fun i j =>
    Cert.Bridge.layer2 m hpre c (fun i j => Cert.Bridge.layer1 m hpre c i j) i j)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
